-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128x128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x600000 32) (main_arg2 : IVec S100000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S4000x128 : Shape := ⟨2, ![4000, 128]⟩
abbrev S1x1 : Shape := ⟨2, ![1, 1]⟩
abbrev S512x1 : Shape := ⟨2, ![512, 1]⟩
abbrev S4000x1 : Shape := ⟨2, ![4000, 1]⟩
abbrev S512x128 : Shape := ⟨2, ![512, 128]⟩
abbrev S4000x512 : Shape := ⟨2, ![4000, 512]⟩

abbrev nBuf : Space → Nat
  | .hbm => 81
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .f32⟩
  | .hbm, ⟨19, _⟩ => ⟨S600000x1, .f32⟩
  | .hbm, ⟨20, _⟩ => ⟨S_, .f32⟩
  | .hbm, ⟨21, _⟩ => ⟨S100000x1, .f32⟩
  | .hbm, ⟨22, _⟩ => ⟨S600000x1, .i32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S100000x128, .f32⟩
  | .hbm, ⟨55, _⟩ => ⟨S600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S_, .f32⟩
  | .hbm, ⟨71, _⟩ => ⟨S100000x128, .f32⟩
  | .hbm, ⟨72, _⟩ => ⟨S600000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x1, .i32⟩
  | .hbm, ⟨79, _⟩ => ⟨S1x1, .f32⟩
  | .hbm, ⟨80, _⟩ => ⟨S512x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x1, .i32⟩
  | .local _ .vmem, ⟨30, _⟩ => ⟨S4000x1, .i32⟩
  | .local _ .vmem, ⟨31, _⟩ => ⟨S128x1, .f32⟩
  | .local _ .vmem, ⟨32, _⟩ => ⟨S1x1, .f32⟩
  | .local _ .vmem, ⟨33, _⟩ => ⟨S512x1, .f32⟩
  | .local _ .vmem, ⟨34, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S100000x1 : S_.BroadcastsInDim S100000x1 (![] : Fin 0 → Fin S100000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S100000_S100000x1 : S100000.ShapeCasts S100000x1
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x512_d1_w32 : S4000x512.Iotas .tc 32 [1]
  broadcasts_S4000x1_S4000x512 : S4000x1.Broadcasts S4000x512
  natLt_1_32 : 1 < 32
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000x1_S600000x1_S600000x1_1_0_0_1_wf : ScatterDims.WF S100000x1 S600000x1 S600000x1 [1] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S4000x512_S4000x128_S512x128_0_0_1_1_n_n_wf : DotDims.WF S4000x512 S4000x128 S512x128 [0] [0] [1] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .i32 = 32 ∨ (Rect.block (s := S100000x1) S4000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S512x1.size a
  hwx3_4 : ∀ i : grid3.Coords, EltTy.bits .f32 = 32 ∨ (Rect.block (s := S512x1) S512x1.size (cc3_transform_4 i) (hinb3_4 i)).WholeWords (EltTy.packing .f32)

variable [Facts₀]

def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x512_S4000x128_S512x128_0_0_1_1_n_n : DotDims S4000x512 S4000x128 S512x128 where
  lhsContracting := [0]
  rhsContracting := [0]
  lhsNonContracting := [1]
  rhsNonContracting := [1]
  lhsBatch := []
  rhsBatch := []
  wf := dot_S4000x512_S4000x128_S512x128_0_0_1_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v21) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S512x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x1, .f32⟩
  | 13 => ⟨S1, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S_, .f32⟩
  | 28 => ⟨S100000x128, .f32⟩
  | 29 => ⟨S600000x1, .i32⟩
  | 30 => ⟨S100000x128, .f32⟩
  | 31 => ⟨S_, .f32⟩
  | 32 => ⟨S600000x1, .f32⟩
  | 33 => ⟨S_, .f32⟩
  | 34 => ⟨S100000x1, .f32⟩
  | 35 => ⟨S600000x1, .i32⟩
  | 36 => ⟨S100000x1, .f32⟩
  | 37 => ⟨S_, .f32⟩
  | 38 => ⟨S100000x1, .f32⟩
  | 39 => ⟨S100000x1, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S_, .f32⟩
  | 61 => ⟨S100000x128, .f32⟩
  | 62 => ⟨S600000x1, .i32⟩
  | 63 => ⟨S100000x128, .f32⟩
  | 64 => ⟨S_, .f32⟩
  | 65 => ⟨S600000x1, .f32⟩
  | 66 => ⟨S_, .f32⟩
  | 67 => ⟨S100000x1, .f32⟩
  | 68 => ⟨S600000x1, .i32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S_, .f32⟩
  | 94 => ⟨S100000x128, .f32⟩
  | 95 => ⟨S600000x1, .i32⟩
  | 96 => ⟨S100000x128, .f32⟩
  | 97 => ⟨S_, .f32⟩
  | 98 => ⟨S600000x1, .f32⟩
  | 99 => ⟨S_, .f32⟩
  | 100 => ⟨S100000x1, .f32⟩
  | 101 => ⟨S600000x1, .i32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .f32⟩
  | 118 => ⟨S512x128, .f32⟩
  | 119 => ⟨S100000x1, .i32⟩
  | 120 => ⟨S512x128, .f32⟩
  | 121 => ⟨S512x1, .f32⟩
  | 122 => ⟨S1x1, .f32⟩
  | 123 => ⟨S512x1, .f32⟩
  | 124 => ⟨S512x1, .f32⟩
  | 125 => ⟨S512x1, .f32⟩
  | 126 => ⟨S512x1, .f32⟩
  | 127 => ⟨S_, .f32⟩
  | _ => ⟨S100000x128, .f32⟩

abbrev hbmTy0_1 (i : Nat) : BufTy := match i % 128 with
  | 0 => ⟨S512x1, .f32⟩
  | 1 => ⟨S512x1, .f32⟩
  | 2 => ⟨S_, .f32⟩
  | 3 => ⟨S512x1, .f32⟩
  | 4 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_cst : Ref sig .tc := ⟨.hbm, 81, rfl⟩
abbrev main_call1_v0 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call2_cst : Ref sig .tc := ⟨.hbm, 114, rfl⟩
abbrev main_call2_v0 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_v91 : Ref sig .tc := ⟨.hbm, 132, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x1_S512x1_1_0_0_1_n_n_wf : DotDims.WF S512x128 S128x1 S512x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Sage0K.lean ====
/-
  The frame half of kernel region 0 (the first of the program's four kernel calls), for any float family `F`, at a
  parameter `V`: the TensorCore's buffer contents when the region is entered.

  The region's pipeline has six windows over a grid of 25 points: two [4000,128] row blocks that move with the
  point (windows 0 and 1), two [128,128] matrices and a [1,128] bias row that stay at block index zero (windows 2, 3
  and 4), and one [4000,128] output block that moves with the point (window 5). At a point the body reads each input
  buffer whole, reads the output buffer once without using the value, and overwrites the output buffer whole with one
  payload: a function of the five blocks read.

  So what the body finds in an input buffer is that window's block of the entry contents at the point — whether or not
  the pipeline fetched it there, since an unfetched window's block index has not moved —, and what it leaves in the
  output buffer is the payload of the five input blocks, laid over the whole buffer (`out5`). The proof data `dat`
  records exactly that, and `body_obligation` is the body's triple at every point: separation logic only, nothing
  about the values.
-/
import proofs.«405438_j90185723282019_1_alg».proof.Proof.LaunchK
import proofs.«405438_j90185723282019_1_alg».proof.Proof.Gen.Kernel.Skeleton
import proofs.«405438_j90185723282019_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there
    or not (an unfetched window's block index has not moved since the point that fetched it), for ANY proof data
    whose array is `V`'s (`hA`) and whose body leaves the block in place (`hafter`). Each of the five input
    windows is uncut and never idle; the two row blocks move with the point, the two matrices and the bias row
    stay at block index zero. -/
theorem beforeA_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeB_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeC_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeE_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r_blk : Rect S4000x128 := Rect.unit (s := S4000x128) ![0, 0] S4000x128.size inb_S4000x128_S4000x128_0_0
abbrev r_sq : Rect S128x128 := Rect.unit (s := S128x128) ![0, 0] S128x128.size inb_S128x128_S128x128_0_0
abbrev r_row : Rect S1x128 := Rect.unit (s := S1x128) ![0, 0] S1x128.size inb_S1x128_S1x128_0_0

/-! ## What the body leaves in the output window's buffer -/

/-- What the body leaves in the output window's buffer: its one store as a piece. -/
def out5 (x0 x1 : Vec F S4000x128 .f32) (x2 x3 : Vec F S128x128 .f32) (x4 : Vec F S1x128 .f32) : Vec F S4000x128 .f32 :=
  View.canon [⟨r_blk, k0_pay1 (View.ld x0 r_blk) (View.ld x1 r_blk) (View.ld x2 r_sq) (View.ld x3 r_sq) (View.ld x4 r_row)⟩]

/-- The one store's rectangle is the whole buffer, so it covers it. -/
theorem cover (p : Vec F S4000x128 .f32) (y : S4000x128.Idx) :
    ∃ pc ∈ ([⟨r_blk, p⟩] : List (View.Piece (Elt F) S4000x128 .f32)), y ∈ pc.1.set :=
  View.cover_of_tiled [⟨r_blk, p⟩] S4000x128.size (by rfl) y

/-! ## The body's triple -/

set_option maxHeartbeats 1000000 in
/-- The kernel body on whole staging memrefs, the five inputs' at read contents `x0 … x4` and the output's at anything,
    runs to the continuation holding the inputs' as they were and the output's at `out5` of the inputs': the body's
    five loads read the inputs through whole-buffer rectangles, its load of the output buffer is dead, and its one
    store overwrites the output buffer whole. -/
theorem sound_kernel (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 x1 : Vec F S4000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dz, %fz, -, Hz⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hz
  ipureintro
  exact View.read_writes_eq_canon _ _ _ (cover _)

/-! ## The pipeline's proof data -/

/-- The proof data of the pipeline on core `c`: the arrays as the region finds them (`V`); after the body at point
    `t` each input's buffer at its block and the output's at `out5` of the input blocks; the invariant the scoped
    rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-! What the body leaves, window by window. -/
theorem afterA (c : Dev nD) (t : Fin cfg0.N) : (dat V c).after 0 t = iblk V c 0 t := by dsimp only [dat]
theorem afterB (c : Dev nD) (t : Fin cfg0.N) : (dat V c).after 1 t = iblk V c 1 t := by dsimp only [dat]
theorem afterC (c : Dev nD) (t : Fin cfg0.N) : (dat V c).after 2 t = iblk V c 2 t := by dsimp only [dat]
theorem afterD (c : Dev nD) (t : Fin cfg0.N) : (dat V c).after 3 t = iblk V c 3 t := by dsimp only [dat]
theorem afterE (c : Dev nD) (t : Fin cfg0.N) : (dat V c).after 4 t = iblk V c 4 t := by dsimp only [dat]
theorem after_5 (c : Dev nD) (t : Fin cfg0.N) :
    (dat V c).after 5 t = out5 (iblk V c 0 t) (iblk V c 1 t) (iblk V c 2 t) (iblk V c 3 t) (iblk V c 4 t) := by dsimp only [dat]

/-! Each input's current staging buffer holds its block at every point, fetched there or not. -/
theorem beforeA (c : Dev nD) (t : Fin cfg0.N) (d) : (dat V c).before 0 t d = iblk V c 0 t :=
  beforeA_of V (dat V c) (A_eq V c 0) (afterA V c) t d
theorem beforeB (c : Dev nD) (t : Fin cfg0.N) (d) : (dat V c).before 1 t d = iblk V c 1 t :=
  beforeB_of V (dat V c) (A_eq V c 1) (afterB V c) t d
theorem beforeC (c : Dev nD) (t : Fin cfg0.N) (d) : (dat V c).before 2 t d = iblk V c 2 t :=
  beforeC_of V (dat V c) (A_eq V c 2) (afterC V c) t d
theorem beforeD (c : Dev nD) (t : Fin cfg0.N) (d) : (dat V c).before 3 t d = iblk V c 3 t :=
  beforeD_of V (dat V c) (A_eq V c 3) (afterD V c) t d
theorem beforeE (c : Dev nD) (t : Fin cfg0.N) (d) : (dat V c).before 4 t d = iblk V c 4 t :=
  beforeE_of V (dat V c) (A_eq V c 4) (afterE V c) t d

/-! ## The body obligation, at a generic point -/

/-- What the body is called with at point `t`: the invariant, the core's debts, and the six windows' current staging
    buffers one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks, so `sound_kernel` applies at those blocks; the
    invariant and the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [beforeA, beforeB, beforeC, beforeD, beforeE]
  rw [show (dat V c).Φ t.succ = (dat V c).Φ t.castSucc from rfl,
    show (dat V c).owesAt () t.succ = (dat V c).owesAt () t.castSucc from rfl,
    afterA, afterB, afterC, afterD, afterE, after_5]
  iintro ⟨HΦ, Ho, ⟨%da, Ha⟩, ⟨%db, Hb⟩, ⟨%dc, Hc⟩, ⟨%dd, Hd⟩, ⟨%de, He⟩, ⟨%dz, Hz⟩⟩
  iapply (sound_kernel c Set.univ _ _ _ _ _ _ _ _ _ _ _ _ _
    (iblk V c 0 t) (iblk V c 1 t) (iblk V c 2 t) (iblk V c 3 t) (iblk V c 4 t) _)
  isplitl [Ha]; · iexact Ha
  isplitl [Hb]; · iexact Hb
  isplitl [Hc]; · iexact Hc
  isplitl [Hd]; · iexact Hd
  isplitl [He]; · iexact He
  isplitl [Hz]; · iexists _; iexact Hz
  iintro ⟨Ha, Hb, Hc, Hd, He, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hz

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0
end
-- ==== Proof.Sage1K.lean ====
/-
  The frame half of kernel region 0 (the first of the program's four kernel calls), for any float family `F`, at a
  parameter `V`: the TensorCore's buffer contents when the region is entered.

  The region's pipeline has six windows over a grid of 25 points: two [4000,128] row blocks that move with the
  point (windows 0 and 1), two [128,128] matrices and a [1,128] bias row that stay at block index zero (windows 2, 3
  and 4), and one [4000,128] output block that moves with the point (window 5). At a point the body reads each input
  buffer whole, reads the output buffer once without using the value, and overwrites the output buffer whole with one
  payload: a function of the five blocks read.

  So what the body finds in an input buffer is that window's block of the entry contents at the point — whether or not
  the pipeline fetched it there, since an unfetched window's block index has not moved —, and what it leaves in the
  output buffer is the payload of the five input blocks, laid over the whole buffer (`out5`). The proof data `dat`
  records exactly that, and `body_obligation` is the body's triple at every point: separation logic only, nothing
  about the values.
-/
import proofs.«405438_j90185723282019_1_alg».proof.Proof.LaunchK
import proofs.«405438_j90185723282019_1_alg».proof.Proof.Gen.Kernel.Skeleton
import proofs.«405438_j90185723282019_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there
    or not (an unfetched window's block index has not moved since the point that fetched it), for ANY proof data
    whose array is `V`'s (`hA`) and whose body leaves the block in place (`hafter`). Each of the five input
    windows is uncut and never idle; the two row blocks move with the point, the two matrices and the bias row
    stay at block index zero. -/
theorem beforeA_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeB_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeC_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeE_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r_blk : Rect S4000x128 := Rect.unit (s := S4000x128) ![0, 0] S4000x128.size inb_S4000x128_S4000x128_0_0
abbrev r_sq : Rect S128x128 := Rect.unit (s := S128x128) ![0, 0] S128x128.size inb_S128x128_S128x128_0_0
abbrev r_row : Rect S1x128 := Rect.unit (s := S1x128) ![0, 0] S1x128.size inb_S1x128_S1x128_0_0

/-! ## What the body leaves in the output window's buffer -/

/-- What the body leaves in the output window's buffer: its one store as a piece. -/
def out5 (x0 x1 : Vec F S4000x128 .f32) (x2 x3 : Vec F S128x128 .f32) (x4 : Vec F S1x128 .f32) : Vec F S4000x128 .f32 :=
  View.canon [⟨r_blk, k1_pay1 (View.ld x0 r_blk) (View.ld x1 r_blk) (View.ld x2 r_sq) (View.ld x3 r_sq) (View.ld x4 r_row)⟩]

/-- The one store's rectangle is the whole buffer, so it covers it. -/
theorem cover (p : Vec F S4000x128 .f32) (y : S4000x128.Idx) :
    ∃ pc ∈ ([⟨r_blk, p⟩] : List (View.Piece (Elt F) S4000x128 .f32)), y ∈ pc.1.set :=
  View.cover_of_tiled [⟨r_blk, p⟩] S4000x128.size (by rfl) y

/-! ## The body's triple -/

set_option maxHeartbeats 1000000 in
/-- The kernel body on whole staging memrefs, the five inputs' at read contents `x0 … x4` and the output's at anything,
    runs to the continuation holding the inputs' as they were and the output's at `out5` of the inputs': the body's
    five loads read the inputs through whole-buffer rectangles, its load of the output buffer is dead, and its one
    store overwrites the output buffer whole. -/
theorem sound_kernel (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 x1 : Vec F S4000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dz, %fz, -, Hz⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hz
  ipureintro
  exact View.read_writes_eq_canon _ _ _ (cover _)

/-! ## The pipeline's proof data -/

/-- The proof data of the pipeline on core `c`: the arrays as the region finds them (`V`); after the body at point
    `t` each input's buffer at its block and the output's at `out5` of the input blocks; the invariant the scoped
    rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-! What the body leaves, window by window. -/
theorem afterA (c : Dev nD) (t : Fin cfg1.N) : (dat V c).after 0 t = iblk V c 0 t := by dsimp only [dat]
theorem afterB (c : Dev nD) (t : Fin cfg1.N) : (dat V c).after 1 t = iblk V c 1 t := by dsimp only [dat]
theorem afterC (c : Dev nD) (t : Fin cfg1.N) : (dat V c).after 2 t = iblk V c 2 t := by dsimp only [dat]
theorem afterD (c : Dev nD) (t : Fin cfg1.N) : (dat V c).after 3 t = iblk V c 3 t := by dsimp only [dat]
theorem afterE (c : Dev nD) (t : Fin cfg1.N) : (dat V c).after 4 t = iblk V c 4 t := by dsimp only [dat]
theorem after_5 (c : Dev nD) (t : Fin cfg1.N) :
    (dat V c).after 5 t = out5 (iblk V c 0 t) (iblk V c 1 t) (iblk V c 2 t) (iblk V c 3 t) (iblk V c 4 t) := by dsimp only [dat]

/-! Each input's current staging buffer holds its block at every point, fetched there or not. -/
theorem beforeA (c : Dev nD) (t : Fin cfg1.N) (d) : (dat V c).before 0 t d = iblk V c 0 t :=
  beforeA_of V (dat V c) (A_eq V c 0) (afterA V c) t d
theorem beforeB (c : Dev nD) (t : Fin cfg1.N) (d) : (dat V c).before 1 t d = iblk V c 1 t :=
  beforeB_of V (dat V c) (A_eq V c 1) (afterB V c) t d
theorem beforeC (c : Dev nD) (t : Fin cfg1.N) (d) : (dat V c).before 2 t d = iblk V c 2 t :=
  beforeC_of V (dat V c) (A_eq V c 2) (afterC V c) t d
theorem beforeD (c : Dev nD) (t : Fin cfg1.N) (d) : (dat V c).before 3 t d = iblk V c 3 t :=
  beforeD_of V (dat V c) (A_eq V c 3) (afterD V c) t d
theorem beforeE (c : Dev nD) (t : Fin cfg1.N) (d) : (dat V c).before 4 t d = iblk V c 4 t :=
  beforeE_of V (dat V c) (A_eq V c 4) (afterE V c) t d

/-! ## The body obligation, at a generic point -/

/-- What the body is called with at point `t`: the invariant, the core's debts, and the six windows' current staging
    buffers one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so `sound_kernel` applies at those blocks; the
    invariant and the core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [beforeA, beforeB, beforeC, beforeD, beforeE]
  rw [show (dat V c).Φ t.succ = (dat V c).Φ t.castSucc from rfl,
    show (dat V c).owesAt () t.succ = (dat V c).owesAt () t.castSucc from rfl,
    afterA, afterB, afterC, afterD, afterE, after_5]
  iintro ⟨HΦ, Ho, ⟨%da, Ha⟩, ⟨%db, Hb⟩, ⟨%dc, Hc⟩, ⟨%dd, Hd⟩, ⟨%de, He⟩, ⟨%dz, Hz⟩⟩
  iapply (sound_kernel c Set.univ _ _ _ _ _ _ _ _ _ _ _ _ _
    (iblk V c 0 t) (iblk V c 1 t) (iblk V c 2 t) (iblk V c 3 t) (iblk V c 4 t) _)
  isplitl [Ha]; · iexact Ha
  isplitl [Hb]; · iexact Hb
  isplitl [Hc]; · iexact Hc
  isplitl [Hd]; · iexact Hd
  isplitl [He]; · iexact He
  isplitl [Hz]; · iexists _; iexact Hz
  iintro ⟨Ha, Hb, Hc, Hd, He, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hz

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1
end
-- ==== Proof.Sage2K.lean ====
/-
  The frame half of kernel region 0 (the first of the program's four kernel calls), for any float family `F`, at a
  parameter `V`: the TensorCore's buffer contents when the region is entered.

  The region's pipeline has six windows over a grid of 25 points: two [4000,128] row blocks that move with the
  point (windows 0 and 1), two [128,128] matrices and a [1,128] bias row that stay at block index zero (windows 2, 3
  and 4), and one [4000,128] output block that moves with the point (window 5). At a point the body reads each input
  buffer whole, reads the output buffer once without using the value, and overwrites the output buffer whole with one
  payload: a function of the five blocks read.

  So what the body finds in an input buffer is that window's block of the entry contents at the point — whether or not
  the pipeline fetched it there, since an unfetched window's block index has not moved —, and what it leaves in the
  output buffer is the payload of the five input blocks, laid over the whole buffer (`out5`). The proof data `dat`
  records exactly that, and `body_obligation` is the body's triple at every point: separation logic only, nothing
  about the values.
-/
import proofs.«405438_j90185723282019_1_alg».proof.Proof.LaunchK
import proofs.«405438_j90185723282019_1_alg».proof.Proof.Gen.Kernel.Skeleton
import proofs.«405438_j90185723282019_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.R2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there
    or not (an unfetched window's block index has not moved since the point that fetched it), for ANY proof data
    whose array is `V`'s (`hA`) and whose body leaves the block in place (`hafter`). Each of the five input
    windows is uncut and never idle; the two row blocks move with the point, the two matrices and the bias row
    stay at block index zero. -/
theorem beforeA_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeB_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeC_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeE_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r_blk : Rect S4000x128 := Rect.unit (s := S4000x128) ![0, 0] S4000x128.size inb_S4000x128_S4000x128_0_0
abbrev r_sq : Rect S128x128 := Rect.unit (s := S128x128) ![0, 0] S128x128.size inb_S128x128_S128x128_0_0
abbrev r_row : Rect S1x128 := Rect.unit (s := S1x128) ![0, 0] S1x128.size inb_S1x128_S1x128_0_0

/-! ## What the body leaves in the output window's buffer -/

/-- What the body leaves in the output window's buffer: its one store as a piece. -/
def out5 (x0 x1 : Vec F S4000x128 .f32) (x2 x3 : Vec F S128x128 .f32) (x4 : Vec F S1x128 .f32) : Vec F S4000x128 .f32 :=
  View.canon [⟨r_blk, k2_pay1 (View.ld x0 r_blk) (View.ld x1 r_blk) (View.ld x2 r_sq) (View.ld x3 r_sq) (View.ld x4 r_row)⟩]

/-- The one store's rectangle is the whole buffer, so it covers it. -/
theorem cover (p : Vec F S4000x128 .f32) (y : S4000x128.Idx) :
    ∃ pc ∈ ([⟨r_blk, p⟩] : List (View.Piece (Elt F) S4000x128 .f32)), y ∈ pc.1.set :=
  View.cover_of_tiled [⟨r_blk, p⟩] S4000x128.size (by rfl) y

/-! ## The body's triple -/

set_option maxHeartbeats 1000000 in
/-- The kernel body on whole staging memrefs, the five inputs' at read contents `x0 … x4` and the output's at anything,
    runs to the continuation holding the inputs' as they were and the output's at `out5` of the inputs': the body's
    five loads read the inputs through whole-buffer rectangles, its load of the output buffer is dead, and its one
    store overwrites the output buffer whole. -/
theorem sound_kernel (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 x1 : Vec F S4000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dz, %fz, -, Hz⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hz
  ipureintro
  exact View.read_writes_eq_canon _ _ _ (cover _)

/-! ## The pipeline's proof data -/

/-- The proof data of the pipeline on core `c`: the arrays as the region finds them (`V`); after the body at point
    `t` each input's buffer at its block and the output's at `out5` of the input blocks; the invariant the scoped
    rest and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec2 c
  q _ := fullShare
  owed _ := 0

/-- The proof data's arrays are the region-entry contents. -/
theorem A_eq (c : Dev nD) (w : Fin cfg2.W) : (dat V c).A w = V c (Pipeline.arrRef spec2 w) := by
  dsimp only [dat]

/-! What the body leaves, window by window. -/
theorem afterA (c : Dev nD) (t : Fin cfg2.N) : (dat V c).after 0 t = iblk V c 0 t := by dsimp only [dat]
theorem afterB (c : Dev nD) (t : Fin cfg2.N) : (dat V c).after 1 t = iblk V c 1 t := by dsimp only [dat]
theorem afterC (c : Dev nD) (t : Fin cfg2.N) : (dat V c).after 2 t = iblk V c 2 t := by dsimp only [dat]
theorem afterD (c : Dev nD) (t : Fin cfg2.N) : (dat V c).after 3 t = iblk V c 3 t := by dsimp only [dat]
theorem afterE (c : Dev nD) (t : Fin cfg2.N) : (dat V c).after 4 t = iblk V c 4 t := by dsimp only [dat]
theorem after_5 (c : Dev nD) (t : Fin cfg2.N) :
    (dat V c).after 5 t = out5 (iblk V c 0 t) (iblk V c 1 t) (iblk V c 2 t) (iblk V c 3 t) (iblk V c 4 t) := by dsimp only [dat]

/-! Each input's current staging buffer holds its block at every point, fetched there or not. -/
theorem beforeA (c : Dev nD) (t : Fin cfg2.N) (d) : (dat V c).before 0 t d = iblk V c 0 t :=
  beforeA_of V (dat V c) (A_eq V c 0) (afterA V c) t d
theorem beforeB (c : Dev nD) (t : Fin cfg2.N) (d) : (dat V c).before 1 t d = iblk V c 1 t :=
  beforeB_of V (dat V c) (A_eq V c 1) (afterB V c) t d
theorem beforeC (c : Dev nD) (t : Fin cfg2.N) (d) : (dat V c).before 2 t d = iblk V c 2 t :=
  beforeC_of V (dat V c) (A_eq V c 2) (afterC V c) t d
theorem beforeD (c : Dev nD) (t : Fin cfg2.N) (d) : (dat V c).before 3 t d = iblk V c 3 t :=
  beforeD_of V (dat V c) (A_eq V c 3) (afterD V c) t d
theorem beforeE (c : Dev nD) (t : Fin cfg2.N) (d) : (dat V c).before 4 t d = iblk V c 4 t :=
  beforeE_of V (dat V c) (A_eq V c 4) (afterE V c) t d

/-! ## The body obligation, at a generic point -/

/-- What the body is called with at point `t`: the invariant, the core's debts, and the six windows' current staging
    buffers one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks, so `sound_kernel` applies at those blocks; the
    invariant and the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [beforeA, beforeB, beforeC, beforeD, beforeE]
  rw [show (dat V c).Φ t.succ = (dat V c).Φ t.castSucc from rfl,
    show (dat V c).owesAt () t.succ = (dat V c).owesAt () t.castSucc from rfl,
    afterA, afterB, afterC, afterD, afterE, after_5]
  iintro ⟨HΦ, Ho, ⟨%da, Ha⟩, ⟨%db, Hb⟩, ⟨%dc, Hc⟩, ⟨%dd, Hd⟩, ⟨%de, He⟩, ⟨%dz, Hz⟩⟩
  iapply (sound_kernel c Set.univ _ _ _ _ _ _ _ _ _ _ _ _ _
    (iblk V c 0 t) (iblk V c 1 t) (iblk V c 2 t) (iblk V c 3 t) (iblk V c 4 t) _)
  isplitl [Ha]; · iexact Ha
  isplitl [Hb]; · iexact Hb
  isplitl [Hc]; · iexact Hc
  isplitl [Hd]; · iexact Hd
  isplitl [He]; · iexact He
  isplitl [Hz]; · iexists _; iexact Hz
  iintro ⟨Ha, Hb, Hc, Hd, He, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hz

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.R2
end
-- ==== Proof.Pool3K.lean ====
/- Region 3, the pooling kernel, as one pipeline of 25 grid points: the frame half.

   The kernel keeps a 512×128 accumulator in a scratch block that lives from point to point. At the FIRST point
   (coordinate 0) it fills the accumulator with zeros; at EVERY point it adds to the accumulator the product of the
   transposed one-hot matrix of the point's 4000 segment ids with the point's 4000×128 block of rows (both factors
   rounded to bfloat16, the product an f32 block); at the LAST point (coordinate 24) it multiplies the accumulator
   by the 128×1 weight (both rounded to bfloat16), adds the 1×1 bias, applies the logistic and stores the 512×1
   result into the one output window. So a point is in one of three cases — first, middle, last — and both
   conditions at once would make a point 0 and 24.

   What the accumulator holds after point n is defined by recursion on n: after point 0 the step applied to the zero
   block and the blocks of point 0, after point n + 1 the step applied to what point n left and the blocks of point
   n + 1. The output window's buffer is stored at the last point only; at the other points it is idle: handed to the
   body and taken back untouched, and not written back.

   The invariant carried between points: before point 0, every scoped buffer that is no staging buffer at some
   contents and the generator register at some state; after point n, the same with the accumulator's block at exactly
   what point n left, every other such buffer still unopened. Each input window's staging buffer holds the window's
   block of its array at every point, fetched there or not, since an unfetched window's block index has not moved.
   After the last point the accumulator's contents are forgotten and the first form is handed back. -/
import proofs.«405438_j90185723282019_1_alg».proof.Proof.LaunchK
import proofs.«405438_j90185723282019_1_alg».proof.Proof.Gen.Kernel.Skeleton
import proofs.«405438_j90185723282019_1_alg».proof.Proof.Gen.Kernel.Points
import Idealize.ShloMosaic.Lib.Pipeline.FrameBody
import Idealize.ShloMosaic.Lib.Ring
import Idealize.ShloMosaic.Lib.Tactic
/-! # Region 3 (the pooling kernel), the frame half

One kernel region of 25 grid points. The kernel carries a scratch block of 512×128 floats from point to point:
at the first point it fills the scratch with zeros; at every point it adds into the scratch the product of the
one-hot matrix of the point's segment ids with the point's block of rows; at the last point it projects the scratch
through a 128×1 weight, adds the bias, applies the logistic, and stores the 512×1 result into the one output
window. So the points fall into three cases — the first, the middle ones, the last — and the region's invariant
names the scratch's contents after each point by recursion on the point (`outsAt`).

Everything is generic in the float family `F` and stated at a parameter `V`: the TensorCore's buffer contents when
the region is entered. -/
set_option maxRecDepth 16384
noncomputable section
namespace Cert.Kernel.R3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array at the contents the region is entered with. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's two conditions, in closed form over the 25 points -/

/-- The first conditional's test: the grid coordinate equals 0. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 25 = 0 :=
  (by decide +kernel : ∀ t : Fin grid3.N, cond3_0 (grid3.coords t) ↔ t.val % 25 = 0)

/-- The second conditional's test: the grid coordinate equals 24. -/
abbrev cond3_1 (i : grid3.Coords) : Prop := k3_cond2 i = 1#1
/-- It holds at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

/-! ## Where the windows are idle -/

/-- The four inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Where the second conditional is not taken the output window is idle and its block is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- Where it is taken the output window is live. -/
theorem liveAt3_4 : ∀ t : Fin cfg3.N, cond3_1 (grid3.coords t) → cfg3.idle 4 (grid3.coords t) = false := by decide +kernel

/-! ## The staging memrefs and the scratch -/

/-- One staging buffer of the output window, through which its contents are stated. -/
abbrev VO3_4 : View sig .tc .vmem S512x1 .f32 := (Memref.whole cc3_stg4_0 : Memref sig .tc .vmem S512x1 .f32).view
/-- Each window's current staging memref at point `t`, and its wholeness. -/
abbrev ms3_0 (t : Fin cfg3.N) : Memref sig .tc .vmem S4000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x1 .f32 := win3_4.stage (cfg3.slots t 4)
abbrev hs3_4 (t : Fin cfg3.N) : (ms3_4 t).IsWhole := hstage3_4 ((cfg3.slots t 4).cast nbuf3_4)
/-- The scratch operand: a whole scoped buffer of the kernel's own, carried from point to point. -/
abbrev scM3_0 : Memref sig .tc .vmem S512x128 .f32 := Memref.whole cc3_scratch0
abbrev VS3_0 : View sig .tc .vmem S512x128 .f32 := scM3_0.view

/-- The region's invariant with the scratch split off as a memref owned at some contents; every other scoped
    buffer stays unopened beside it. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

set_option maxHeartbeats 1000000 in
/-- The body at the FIRST point (first conditional taken, second not): on whole memrefs — the four inputs at their
    contents, the output's buffer at contents `xi4` it does not touch, the scratch at some contents — it runs to
    the continuation holding the inputs and the output's buffer as they were and the scratch with the pieces `LS0`
    written: the zero fill, then the accumulated sum over it. The pieces are the witness the run finds. -/
noncomputable def kernelRun3_A (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : cond3_0 i) (hc1 : ¬cond3_1 i)
    (x0 : Vec F S4000x128 .f32) (x1 : Vec F S4000x1 .i32) (x2 : Vec F S128x1 .f32) (x3 : Vec F S1x1 .f32) :
    Σ' (L4 : List (View.Piece (Elt F) S512x1 .f32)), { LS0 : List (View.Piece (Elt F) S512x128 .f32) //
      ∀ (xi4 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨[], ?_, fun xi4 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 1000000 in
/-- The body at a MIDDLE point (neither conditional taken): the inputs at their contents, the output's buffer at
    contents `xi4` it does not touch, the scratch at what the point before left (`xs0`); it runs to the continuation
    holding the inputs and the output's buffer as they were and the scratch with the pieces `LS0` written: the
    accumulated sum over `xs0`. -/
noncomputable def kernelRun3_B (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : ¬cond3_1 i)
    (x0 : Vec F S4000x128 .f32) (x1 : Vec F S4000x1 .i32) (x2 : Vec F S128x1 .f32) (x3 : Vec F S1x1 .f32) (xs0 : Vec F S512x128 .f32) :
    Σ' (L4 : List (View.Piece (Elt F) S512x1 .f32)), { LS0 : List (View.Piece (Elt F) S512x128 .f32) //
      ∀ (xi4 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨[], ?_, fun xi4 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 1000000 in
/-- The body at the LAST point (second conditional taken, first not): the inputs at their contents, the output's
    buffer at anything, the scratch at what the point before left (`xs0`); it runs to the continuation holding the
    inputs as they were, the scratch with the pieces `LS0` written (the accumulated sum over `xs0`) and the output's
    buffer with the pieces `L4` written (the projection of that sum through the logistic). -/
noncomputable def kernelRun3_C (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) :
    Σ' (L4 : List (View.Piece (Elt F) S512x1 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

/-! ## What each case leaves in the output's buffer and in the scratch -/

/-- At the first point nothing is stored into the output window (idle there, not written back): no pieces — a
    placeholder nothing consults. -/
def out3_A_4 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : cond3_0 i) (hc1 : ¬cond3_1 i)
    (x0 : Vec F S4000x128 .f32) (x1 : Vec F S4000x1 .i32) (x2 : Vec F S128x1 .f32) (x3 : Vec F S1x1 .f32) : Vec F S512x1 .f32 :=
  VO3_4.read (Elt F) (VO3_4.writes (Elt F) VO3_4.junk (kernelRun3_A c i arg1 harg1 arg2 harg2 arg3 harg3 arg4 harg4 arg5 harg5 arg6 harg6 hc0 hc1 x0 x1 x2 x3).1)

/-- The first point's pieces for the scratch cover it (each of the two stores writes the whole block). -/
theorem scover3_A_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : cond3_0 i) (hc1 : ¬cond3_1 i)
    (x0 : Vec F S4000x128 .f32) (x1 : Vec F S4000x1 .i32) (x2 : Vec F S128x1 .f32) (x3 : Vec F S1x1 .f32) (y : S512x128.Idx) :
    ∃ pc ∈ (kernelRun3_A c i arg1 harg1 arg2 harg2 arg3 harg3 arg4 harg4 arg5 harg5 arg6 harg6 hc0 hc1 x0 x1 x2 x3).2.1, y ∈ pc.1.set :=
  View.cover_of_tiledL (kernelRun3_A c i arg1 harg1 arg2 harg2 arg3 harg3 arg4 harg4 arg5 harg5 arg6 harg6 hc0 hc1 x0 x1 x2 x3).2.1 S512x128.size (by sl_kernel_rfl) y

/-- What the first point leaves in the scratch: its pieces read back. -/
def sout3_A_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : cond3_0 i) (hc1 : ¬cond3_1 i)
    (x0 : Vec F S4000x128 .f32) (x1 : Vec F S4000x1 .i32) (x2 : Vec F S128x1 .f32) (x3 : Vec F S1x1 .f32) : Vec F S512x128 .f32 :=
  VS3_0.read (Elt F) (VS3_0.writes (Elt F) VS3_0.junk (kernelRun3_A c i arg1 harg1 arg2 harg2 arg3 harg3 arg4 harg4 arg5 harg5 arg6 harg6 hc0 hc1 x0 x1 x2 x3).2.1)

/-- At a middle point nothing is stored into the output window either: a placeholder. -/
def out3_B_4 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : ¬cond3_1 i)
    (x0 : Vec F S4000x128 .f32) (x1 : Vec F S4000x1 .i32) (x2 : Vec F S128x1 .f32) (x3 : Vec F S1x1 .f32) (xs0 : Vec F S512x128 .f32) : Vec F S512x1 .f32 :=
  VO3_4.read (Elt F) (VO3_4.writes (Elt F) VO3_4.junk (kernelRun3_B c i arg1 harg1 arg2 harg2 arg3 harg3 arg4 harg4 arg5 harg5 arg6 harg6 hc0 hc1 x0 x1 x2 x3 xs0).1)

/-- A middle point's one store into the scratch writes the whole block. -/
theorem scover3_B_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : ¬cond3_1 i)
    (x0 : Vec F S4000x128 .f32) (x1 : Vec F S4000x1 .i32) (x2 : Vec F S128x1 .f32) (x3 : Vec F S1x1 .f32) (xs0 : Vec F S512x128 .f32) (y : S512x128.Idx) :
    ∃ pc ∈ (kernelRun3_B c i arg1 harg1 arg2 harg2 arg3 harg3 arg4 harg4 arg5 harg5 arg6 harg6 hc0 hc1 x0 x1 x2 x3 xs0).2.1, y ∈ pc.1.set :=
  View.cover_of_tiledL (kernelRun3_B c i arg1 harg1 arg2 harg2 arg3 harg3 arg4 harg4 arg5 harg5 arg6 harg6 hc0 hc1 x0 x1 x2 x3 xs0).2.1 S512x128.size (by sl_kernel_rfl) y

/-- What a middle point leaves in the scratch. -/
def sout3_B_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : ¬cond3_1 i)
    (x0 : Vec F S4000x128 .f32) (x1 : Vec F S4000x1 .i32) (x2 : Vec F S128x1 .f32) (x3 : Vec F S1x1 .f32) (xs0 : Vec F S512x128 .f32) : Vec F S512x128 .f32 :=
  VS3_0.read (Elt F) (VS3_0.writes (Elt F) VS3_0.junk (kernelRun3_B c i arg1 harg1 arg2 harg2 arg3 harg3 arg4 harg4 arg5 harg5 arg6 harg6 hc0 hc1 x0 x1 x2 x3 xs0).2.1)

/-- The last point's one store into the output window writes its whole block. -/
theorem cover3_C_4 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) (y : S512x1.Idx) :
    ∃ pc ∈ (kernelRun3_C c i arg1 harg1 arg2 harg2 arg3 harg3 arg4 harg4 arg5 harg5 arg6 harg6 hc0 hc1 x0 x1 x2 x3 xs0).1, y ∈ pc.1.set :=
  View.cover_of_tiledL (kernelRun3_C c i arg1 harg1 arg2 harg2 arg3 harg3 arg4 harg4 arg5 harg5 arg6 harg6 hc0 hc1 x0 x1 x2 x3 xs0).1 S512x1.size (by sl_kernel_rfl) y

/-- What the last point leaves in the output's buffer. -/
def out3_C_4 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) : Vec F S512x1 .f32 :=
  VO3_4.read (Elt F) (VO3_4.writes (Elt F) VO3_4.junk (kernelRun3_C c i arg1 harg1 arg2 harg2 arg3 harg3 arg4 harg4 arg5 harg5 arg6 harg6 hc0 hc1 x0 x1 x2 x3 xs0).1)

/-- The last point's one store into the scratch writes the whole block. -/
theorem scover3_C_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) (y : S512x128.Idx) :
    ∃ pc ∈ (kernelRun3_C c i arg1 harg1 arg2 harg2 arg3 harg3 arg4 harg4 arg5 harg5 arg6 harg6 hc0 hc1 x0 x1 x2 x3 xs0).2.1, y ∈ pc.1.set :=
  View.cover_of_tiledL (kernelRun3_C c i arg1 harg1 arg2 harg2 arg3 harg3 arg4 harg4 arg5 harg5 arg6 harg6 hc0 hc1 x0 x1 x2 x3 xs0).2.1 S512x128.size (by sl_kernel_rfl) y

/-- What the last point leaves in the scratch. -/
def sout3_C_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) : Vec F S512x128 .f32 :=
  VS3_0.read (Elt F) (VS3_0.writes (Elt F) VS3_0.junk (kernelRun3_C c i arg1 harg1 arg2 harg2 arg3 harg3 arg4 harg4 arg5 harg5 arg6 harg6 hc0 hc1 x0 x1 x2 x3 xs0).2.1)

/-! ## What the output's buffer and the scratch hold after each point -/

/-- The first point is in the first case. -/
theorem cond3_0_zero (hn : 0 < cfg3.N) : cond3_0 (grid3.coords ⟨0, hn⟩) := (hcond3_0 ⟨0, hn⟩).mpr (Nat.zero_mod _)
theorem ncond3_1_zero (hn : 0 < cfg3.N) : ¬cond3_1 (grid3.coords ⟨0, hn⟩) := fun h => by
  have h' := (hcond3_1 ⟨0, hn⟩).mp h; dsimp only at h'; omega
/-- No later point is. -/
theorem ncond3_0_succ (n : ℕ) (hn : n + 1 < cfg3.N) : ¬cond3_0 (grid3.coords ⟨n + 1, hn⟩) := fun h => by
  have h' := (hcond3_0 ⟨n + 1, hn⟩).mp h
  have hN : n + 1 < 25 := lt_of_lt_of_eq hn (show cfg3.N = 25 from N_3)
  dsimp only at h'; omega

/-- THE ACCUMULATION. What the output window's staging buffer and the scratch hold after the body at position `n`
    (a pair: the output, then the scratch): the first point's case at the input blocks; a later point's case — the
    last if `n % 25 = 24`, a middle one otherwise — at the input blocks and at the scratch the point before left. -/
def outsAt (c : Dev nD) : (n : ℕ) → n < cfg3.N → Vec F S512x1 .f32 × Vec F S512x128 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) (cond3_0_zero hn) (ncond3_1_zero hn) (iblk V c 0 ⟨0, hn⟩) (iblk V c 1 ⟨0, hn⟩) (iblk V c 2 ⟨0, hn⟩) (iblk V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) (cond3_0_zero hn) (ncond3_1_zero hn) (iblk V c 0 ⟨0, hn⟩) (iblk V c 1 ⟨0, hn⟩) (iblk V c 2 ⟨0, hn⟩) (iblk V c 3 ⟨0, hn⟩))
  | n + 1, hn =>
    if h1 : (n + 1) % 25 = 24 then
      (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
    else
      (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

/-- `outsAt` at the first point: the first case's contents. -/
theorem outsAt_A (c : Dev nD) (t : Fin cfg3.N) (h0 : t.val % 25 = 0) (h1 : ¬t.val % 25 = 24) :
    outsAt V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk V c 0 t) (iblk V c 1 t) (iblk V c 2 t) (iblk V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk V c 0 t) (iblk V c 1 t) (iblk V c 2 t) (iblk V c 3 t)) := by
  obtain ⟨n, hn⟩ := t
  cases n with
  | zero => exact rfl
  | succ n => exfalso; have hN : n + 1 < 25 := lt_of_lt_of_eq hn (show cfg3.N = 25 from N_3); dsimp only at h0; omega

/-- `outsAt` at a middle point: the middle case's contents, over the scratch the point before left. -/
theorem outsAt_B (c : Dev nD) (t : Fin cfg3.N) (h0 : ¬t.val % 25 = 0) (h1 : ¬t.val % 25 = 24) :
    outsAt V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk V c 0 t) (iblk V c 1 t) (iblk V c 2 t) (iblk V c 3 t) (outsAt V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact absurd (Nat.zero_mod _) h0
  | succ n => exact (dif_neg h1).trans rfl

/-- `outsAt` at the last point: the last case's contents, over the scratch the point before left. -/
theorem outsAt_C (c : Dev nD) (t : Fin cfg3.N) (h0 : ¬t.val % 25 = 0) (h1 : t.val % 25 = 24) :
    outsAt V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk V c 0 t) (iblk V c 1 t) (iblk V c 2 t) (iblk V c 3 t) (outsAt V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-! ## The invariant -/

/-- The region's invariant before position `n`: before the first point the launch's (every scoped buffer that is no
    staging buffer at anything); afterwards the scratch at what the point before left in it, every other such buffer
    unopened at anything, the generator register at some state. -/
def PhiS (c : Dev nD) : (n : ℕ) → n ≤ cfg3.N → sProp 𝕄
  | 0, _ => Pipeline.ΦA spec3 c
  | n + 1, hn => iprop(iprop(owns (c : Thread nD τ) scM3_0 fullShare ((outsAt V c n hn).2)
      ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM3_0 fullShare ((outsAt V c n hn).2)
      ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM3_0 fullShare ((outsAt V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt`'s first component; the invariant `PhiS`; nothing
    owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = (outsAt V c t.val t.isLt).1 := by dsimp only [dat]

/-- Each input's current staging buffer holds its block at every point, fetched there or not: an unfetched
    window's block index has not moved since the point before. -/
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms3_0 t) fullShare ((dat V c).before 0 t d))
    ∗ (∃ d, owns (c : Thread nD τ) (ms3_1 t) fullShare ((dat V c).before 1 t d))
    ∗ (∃ d, owns (c : Thread nD τ) (ms3_2 t) fullShare ((dat V c).before 2 t d))
    ∗ (∃ d, owns (c : Thread nD τ) (ms3_3 t) fullShare ((dat V c).before 3 t d))
    ∗ (∃ d, owns (c : Thread nD τ) (ms3_4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the closed forms of the two conditions say which of
    the three cases the point is in (both at once would make the point 0 and 24); that case's run applies. The
    invariant hands the body the scratch — at anything at the first point, at what the point before left afterwards —
    and takes it back at this point's contents, which the case's pieces cover; the other scoped buffers and the
    generator register pass through; nothing is owed throughout. Where the second conditional is not taken the
    output's buffer is handed back untouched. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 25 := lt_of_lt_of_eq t.isLt (show cfg3.N = 25 from N_3)
  rw [show (dat V c).leavesExact 0 t = owns (c : Thread nD τ) (ms3_0 t) fullShare ((dat V c).after 0 t) from by
    unfold Dat.leavesExact; rw [liveAt3_0 t], after_0]
  rw [show (dat V c).leavesExact 1 t = owns (c : Thread nD τ) (ms3_1 t) fullShare ((dat V c).after 1 t) from by
    unfold Dat.leavesExact; rw [liveAt3_1 t], after_1]
  rw [show (dat V c).leavesExact 2 t = owns (c : Thread nD τ) (ms3_2 t) fullShare ((dat V c).after 2 t) from by
    unfold Dat.leavesExact; rw [liveAt3_2 t], after_2]
  rw [show (dat V c).leavesExact 3 t = owns (c : Thread nD τ) (ms3_3 t) fullShare ((dat V c).after 3 t) from by
    unfold Dat.leavesExact; rw [liveAt3_3 t], after_3]
  by_cases h0 : t.val % 25 = 0
  · by_cases h1 : t.val % 25 = 24
    · exfalso; omega
    · rw [Dat.leavesExact_idle (dat V c) 4 t (idleAt3_4 t (fun h => h1 ((hcond3_1 t).mp h))) (noFlush3_4 t (fun h => h1 ((hcond3_1 t).mp h)))]
      rw [outsAt_A V c t h0 h1]
      unfold sout3_A_0; (try dsimp only)
      have hz : t.val = 0 := by omega
      rw [PhiS_castSucc V c t, PhiS_zero V c _ _ hz, PhiA3_eq]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (fun h => h1 ((hcond3_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · by_cases h1 : t.val % 25 = 24
    · rw [show (dat V c).leavesExact 4 t = owns (c : Thread nD τ) (ms3_4 t) fullShare ((dat V c).after 4 t) from by
        unfold Dat.leavesExact; rw [liveAt3_4 t ((hcond3_1 t).mpr h1)], after_4]
      rw [outsAt_C V c t h0 h1]
      unfold out3_C_4 sout3_C_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C_4 c _ _ _ _ _ _ _ _ _ _ _ _ _ _ _ _ _ _ _ _)
    · rw [Dat.leavesExact_idle (dat V c) 4 t (idleAt3_4 t (fun h => h1 ((hcond3_1 t).mp h))) (noFlush3_4 t (fun h => h1 ((hcond3_1 t).mp h)))]
      rw [outsAt_B V c t h0 h1]
      unfold sout3_B_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the scratch's named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA3_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg3.N) ⊢ Pipeline.ΦA spec3 c :=
  Phi_out V c _ (by rw [Fin.val_last]; have : cfg3.N = 25 := N_3; omega)

end Cert.Kernel.R3
end
-- ==== Proof.RunK.lean ====
/-
  The run of the program's @main through its four kernel regions, from any memory with zero counters: every weakly
  fair execution terminates, and every unscoped buffer ends holding what the fold `W8` names — the launch contents
  pushed through each stretch of host operations and, at each region, the region's arrays replaced by what the
  pipeline's write-backs leave (the inputs as entered, the output at the fold of its blocks). Each region is entered
  from the thread state "every unscoped buffer at the boundary's contents, the generator register at some state,
  nothing owed" and left at the same state over the next boundary's contents; a region's arrays are split out of the
  unscoped buffers at entry and put back at exit; the generator register goes into the region's invariant and comes
  back. Read at the argument arrays the final contents are the launch contents (no stretch and no region writes one);
  read at the result it is the last region's output array.
-/
import proofs.«405438_j90185723282019_1_alg».proof.Proof.LaunchK
import proofs.«405438_j90185723282019_1_alg».proof.Proof.RegionsK
import proofs.«405438_j90185723282019_1_alg».proof.Proof.Sage0K
import proofs.«405438_j90185723282019_1_alg».proof.Proof.Sage1K
import proofs.«405438_j90185723282019_1_alg».proof.Proof.Sage2K
import proofs.«405438_j90185723282019_1_alg».proof.Proof.Pool3K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`: region 0's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: region 1's entry. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: region 2's entry. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (R2.dat (V5 m ρ) c).arrAt w cfg2.N
theorem W6_arr (c : Dev nD) (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (R2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: region 3's entry. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (R3.dat (V7 m ρ) c).arrAt w cfg3.N
theorem W8_arr (c : Dev nD) (w : Fin cfg3.W) :
    W8 m ρ c (Proc.devRef .tc (Pipeline.arrRef spec3 w)) = (R3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (R3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
  | ⟨3, _⟩ => fun c => R3.dat (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R3.hin (V7 m ρ) c)
    unfold Pipeline.ΦA
    iintro ⟨Hp, -, Hr⟩
    isplitl [Hr]; · iexact Hr
    iexact Hp
  hout c := by
    rw [Pipeline.ownSems0_none]
    refine (R3.hout (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## What the run leaves unchanged, and where the result is -/

/-- No operation of the stretch `hostOps0` writes a buffer outside its list. -/
theorem W1_of (c : Dev nD) (b : Ref sig .tc) (h : b ∉ hostOps0_W) : W1 m ρ c b = W0 m ρ c b :=
  StableHlo.after_of_writes_sub hostOps0 _ hostOps0_writes h
/-- Every window of region 0 but its output window is an input window. -/
theorem out_only0 : ∀ w : Fin cfg0.W, (cfg0.win w).isOut = false ∨ Pipeline.arrRef spec0 w = main_v23 := by decide
/-- Region 0 changes its output array only: an input window's array ends as entered, a buffer no window stages bypasses the region. -/
theorem W2_keep (c : Dev nD) (b : Ref sig .tc) (hb : b ≠ main_v23) :
    W2 m ρ c (Proc.devRef .tc b) = W1 m ρ c (Proc.devRef .tc b) := by
  by_cases h : ∃ w, Pipeline.arrRef spec0 w = b
  · obtain ⟨w, rfl⟩ := h
    rcases out_only0 w with hin | he
    · exact (W2_arr m ρ c w).trans (((R0.dat (V1 m ρ) c).arrAt_in w hin _).trans (R0.A_eq (V1 m ρ) c w))
    · exact absurd he hb
  · exact W2_of_ne m ρ c b (fun w e => h ⟨w, e⟩)

/-- No operation of the stretch `hostOps1` writes a buffer outside its list. -/
theorem W3_of (c : Dev nD) (b : Ref sig .tc) (h : b ∉ hostOps1_W) : W3 m ρ c b = W2 m ρ c b :=
  StableHlo.after_of_writes_sub hostOps1 _ hostOps1_writes h
/-- Every window of region 1 but its output window is an input window. -/
theorem out_only1 : ∀ w : Fin cfg1.W, (cfg1.win w).isOut = false ∨ Pipeline.arrRef spec1 w = main_v37 := by decide
/-- Region 1 changes its output array only: an input window's array ends as entered, a buffer no window stages bypasses the region. -/
theorem W4_keep (c : Dev nD) (b : Ref sig .tc) (hb : b ≠ main_v37) :
    W4 m ρ c (Proc.devRef .tc b) = W3 m ρ c (Proc.devRef .tc b) := by
  by_cases h : ∃ w, Pipeline.arrRef spec1 w = b
  · obtain ⟨w, rfl⟩ := h
    rcases out_only1 w with hin | he
    · exact (W4_arr m ρ c w).trans (((R1.dat (V3 m ρ) c).arrAt_in w hin _).trans (R1.A_eq (V3 m ρ) c w))
    · exact absurd he hb
  · exact W4_of_ne m ρ c b (fun w e => h ⟨w, e⟩)

/-- No operation of the stretch `hostOps2` writes a buffer outside its list. -/
theorem W5_of (c : Dev nD) (b : Ref sig .tc) (h : b ∉ hostOps2_W) : W5 m ρ c b = W4 m ρ c b :=
  StableHlo.after_of_writes_sub hostOps2 _ hostOps2_writes h
/-- Every window of region 2 but its output window is an input window. -/
theorem out_only2 : ∀ w : Fin cfg2.W, (cfg2.win w).isOut = false ∨ Pipeline.arrRef spec2 w = main_v51 := by decide
/-- Region 2 changes its output array only: an input window's array ends as entered, a buffer no window stages bypasses the region. -/
theorem W6_keep (c : Dev nD) (b : Ref sig .tc) (hb : b ≠ main_v51) :
    W6 m ρ c (Proc.devRef .tc b) = W5 m ρ c (Proc.devRef .tc b) := by
  by_cases h : ∃ w, Pipeline.arrRef spec2 w = b
  · obtain ⟨w, rfl⟩ := h
    rcases out_only2 w with hin | he
    · exact (W6_arr m ρ c w).trans (((R2.dat (V5 m ρ) c).arrAt_in w hin _).trans (R2.A_eq (V5 m ρ) c w))
    · exact absurd he hb
  · exact W6_of_ne m ρ c b (fun w e => h ⟨w, e⟩)

/-- No operation of the stretch `hostOps3` writes a buffer outside its list. -/
theorem W7_of (c : Dev nD) (b : Ref sig .tc) (h : b ∉ hostOps3_W) : W7 m ρ c b = W6 m ρ c b :=
  StableHlo.after_of_writes_sub hostOps3 _ hostOps3_writes h
/-- Every window of region 3 but its output window is an input window. -/
theorem out_only3 : ∀ w : Fin cfg3.W, (cfg3.win w).isOut = false ∨ Pipeline.arrRef spec3 w = main_v54 := by decide
/-- Region 3 changes its output array only: an input window's array ends as entered, a buffer no window stages bypasses the region. -/
theorem W8_keep (c : Dev nD) (b : Ref sig .tc) (hb : b ≠ main_v54) :
    W8 m ρ c (Proc.devRef .tc b) = W7 m ρ c (Proc.devRef .tc b) := by
  by_cases h : ∃ w, Pipeline.arrRef spec3 w = b
  · obtain ⟨w, rfl⟩ := h
    rcases out_only3 w with hin | he
    · exact (W8_arr m ρ c w).trans (((R3.dat (V7 m ρ) c).arrAt_in w hin _).trans (R3.A_eq (V7 m ρ) c w))
    · exact absurd he hb
  · exact W8_of_ne m ρ c b (fun w e => h ⟨w, e⟩)

/-- A buffer that no host stretch writes and that is no region's output array ends holding its launch contents. -/
theorem W8_launch (c : Dev nD) (b : Ref sig .tc) (h0 : b ∉ hostOps0_W) (h1 : b ∉ hostOps1_W) (h2 : b ∉ hostOps2_W) (h3 : b ∉ hostOps3_W)
    (n0 : b ≠ main_v23) (n1 : b ≠ main_v37) (n2 : b ≠ main_v51) (n3 : b ≠ main_v54) :
    W8 m ρ c (Proc.devRef .tc b) = m ((c : Thread nD τ).loc b) :=
  (W8_keep m ρ c b n3).trans <| (W7_of m ρ c b h3).trans <| (W6_keep m ρ c b n2).trans <| (W5_of m ρ c b h2).trans <|
    (W4_keep m ρ c b n1).trans <| (W3_of m ρ c b h1).trans <| (W2_keep m ρ c b n0).trans <| (W1_of m ρ c b h0).trans rfl

/-! ## The frame, and the run with its result named -/

/-- THE FRAME: from any memory with zero counters every weakly fair execution of @main terminates, nothing faulting,
    and every argument array ends holding its launch contents: no host stretch writes an argument and no region has
    one as its output. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W8_launch m ρ c main_arg0 (by decide) (by decide) (by decide) (by decide) (by decide) (by decide) (by decide) (by decide)),
      (h c _ (mem_uc main_arg1 (by decide))).trans (W8_launch m ρ c main_arg1 (by decide) (by decide) (by decide) (by decide) (by decide) (by decide) (by decide) (by decide)),
      (h c _ (mem_uc main_arg2 (by decide))).trans (W8_launch m ρ c main_arg2 (by decide) (by decide) (by decide) (by decide) (by decide) (by decide) (by decide) (by decide)),
      (h c _ (mem_uc main_arg3 (by decide))).trans (W8_launch m ρ c main_arg3 (by decide) (by decide) (by decide) (by decide) (by decide) (by decide) (by decide) (by decide)),
      (h c _ (mem_uc main_arg4 (by decide))).trans (W8_launch m ρ c main_arg4 (by decide) (by decide) (by decide) (by decide) (by decide) (by decide) (by decide) (by decide)),
      (h c _ (mem_uc main_arg5 (by decide))).trans (W8_launch m ρ c main_arg5 (by decide) (by decide) (by decide) (by decide) (by decide) (by decide) (by decide) (by decide)),
      (h c _ (mem_uc main_arg6 (by decide))).trans (W8_launch m ρ c main_arg6 (by decide) (by decide) (by decide) (by decide) (by decide) (by decide) (by decide) (by decide)),
      (h c _ (mem_uc main_arg7 (by decide))).trans (W8_launch m ρ c main_arg7 (by decide) (by decide) (by decide) (by decide) (by decide) (by decide) (by decide) (by decide)),
      (h c _ (mem_uc main_arg8 (by decide))).trans (W8_launch m ρ c main_arg8 (by decide) (by decide) (by decide) (by decide) (by decide) (by decide) (by decide) (by decide)),
      (h c _ (mem_uc main_arg9 (by decide))).trans (W8_launch m ρ c main_arg9 (by decide) (by decide) (by decide) (by decide) (by decide) (by decide) (by decide) (by decide)),
      (h c _ (mem_uc main_arg10 (by decide))).trans (W8_launch m ρ c main_arg10 (by decide) (by decide) (by decide) (by decide) (by decide) (by decide) (by decide) (by decide)),
      (h c _ (mem_uc main_arg11 (by decide))).trans (W8_launch m ρ c main_arg11 (by decide) (by decide) (by decide) (by decide) (by decide) (by decide) (by decide) (by decide)),
      (h c _ (mem_uc main_arg12 (by decide))).trans (W8_launch m ρ c main_arg12 (by decide) (by decide) (by decide) (by decide) (by decide) (by decide) (by decide) (by decide)),
      (h c _ (mem_uc main_arg13 (by decide))).trans (W8_launch m ρ c main_arg13 (by decide) (by decide) (by decide) (by decide) (by decide) (by decide) (by decide) (by decide))⟩) (run_all m ρ)

/-- THE RUN WITH ITS RESULT: the same, and the result buffer ends holding `v c` when that is what the last boundary's
    contents have there. -/
theorem run_result (v : (c : Dev nD) → Buf (Elt F) ((c.tc : Thread nD τ).loc main_v54))
    (hv : ∀ c : Dev nD, W8 m ρ c main_v54 = v c) :
    θ_run defs (onTc (τ := τ) (main (F := F))) ⟨m, fun _ => 0, ρ⟩ (fun r => ∀ c : Dev nD,
      r.2.mem ((c.tc : Thread nD τ).loc main_v54) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v54 (by decide))).trans (hv c),
      (h c _ (mem_uc main_arg0 (by decide))).trans (W8_launch m ρ c main_arg0 (by decide) (by decide) (by decide) (by decide) (by decide) (by decide) (by decide) (by decide)),
      (h c _ (mem_uc main_arg1 (by decide))).trans (W8_launch m ρ c main_arg1 (by decide) (by decide) (by decide) (by decide) (by decide) (by decide) (by decide) (by decide)),
      (h c _ (mem_uc main_arg2 (by decide))).trans (W8_launch m ρ c main_arg2 (by decide) (by decide) (by decide) (by decide) (by decide) (by decide) (by decide) (by decide)),
      (h c _ (mem_uc main_arg3 (by decide))).trans (W8_launch m ρ c main_arg3 (by decide) (by decide) (by decide) (by decide) (by decide) (by decide) (by decide) (by decide)),
      (h c _ (mem_uc main_arg4 (by decide))).trans (W8_launch m ρ c main_arg4 (by decide) (by decide) (by decide) (by decide) (by decide) (by decide) (by decide) (by decide)),
      (h c _ (mem_uc main_arg5 (by decide))).trans (W8_launch m ρ c main_arg5 (by decide) (by decide) (by decide) (by decide) (by decide) (by decide) (by decide) (by decide)),
      (h c _ (mem_uc main_arg6 (by decide))).trans (W8_launch m ρ c main_arg6 (by decide) (by decide) (by decide) (by decide) (by decide) (by decide) (by decide) (by decide)),
      (h c _ (mem_uc main_arg7 (by decide))).trans (W8_launch m ρ c main_arg7 (by decide) (by decide) (by decide) (by decide) (by decide) (by decide) (by decide) (by decide)),
      (h c _ (mem_uc main_arg8 (by decide))).trans (W8_launch m ρ c main_arg8 (by decide) (by decide) (by decide) (by decide) (by decide) (by decide) (by decide) (by decide)),
      (h c _ (mem_uc main_arg9 (by decide))).trans (W8_launch m ρ c main_arg9 (by decide) (by decide) (by decide) (by decide) (by decide) (by decide) (by decide) (by decide)),
      (h c _ (mem_uc main_arg10 (by decide))).trans (W8_launch m ρ c main_arg10 (by decide) (by decide) (by decide) (by decide) (by decide) (by decide) (by decide) (by decide)),
      (h c _ (mem_uc main_arg11 (by decide))).trans (W8_launch m ρ c main_arg11 (by decide) (by decide) (by decide) (by decide) (by decide) (by decide) (by decide) (by decide)),
      (h c _ (mem_uc main_arg12 (by decide))).trans (W8_launch m ρ c main_arg12 (by decide) (by decide) (by decide) (by decide) (by decide) (by decide) (by decide) (by decide)),
      (h c _ (mem_uc main_arg13 (by decide))).trans (W8_launch m ρ c main_arg13 (by decide) (by decide) (by decide) (by decide) (by decide) (by decide) (by decide) (by decide))⟩) (run_all m ρ)

end Cert.Kernel.Run

end
-- ==== Proof.Sage0KI.lean ====
/-
  The frame half of kernel region 0 (the first of the program's four kernel calls), for any float family `F`, at a
  parameter `V`: the TensorCore's buffer contents when the region is entered.

  The region's pipeline has six windows over a grid of 25 points: two [4000,128] row blocks that move with the
  point (windows 0 and 1), two [128,128] matrices and a [1,128] bias row that stay at block index zero (windows 2, 3
  and 4), and one [4000,128] output block that moves with the point (window 5). At a point the body reads each input
  buffer whole, reads the output buffer once without using the value, and overwrites the output buffer whole with one
  payload: a function of the five blocks read.

  So what the body finds in an input buffer is that window's block of the entry contents at the point — whether or not
  the pipeline fetched it there, since an unfetched window's block index has not moved —, and what it leaves in the
  output buffer is the payload of the five input blocks, laid over the whole buffer (`out5`). The proof data `dat`
  records exactly that, and `body_obligation` is the body's triple at every point: separation logic only, nothing
  about the values.
-/
import proofs.«405438_j90185723282019_1_alg».proof.Proof.LaunchKI
import proofs.«405438_j90185723282019_1_alg».proof.Proof.Gen.KernelIdeal.Skeleton
import proofs.«405438_j90185723282019_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.R0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there
    or not (an unfetched window's block index has not moved since the point that fetched it), for ANY proof data
    whose array is `V`'s (`hA`) and whose body leaves the block in place (`hafter`). Each of the five input
    windows is uncut and never idle; the two row blocks move with the point, the two matrices and the bias row
    stay at block index zero. -/
theorem beforeA_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeB_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeC_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeE_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r_blk : Rect S4000x128 := Rect.unit (s := S4000x128) ![0, 0] S4000x128.size inb_S4000x128_S4000x128_0_0
abbrev r_sq : Rect S128x128 := Rect.unit (s := S128x128) ![0, 0] S128x128.size inb_S128x128_S128x128_0_0
abbrev r_row : Rect S1x128 := Rect.unit (s := S1x128) ![0, 0] S1x128.size inb_S1x128_S1x128_0_0

/-! ## What the body leaves in the output window's buffer -/

/-- What the body leaves in the output window's buffer: its one store as a piece. -/
def out5 (x0 x1 : Vec F S4000x128 .f32) (x2 x3 : Vec F S128x128 .f32) (x4 : Vec F S1x128 .f32) : Vec F S4000x128 .f32 :=
  View.canon [⟨r_blk, k0_pay1 (View.ld x0 r_blk) (View.ld x1 r_blk) (View.ld x2 r_sq) (View.ld x3 r_sq) (View.ld x4 r_row)⟩]

/-- The one store's rectangle is the whole buffer, so it covers it. -/
theorem cover (p : Vec F S4000x128 .f32) (y : S4000x128.Idx) :
    ∃ pc ∈ ([⟨r_blk, p⟩] : List (View.Piece (Elt F) S4000x128 .f32)), y ∈ pc.1.set :=
  View.cover_of_tiled [⟨r_blk, p⟩] S4000x128.size (by rfl) y

/-! ## The body's triple -/

set_option maxHeartbeats 1000000 in
/-- The kernel body on whole staging memrefs, the five inputs' at read contents `x0 … x4` and the output's at anything,
    runs to the continuation holding the inputs' as they were and the output's at `out5` of the inputs': the body's
    five loads read the inputs through whole-buffer rectangles, its load of the output buffer is dead, and its one
    store overwrites the output buffer whole. -/
theorem sound_kernel (c : Dev nD) (E : Set ℕ) (i : grid0.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 x1 : Vec F S4000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dz, %fz, -, Hz⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hz
  ipureintro
  exact View.read_writes_eq_canon _ _ _ (cover _)

/-! ## The pipeline's proof data -/

/-- The proof data of the pipeline on core `c`: the arrays as the region finds them (`V`); after the body at point
    `t` each input's buffer at its block and the output's at `out5` of the input blocks; the invariant the scoped
    rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-! What the body leaves, window by window. -/
theorem afterA (c : Dev nD) (t : Fin cfg0.N) : (dat V c).after 0 t = iblk V c 0 t := by dsimp only [dat]
theorem afterB (c : Dev nD) (t : Fin cfg0.N) : (dat V c).after 1 t = iblk V c 1 t := by dsimp only [dat]
theorem afterC (c : Dev nD) (t : Fin cfg0.N) : (dat V c).after 2 t = iblk V c 2 t := by dsimp only [dat]
theorem afterD (c : Dev nD) (t : Fin cfg0.N) : (dat V c).after 3 t = iblk V c 3 t := by dsimp only [dat]
theorem afterE (c : Dev nD) (t : Fin cfg0.N) : (dat V c).after 4 t = iblk V c 4 t := by dsimp only [dat]
theorem after_5 (c : Dev nD) (t : Fin cfg0.N) :
    (dat V c).after 5 t = out5 (iblk V c 0 t) (iblk V c 1 t) (iblk V c 2 t) (iblk V c 3 t) (iblk V c 4 t) := by dsimp only [dat]

/-! Each input's current staging buffer holds its block at every point, fetched there or not. -/
theorem beforeA (c : Dev nD) (t : Fin cfg0.N) (d) : (dat V c).before 0 t d = iblk V c 0 t :=
  beforeA_of V (dat V c) (A_eq V c 0) (afterA V c) t d
theorem beforeB (c : Dev nD) (t : Fin cfg0.N) (d) : (dat V c).before 1 t d = iblk V c 1 t :=
  beforeB_of V (dat V c) (A_eq V c 1) (afterB V c) t d
theorem beforeC (c : Dev nD) (t : Fin cfg0.N) (d) : (dat V c).before 2 t d = iblk V c 2 t :=
  beforeC_of V (dat V c) (A_eq V c 2) (afterC V c) t d
theorem beforeD (c : Dev nD) (t : Fin cfg0.N) (d) : (dat V c).before 3 t d = iblk V c 3 t :=
  beforeD_of V (dat V c) (A_eq V c 3) (afterD V c) t d
theorem beforeE (c : Dev nD) (t : Fin cfg0.N) (d) : (dat V c).before 4 t d = iblk V c 4 t :=
  beforeE_of V (dat V c) (A_eq V c 4) (afterE V c) t d

/-! ## The body obligation, at a generic point -/

/-- What the body is called with at point `t`: the invariant, the core's debts, and the six windows' current staging
    buffers one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks, so `sound_kernel` applies at those blocks; the
    invariant and the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [beforeA, beforeB, beforeC, beforeD, beforeE]
  rw [show (dat V c).Φ t.succ = (dat V c).Φ t.castSucc from rfl,
    show (dat V c).owesAt () t.succ = (dat V c).owesAt () t.castSucc from rfl,
    afterA, afterB, afterC, afterD, afterE, after_5]
  iintro ⟨HΦ, Ho, ⟨%da, Ha⟩, ⟨%db, Hb⟩, ⟨%dc, Hc⟩, ⟨%dd, Hd⟩, ⟨%de, He⟩, ⟨%dz, Hz⟩⟩
  iapply (sound_kernel c Set.univ _ _ _ _ _ _ _ _ _ _ _ _ _
    (iblk V c 0 t) (iblk V c 1 t) (iblk V c 2 t) (iblk V c 3 t) (iblk V c 4 t) _)
  isplitl [Ha]; · iexact Ha
  isplitl [Hb]; · iexact Hb
  isplitl [Hc]; · iexact Hc
  isplitl [Hd]; · iexact Hd
  isplitl [He]; · iexact He
  isplitl [Hz]; · iexists _; iexact Hz
  iintro ⟨Ha, Hb, Hc, Hd, He, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hz

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0
end
-- ==== Proof.Sage1KI.lean ====
/-
  The frame half of kernel region 0 (the first of the program's four kernel calls), for any float family `F`, at a
  parameter `V`: the TensorCore's buffer contents when the region is entered.

  The region's pipeline has six windows over a grid of 25 points: two [4000,128] row blocks that move with the
  point (windows 0 and 1), two [128,128] matrices and a [1,128] bias row that stay at block index zero (windows 2, 3
  and 4), and one [4000,128] output block that moves with the point (window 5). At a point the body reads each input
  buffer whole, reads the output buffer once without using the value, and overwrites the output buffer whole with one
  payload: a function of the five blocks read.

  So what the body finds in an input buffer is that window's block of the entry contents at the point — whether or not
  the pipeline fetched it there, since an unfetched window's block index has not moved —, and what it leaves in the
  output buffer is the payload of the five input blocks, laid over the whole buffer (`out5`). The proof data `dat`
  records exactly that, and `body_obligation` is the body's triple at every point: separation logic only, nothing
  about the values.
-/
import proofs.«405438_j90185723282019_1_alg».proof.Proof.LaunchKI
import proofs.«405438_j90185723282019_1_alg».proof.Proof.Gen.KernelIdeal.Skeleton
import proofs.«405438_j90185723282019_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there
    or not (an unfetched window's block index has not moved since the point that fetched it), for ANY proof data
    whose array is `V`'s (`hA`) and whose body leaves the block in place (`hafter`). Each of the five input
    windows is uncut and never idle; the two row blocks move with the point, the two matrices and the bias row
    stay at block index zero. -/
theorem beforeA_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeB_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeC_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeE_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r_blk : Rect S4000x128 := Rect.unit (s := S4000x128) ![0, 0] S4000x128.size inb_S4000x128_S4000x128_0_0
abbrev r_sq : Rect S128x128 := Rect.unit (s := S128x128) ![0, 0] S128x128.size inb_S128x128_S128x128_0_0
abbrev r_row : Rect S1x128 := Rect.unit (s := S1x128) ![0, 0] S1x128.size inb_S1x128_S1x128_0_0

/-! ## What the body leaves in the output window's buffer -/

/-- What the body leaves in the output window's buffer: its one store as a piece. -/
def out5 (x0 x1 : Vec F S4000x128 .f32) (x2 x3 : Vec F S128x128 .f32) (x4 : Vec F S1x128 .f32) : Vec F S4000x128 .f32 :=
  View.canon [⟨r_blk, k1_pay1 (View.ld x0 r_blk) (View.ld x1 r_blk) (View.ld x2 r_sq) (View.ld x3 r_sq) (View.ld x4 r_row)⟩]

/-- The one store's rectangle is the whole buffer, so it covers it. -/
theorem cover (p : Vec F S4000x128 .f32) (y : S4000x128.Idx) :
    ∃ pc ∈ ([⟨r_blk, p⟩] : List (View.Piece (Elt F) S4000x128 .f32)), y ∈ pc.1.set :=
  View.cover_of_tiled [⟨r_blk, p⟩] S4000x128.size (by rfl) y

/-! ## The body's triple -/

set_option maxHeartbeats 1000000 in
/-- The kernel body on whole staging memrefs, the five inputs' at read contents `x0 … x4` and the output's at anything,
    runs to the continuation holding the inputs' as they were and the output's at `out5` of the inputs': the body's
    five loads read the inputs through whole-buffer rectangles, its load of the output buffer is dead, and its one
    store overwrites the output buffer whole. -/
theorem sound_kernel (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 x1 : Vec F S4000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dz, %fz, -, Hz⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hz
  ipureintro
  exact View.read_writes_eq_canon _ _ _ (cover _)

/-! ## The pipeline's proof data -/

/-- The proof data of the pipeline on core `c`: the arrays as the region finds them (`V`); after the body at point
    `t` each input's buffer at its block and the output's at `out5` of the input blocks; the invariant the scoped
    rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-! What the body leaves, window by window. -/
theorem afterA (c : Dev nD) (t : Fin cfg1.N) : (dat V c).after 0 t = iblk V c 0 t := by dsimp only [dat]
theorem afterB (c : Dev nD) (t : Fin cfg1.N) : (dat V c).after 1 t = iblk V c 1 t := by dsimp only [dat]
theorem afterC (c : Dev nD) (t : Fin cfg1.N) : (dat V c).after 2 t = iblk V c 2 t := by dsimp only [dat]
theorem afterD (c : Dev nD) (t : Fin cfg1.N) : (dat V c).after 3 t = iblk V c 3 t := by dsimp only [dat]
theorem afterE (c : Dev nD) (t : Fin cfg1.N) : (dat V c).after 4 t = iblk V c 4 t := by dsimp only [dat]
theorem after_5 (c : Dev nD) (t : Fin cfg1.N) :
    (dat V c).after 5 t = out5 (iblk V c 0 t) (iblk V c 1 t) (iblk V c 2 t) (iblk V c 3 t) (iblk V c 4 t) := by dsimp only [dat]

/-! Each input's current staging buffer holds its block at every point, fetched there or not. -/
theorem beforeA (c : Dev nD) (t : Fin cfg1.N) (d) : (dat V c).before 0 t d = iblk V c 0 t :=
  beforeA_of V (dat V c) (A_eq V c 0) (afterA V c) t d
theorem beforeB (c : Dev nD) (t : Fin cfg1.N) (d) : (dat V c).before 1 t d = iblk V c 1 t :=
  beforeB_of V (dat V c) (A_eq V c 1) (afterB V c) t d
theorem beforeC (c : Dev nD) (t : Fin cfg1.N) (d) : (dat V c).before 2 t d = iblk V c 2 t :=
  beforeC_of V (dat V c) (A_eq V c 2) (afterC V c) t d
theorem beforeD (c : Dev nD) (t : Fin cfg1.N) (d) : (dat V c).before 3 t d = iblk V c 3 t :=
  beforeD_of V (dat V c) (A_eq V c 3) (afterD V c) t d
theorem beforeE (c : Dev nD) (t : Fin cfg1.N) (d) : (dat V c).before 4 t d = iblk V c 4 t :=
  beforeE_of V (dat V c) (A_eq V c 4) (afterE V c) t d

/-! ## The body obligation, at a generic point -/

/-- What the body is called with at point `t`: the invariant, the core's debts, and the six windows' current staging
    buffers one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so `sound_kernel` applies at those blocks; the
    invariant and the core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [beforeA, beforeB, beforeC, beforeD, beforeE]
  rw [show (dat V c).Φ t.succ = (dat V c).Φ t.castSucc from rfl,
    show (dat V c).owesAt () t.succ = (dat V c).owesAt () t.castSucc from rfl,
    afterA, afterB, afterC, afterD, afterE, after_5]
  iintro ⟨HΦ, Ho, ⟨%da, Ha⟩, ⟨%db, Hb⟩, ⟨%dc, Hc⟩, ⟨%dd, Hd⟩, ⟨%de, He⟩, ⟨%dz, Hz⟩⟩
  iapply (sound_kernel c Set.univ _ _ _ _ _ _ _ _ _ _ _ _ _
    (iblk V c 0 t) (iblk V c 1 t) (iblk V c 2 t) (iblk V c 3 t) (iblk V c 4 t) _)
  isplitl [Ha]; · iexact Ha
  isplitl [Hb]; · iexact Hb
  isplitl [Hc]; · iexact Hc
  isplitl [Hd]; · iexact Hd
  isplitl [He]; · iexact He
  isplitl [Hz]; · iexists _; iexact Hz
  iintro ⟨Ha, Hb, Hc, Hd, He, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hz

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1
end
-- ==== Proof.Sage2KI.lean ====
/-
  The frame half of kernel region 0 (the first of the program's four kernel calls), for any float family `F`, at a
  parameter `V`: the TensorCore's buffer contents when the region is entered.

  The region's pipeline has six windows over a grid of 25 points: two [4000,128] row blocks that move with the
  point (windows 0 and 1), two [128,128] matrices and a [1,128] bias row that stay at block index zero (windows 2, 3
  and 4), and one [4000,128] output block that moves with the point (window 5). At a point the body reads each input
  buffer whole, reads the output buffer once without using the value, and overwrites the output buffer whole with one
  payload: a function of the five blocks read.

  So what the body finds in an input buffer is that window's block of the entry contents at the point — whether or not
  the pipeline fetched it there, since an unfetched window's block index has not moved —, and what it leaves in the
  output buffer is the payload of the five input blocks, laid over the whole buffer (`out5`). The proof data `dat`
  records exactly that, and `body_obligation` is the body's triple at every point: separation logic only, nothing
  about the values.
-/
import proofs.«405438_j90185723282019_1_alg».proof.Proof.LaunchKI
import proofs.«405438_j90185723282019_1_alg».proof.Proof.Gen.KernelIdeal.Skeleton
import proofs.«405438_j90185723282019_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.R2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there
    or not (an unfetched window's block index has not moved since the point that fetched it), for ANY proof data
    whose array is `V`'s (`hA`) and whose body leaves the block in place (`hafter`). Each of the five input
    windows is uncut and never idle; the two row blocks move with the point, the two matrices and the bias row
    stay at block index zero. -/
theorem beforeA_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeB_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeC_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeE_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r_blk : Rect S4000x128 := Rect.unit (s := S4000x128) ![0, 0] S4000x128.size inb_S4000x128_S4000x128_0_0
abbrev r_sq : Rect S128x128 := Rect.unit (s := S128x128) ![0, 0] S128x128.size inb_S128x128_S128x128_0_0
abbrev r_row : Rect S1x128 := Rect.unit (s := S1x128) ![0, 0] S1x128.size inb_S1x128_S1x128_0_0

/-! ## What the body leaves in the output window's buffer -/

/-- What the body leaves in the output window's buffer: its one store as a piece. -/
def out5 (x0 x1 : Vec F S4000x128 .f32) (x2 x3 : Vec F S128x128 .f32) (x4 : Vec F S1x128 .f32) : Vec F S4000x128 .f32 :=
  View.canon [⟨r_blk, k2_pay1 (View.ld x0 r_blk) (View.ld x1 r_blk) (View.ld x2 r_sq) (View.ld x3 r_sq) (View.ld x4 r_row)⟩]

/-- The one store's rectangle is the whole buffer, so it covers it. -/
theorem cover (p : Vec F S4000x128 .f32) (y : S4000x128.Idx) :
    ∃ pc ∈ ([⟨r_blk, p⟩] : List (View.Piece (Elt F) S4000x128 .f32)), y ∈ pc.1.set :=
  View.cover_of_tiled [⟨r_blk, p⟩] S4000x128.size (by rfl) y

/-! ## The body's triple -/

set_option maxHeartbeats 1000000 in
/-- The kernel body on whole staging memrefs, the five inputs' at read contents `x0 … x4` and the output's at anything,
    runs to the continuation holding the inputs' as they were and the output's at `out5` of the inputs': the body's
    five loads read the inputs through whole-buffer rectangles, its load of the output buffer is dead, and its one
    store overwrites the output buffer whole. -/
theorem sound_kernel (c : Dev nD) (E : Set ℕ) (i : grid2.Coords)
    (arg1 : Memref sig .tc .vmem S4000x128 .f32) (harg1 : arg1.IsWhole) (arg2 : Memref sig .tc .vmem S4000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S4000x128 .f32) (harg6 : arg6.IsWhole)
    (x0 x1 : Vec F S4000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5 x0 x1 x2 x3 x4)) -∗ K ⟨⟩))
      ⊢ wp frame (wpE (defs₀ (F := F)) Variants.none c none) E
          (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dz, %fz, -, Hz⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hz
  ipureintro
  exact View.read_writes_eq_canon _ _ _ (cover _)

/-! ## The pipeline's proof data -/

/-- The proof data of the pipeline on core `c`: the arrays as the region finds them (`V`); after the body at point
    `t` each input's buffer at its block and the output's at `out5` of the input blocks; the invariant the scoped
    rest and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec2 c
  q _ := fullShare
  owed _ := 0

/-- The proof data's arrays are the region-entry contents. -/
theorem A_eq (c : Dev nD) (w : Fin cfg2.W) : (dat V c).A w = V c (Pipeline.arrRef spec2 w) := by
  dsimp only [dat]

/-! What the body leaves, window by window. -/
theorem afterA (c : Dev nD) (t : Fin cfg2.N) : (dat V c).after 0 t = iblk V c 0 t := by dsimp only [dat]
theorem afterB (c : Dev nD) (t : Fin cfg2.N) : (dat V c).after 1 t = iblk V c 1 t := by dsimp only [dat]
theorem afterC (c : Dev nD) (t : Fin cfg2.N) : (dat V c).after 2 t = iblk V c 2 t := by dsimp only [dat]
theorem afterD (c : Dev nD) (t : Fin cfg2.N) : (dat V c).after 3 t = iblk V c 3 t := by dsimp only [dat]
theorem afterE (c : Dev nD) (t : Fin cfg2.N) : (dat V c).after 4 t = iblk V c 4 t := by dsimp only [dat]
theorem after_5 (c : Dev nD) (t : Fin cfg2.N) :
    (dat V c).after 5 t = out5 (iblk V c 0 t) (iblk V c 1 t) (iblk V c 2 t) (iblk V c 3 t) (iblk V c 4 t) := by dsimp only [dat]

/-! Each input's current staging buffer holds its block at every point, fetched there or not. -/
theorem beforeA (c : Dev nD) (t : Fin cfg2.N) (d) : (dat V c).before 0 t d = iblk V c 0 t :=
  beforeA_of V (dat V c) (A_eq V c 0) (afterA V c) t d
theorem beforeB (c : Dev nD) (t : Fin cfg2.N) (d) : (dat V c).before 1 t d = iblk V c 1 t :=
  beforeB_of V (dat V c) (A_eq V c 1) (afterB V c) t d
theorem beforeC (c : Dev nD) (t : Fin cfg2.N) (d) : (dat V c).before 2 t d = iblk V c 2 t :=
  beforeC_of V (dat V c) (A_eq V c 2) (afterC V c) t d
theorem beforeD (c : Dev nD) (t : Fin cfg2.N) (d) : (dat V c).before 3 t d = iblk V c 3 t :=
  beforeD_of V (dat V c) (A_eq V c 3) (afterD V c) t d
theorem beforeE (c : Dev nD) (t : Fin cfg2.N) (d) : (dat V c).before 4 t d = iblk V c 4 t :=
  beforeE_of V (dat V c) (A_eq V c 4) (afterE V c) t d

/-! ## The body obligation, at a generic point -/

/-- What the body is called with at point `t`: the invariant, the core's debts, and the six windows' current staging
    buffers one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks, so `sound_kernel` applies at those blocks; the
    invariant and the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [beforeA, beforeB, beforeC, beforeD, beforeE]
  rw [show (dat V c).Φ t.succ = (dat V c).Φ t.castSucc from rfl,
    show (dat V c).owesAt () t.succ = (dat V c).owesAt () t.castSucc from rfl,
    afterA, afterB, afterC, afterD, afterE, after_5]
  iintro ⟨HΦ, Ho, ⟨%da, Ha⟩, ⟨%db, Hb⟩, ⟨%dc, Hc⟩, ⟨%dd, Hd⟩, ⟨%de, He⟩, ⟨%dz, Hz⟩⟩
  iapply (sound_kernel c Set.univ _ _ _ _ _ _ _ _ _ _ _ _ _
    (iblk V c 0 t) (iblk V c 1 t) (iblk V c 2 t) (iblk V c 3 t) (iblk V c 4 t) _)
  isplitl [Ha]; · iexact Ha
  isplitl [Hb]; · iexact Hb
  isplitl [Hc]; · iexact Hc
  isplitl [Hd]; · iexact Hd
  isplitl [He]; · iexact He
  isplitl [Hz]; · iexists _; iexact Hz
  iintro ⟨Ha, Hb, Hc, Hd, He, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hz

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.R2
end
-- ==== Proof.Pool3KI.lean ====
/- Region 3, the pooling kernel, as one pipeline of 25 grid points: the frame half.

   The kernel keeps a 512×128 accumulator in a scratch block that lives from point to point. At the FIRST point
   (coordinate 0) it fills the accumulator with zeros; at EVERY point it adds to the accumulator the product of the
   transposed one-hot matrix of the point's 4000 segment ids with the point's 4000×128 block of rows (both factors
   rounded to bfloat16, the product an f32 block); at the LAST point (coordinate 24) it multiplies the accumulator
   by the 128×1 weight (both rounded to bfloat16), adds the 1×1 bias, applies the logistic and stores the 512×1
   result into the one output window. So a point is in one of three cases — first, middle, last — and both
   conditions at once would make a point 0 and 24.

   What the accumulator holds after point n is defined by recursion on n: after point 0 the step applied to the zero
   block and the blocks of point 0, after point n + 1 the step applied to what point n left and the blocks of point
   n + 1. The output window's buffer is stored at the last point only; at the other points it is idle: handed to the
   body and taken back untouched, and not written back.

   The invariant carried between points: before point 0, every scoped buffer that is no staging buffer at some
   contents and the generator register at some state; after point n, the same with the accumulator's block at exactly
   what point n left, every other such buffer still unopened. Each input window's staging buffer holds the window's
   block of its array at every point, fetched there or not, since an unfetched window's block index has not moved.
   After the last point the accumulator's contents are forgotten and the first form is handed back. -/
import proofs.«405438_j90185723282019_1_alg».proof.Proof.LaunchKI
import proofs.«405438_j90185723282019_1_alg».proof.Proof.Gen.KernelIdeal.Skeleton
import proofs.«405438_j90185723282019_1_alg».proof.Proof.Gen.KernelIdeal.Points
import Idealize.ShloMosaic.Lib.Pipeline.FrameBody
import Idealize.ShloMosaic.Lib.Ring
import Idealize.ShloMosaic.Lib.Tactic
/-! # Region 3 (the pooling kernel), the frame half

One kernel region of 25 grid points. The kernel carries a scratch block of 512×128 floats from point to point:
at the first point it fills the scratch with zeros; at every point it adds into the scratch the product of the
one-hot matrix of the point's segment ids with the point's block of rows; at the last point it projects the scratch
through a 128×1 weight, adds the bias, applies the logistic, and stores the 512×1 result into the one output
window. So the points fall into three cases — the first, the middle ones, the last — and the region's invariant
names the scratch's contents after each point by recursion on the point (`outsAt`).

Everything is generic in the float family `F` and stated at a parameter `V`: the TensorCore's buffer contents when
the region is entered. -/
set_option maxRecDepth 16384
noncomputable section
namespace Cert.KernelIdeal.R3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array at the contents the region is entered with. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's two conditions, in closed form over the 25 points -/

/-- The first conditional's test: the grid coordinate equals 0. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 25 = 0 :=
  (by decide +kernel : ∀ t : Fin grid3.N, cond3_0 (grid3.coords t) ↔ t.val % 25 = 0)

/-- The second conditional's test: the grid coordinate equals 24. -/
abbrev cond3_1 (i : grid3.Coords) : Prop := k3_cond2 i = 1#1
/-- It holds at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

/-! ## Where the windows are idle -/

/-- The four inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Where the second conditional is not taken the output window is idle and its block is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- Where it is taken the output window is live. -/
theorem liveAt3_4 : ∀ t : Fin cfg3.N, cond3_1 (grid3.coords t) → cfg3.idle 4 (grid3.coords t) = false := by decide +kernel

/-! ## The staging memrefs and the scratch -/

/-- One staging buffer of the output window, through which its contents are stated. -/
abbrev VO3_4 : View sig .tc .vmem S512x1 .f32 := (Memref.whole cc3_stg4_0 : Memref sig .tc .vmem S512x1 .f32).view
/-- Each window's current staging memref at point `t`, and its wholeness. -/
abbrev ms3_0 (t : Fin cfg3.N) : Memref sig .tc .vmem S4000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x1 .f32 := win3_4.stage (cfg3.slots t 4)
abbrev hs3_4 (t : Fin cfg3.N) : (ms3_4 t).IsWhole := hstage3_4 ((cfg3.slots t 4).cast nbuf3_4)
/-- The scratch operand: a whole scoped buffer of the kernel's own, carried from point to point. -/
abbrev scM3_0 : Memref sig .tc .vmem S512x128 .f32 := Memref.whole cc3_scratch0
abbrev VS3_0 : View sig .tc .vmem S512x128 .f32 := scM3_0.view

/-- The region's invariant with the scratch split off as a memref owned at some contents; every other scoped
    buffer stays unopened beside it. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

set_option maxHeartbeats 1000000 in
/-- The body at the FIRST point (first conditional taken, second not): on whole memrefs — the four inputs at their
    contents, the output's buffer at contents `xi4` it does not touch, the scratch at some contents — it runs to
    the continuation holding the inputs and the output's buffer as they were and the scratch with the pieces `LS0`
    written: the zero fill, then the accumulated sum over it. The pieces are the witness the run finds. -/
noncomputable def kernelRun3_A (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : cond3_0 i) (hc1 : ¬cond3_1 i)
    (x0 : Vec F S4000x128 .f32) (x1 : Vec F S4000x1 .i32) (x2 : Vec F S128x1 .f32) (x3 : Vec F S1x1 .f32) :
    Σ' (L4 : List (View.Piece (Elt F) S512x1 .f32)), { LS0 : List (View.Piece (Elt F) S512x128 .f32) //
      ∀ (xi4 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨[], ?_, fun xi4 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 1000000 in
/-- The body at a MIDDLE point (neither conditional taken): the inputs at their contents, the output's buffer at
    contents `xi4` it does not touch, the scratch at what the point before left (`xs0`); it runs to the continuation
    holding the inputs and the output's buffer as they were and the scratch with the pieces `LS0` written: the
    accumulated sum over `xs0`. -/
noncomputable def kernelRun3_B (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : ¬cond3_1 i)
    (x0 : Vec F S4000x128 .f32) (x1 : Vec F S4000x1 .i32) (x2 : Vec F S128x1 .f32) (x3 : Vec F S1x1 .f32) (xs0 : Vec F S512x128 .f32) :
    Σ' (L4 : List (View.Piece (Elt F) S512x1 .f32)), { LS0 : List (View.Piece (Elt F) S512x128 .f32) //
      ∀ (xi4 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨[], ?_, fun xi4 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 1000000 in
/-- The body at the LAST point (second conditional taken, first not): the inputs at their contents, the output's
    buffer at anything, the scratch at what the point before left (`xs0`); it runs to the continuation holding the
    inputs as they were, the scratch with the pieces `LS0` written (the accumulated sum over `xs0`) and the output's
    buffer with the pieces `L4` written (the projection of that sum through the logistic). -/
noncomputable def kernelRun3_C (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) :
    Σ' (L4 : List (View.Piece (Elt F) S512x1 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

/-! ## What each case leaves in the output's buffer and in the scratch -/

/-- At the first point nothing is stored into the output window (idle there, not written back): no pieces — a
    placeholder nothing consults. -/
def out3_A_4 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : cond3_0 i) (hc1 : ¬cond3_1 i)
    (x0 : Vec F S4000x128 .f32) (x1 : Vec F S4000x1 .i32) (x2 : Vec F S128x1 .f32) (x3 : Vec F S1x1 .f32) : Vec F S512x1 .f32 :=
  VO3_4.read (Elt F) (VO3_4.writes (Elt F) VO3_4.junk (kernelRun3_A c i arg1 harg1 arg2 harg2 arg3 harg3 arg4 harg4 arg5 harg5 arg6 harg6 hc0 hc1 x0 x1 x2 x3).1)

/-- The first point's pieces for the scratch cover it (each of the two stores writes the whole block). -/
theorem scover3_A_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : cond3_0 i) (hc1 : ¬cond3_1 i)
    (x0 : Vec F S4000x128 .f32) (x1 : Vec F S4000x1 .i32) (x2 : Vec F S128x1 .f32) (x3 : Vec F S1x1 .f32) (y : S512x128.Idx) :
    ∃ pc ∈ (kernelRun3_A c i arg1 harg1 arg2 harg2 arg3 harg3 arg4 harg4 arg5 harg5 arg6 harg6 hc0 hc1 x0 x1 x2 x3).2.1, y ∈ pc.1.set :=
  View.cover_of_tiledL (kernelRun3_A c i arg1 harg1 arg2 harg2 arg3 harg3 arg4 harg4 arg5 harg5 arg6 harg6 hc0 hc1 x0 x1 x2 x3).2.1 S512x128.size (by sl_kernel_rfl) y

/-- What the first point leaves in the scratch: its pieces read back. -/
def sout3_A_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : cond3_0 i) (hc1 : ¬cond3_1 i)
    (x0 : Vec F S4000x128 .f32) (x1 : Vec F S4000x1 .i32) (x2 : Vec F S128x1 .f32) (x3 : Vec F S1x1 .f32) : Vec F S512x128 .f32 :=
  VS3_0.read (Elt F) (VS3_0.writes (Elt F) VS3_0.junk (kernelRun3_A c i arg1 harg1 arg2 harg2 arg3 harg3 arg4 harg4 arg5 harg5 arg6 harg6 hc0 hc1 x0 x1 x2 x3).2.1)

/-- At a middle point nothing is stored into the output window either: a placeholder. -/
def out3_B_4 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : ¬cond3_1 i)
    (x0 : Vec F S4000x128 .f32) (x1 : Vec F S4000x1 .i32) (x2 : Vec F S128x1 .f32) (x3 : Vec F S1x1 .f32) (xs0 : Vec F S512x128 .f32) : Vec F S512x1 .f32 :=
  VO3_4.read (Elt F) (VO3_4.writes (Elt F) VO3_4.junk (kernelRun3_B c i arg1 harg1 arg2 harg2 arg3 harg3 arg4 harg4 arg5 harg5 arg6 harg6 hc0 hc1 x0 x1 x2 x3 xs0).1)

/-- A middle point's one store into the scratch writes the whole block. -/
theorem scover3_B_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : ¬cond3_1 i)
    (x0 : Vec F S4000x128 .f32) (x1 : Vec F S4000x1 .i32) (x2 : Vec F S128x1 .f32) (x3 : Vec F S1x1 .f32) (xs0 : Vec F S512x128 .f32) (y : S512x128.Idx) :
    ∃ pc ∈ (kernelRun3_B c i arg1 harg1 arg2 harg2 arg3 harg3 arg4 harg4 arg5 harg5 arg6 harg6 hc0 hc1 x0 x1 x2 x3 xs0).2.1, y ∈ pc.1.set :=
  View.cover_of_tiledL (kernelRun3_B c i arg1 harg1 arg2 harg2 arg3 harg3 arg4 harg4 arg5 harg5 arg6 harg6 hc0 hc1 x0 x1 x2 x3 xs0).2.1 S512x128.size (by sl_kernel_rfl) y

/-- What a middle point leaves in the scratch. -/
def sout3_B_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : ¬cond3_1 i)
    (x0 : Vec F S4000x128 .f32) (x1 : Vec F S4000x1 .i32) (x2 : Vec F S128x1 .f32) (x3 : Vec F S1x1 .f32) (xs0 : Vec F S512x128 .f32) : Vec F S512x128 .f32 :=
  VS3_0.read (Elt F) (VS3_0.writes (Elt F) VS3_0.junk (kernelRun3_B c i arg1 harg1 arg2 harg2 arg3 harg3 arg4 harg4 arg5 harg5 arg6 harg6 hc0 hc1 x0 x1 x2 x3 xs0).2.1)

/-- The last point's one store into the output window writes its whole block. -/
theorem cover3_C_4 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) (y : S512x1.Idx) :
    ∃ pc ∈ (kernelRun3_C c i arg1 harg1 arg2 harg2 arg3 harg3 arg4 harg4 arg5 harg5 arg6 harg6 hc0 hc1 x0 x1 x2 x3 xs0).1, y ∈ pc.1.set :=
  View.cover_of_tiledL (kernelRun3_C c i arg1 harg1 arg2 harg2 arg3 harg3 arg4 harg4 arg5 harg5 arg6 harg6 hc0 hc1 x0 x1 x2 x3 xs0).1 S512x1.size (by sl_kernel_rfl) y

/-- What the last point leaves in the output's buffer. -/
def out3_C_4 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) : Vec F S512x1 .f32 :=
  VO3_4.read (Elt F) (VO3_4.writes (Elt F) VO3_4.junk (kernelRun3_C c i arg1 harg1 arg2 harg2 arg3 harg3 arg4 harg4 arg5 harg5 arg6 harg6 hc0 hc1 x0 x1 x2 x3 xs0).1)

/-- The last point's one store into the scratch writes the whole block. -/
theorem scover3_C_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) (y : S512x128.Idx) :
    ∃ pc ∈ (kernelRun3_C c i arg1 harg1 arg2 harg2 arg3 harg3 arg4 harg4 arg5 harg5 arg6 harg6 hc0 hc1 x0 x1 x2 x3 xs0).2.1, y ∈ pc.1.set :=
  View.cover_of_tiledL (kernelRun3_C c i arg1 harg1 arg2 harg2 arg3 harg3 arg4 harg4 arg5 harg5 arg6 harg6 hc0 hc1 x0 x1 x2 x3 xs0).2.1 S512x128.size (by sl_kernel_rfl) y

/-- What the last point leaves in the scratch. -/
def sout3_C_0 (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i)
    (x0 : Vec F S4000x128 .f32) (x1 : Vec F S4000x1 .i32) (x2 : Vec F S128x1 .f32) (x3 : Vec F S1x1 .f32) (xs0 : Vec F S512x128 .f32) : Vec F S512x128 .f32 :=
  VS3_0.read (Elt F) (VS3_0.writes (Elt F) VS3_0.junk (kernelRun3_C c i arg1 harg1 arg2 harg2 arg3 harg3 arg4 harg4 arg5 harg5 arg6 harg6 hc0 hc1 x0 x1 x2 x3 xs0).2.1)

/-! ## What the output's buffer and the scratch hold after each point -/

/-- The first point is in the first case. -/
theorem cond3_0_zero (hn : 0 < cfg3.N) : cond3_0 (grid3.coords ⟨0, hn⟩) := (hcond3_0 ⟨0, hn⟩).mpr (Nat.zero_mod _)
theorem ncond3_1_zero (hn : 0 < cfg3.N) : ¬cond3_1 (grid3.coords ⟨0, hn⟩) := fun h => by
  have h' := (hcond3_1 ⟨0, hn⟩).mp h; dsimp only at h'; omega
/-- No later point is. -/
theorem ncond3_0_succ (n : ℕ) (hn : n + 1 < cfg3.N) : ¬cond3_0 (grid3.coords ⟨n + 1, hn⟩) := fun h => by
  have h' := (hcond3_0 ⟨n + 1, hn⟩).mp h
  have hN : n + 1 < 25 := lt_of_lt_of_eq hn (show cfg3.N = 25 from N_3)
  dsimp only at h'; omega

/-- THE ACCUMULATION. What the output window's staging buffer and the scratch hold after the body at position `n`
    (a pair: the output, then the scratch): the first point's case at the input blocks; a later point's case — the
    last if `n % 25 = 24`, a middle one otherwise — at the input blocks and at the scratch the point before left. -/
def outsAt (c : Dev nD) : (n : ℕ) → n < cfg3.N → Vec F S512x1 .f32 × Vec F S512x128 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) (cond3_0_zero hn) (ncond3_1_zero hn) (iblk V c 0 ⟨0, hn⟩) (iblk V c 1 ⟨0, hn⟩) (iblk V c 2 ⟨0, hn⟩) (iblk V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) (cond3_0_zero hn) (ncond3_1_zero hn) (iblk V c 0 ⟨0, hn⟩) (iblk V c 1 ⟨0, hn⟩) (iblk V c 2 ⟨0, hn⟩) (iblk V c 3 ⟨0, hn⟩))
  | n + 1, hn =>
    if h1 : (n + 1) % 25 = 24 then
      (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
    else
      (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

/-- `outsAt` at the first point: the first case's contents. -/
theorem outsAt_A (c : Dev nD) (t : Fin cfg3.N) (h0 : t.val % 25 = 0) (h1 : ¬t.val % 25 = 24) :
    outsAt V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk V c 0 t) (iblk V c 1 t) (iblk V c 2 t) (iblk V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk V c 0 t) (iblk V c 1 t) (iblk V c 2 t) (iblk V c 3 t)) := by
  obtain ⟨n, hn⟩ := t
  cases n with
  | zero => exact rfl
  | succ n => exfalso; have hN : n + 1 < 25 := lt_of_lt_of_eq hn (show cfg3.N = 25 from N_3); dsimp only at h0; omega

/-- `outsAt` at a middle point: the middle case's contents, over the scratch the point before left. -/
theorem outsAt_B (c : Dev nD) (t : Fin cfg3.N) (h0 : ¬t.val % 25 = 0) (h1 : ¬t.val % 25 = 24) :
    outsAt V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk V c 0 t) (iblk V c 1 t) (iblk V c 2 t) (iblk V c 3 t) (outsAt V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact absurd (Nat.zero_mod _) h0
  | succ n => exact (dif_neg h1).trans rfl

/-- `outsAt` at the last point: the last case's contents, over the scratch the point before left. -/
theorem outsAt_C (c : Dev nD) (t : Fin cfg3.N) (h0 : ¬t.val % 25 = 0) (h1 : t.val % 25 = 24) :
    outsAt V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk V c 0 t) (iblk V c 1 t) (iblk V c 2 t) (iblk V c 3 t) (outsAt V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-! ## The invariant -/

/-- The region's invariant before position `n`: before the first point the launch's (every scoped buffer that is no
    staging buffer at anything); afterwards the scratch at what the point before left in it, every other such buffer
    unopened at anything, the generator register at some state. -/
def PhiS (c : Dev nD) : (n : ℕ) → n ≤ cfg3.N → sProp 𝕄
  | 0, _ => Pipeline.ΦA spec3 c
  | n + 1, hn => iprop(iprop(owns (c : Thread nD τ) scM3_0 fullShare ((outsAt V c n hn).2)
      ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM3_0 fullShare ((outsAt V c n hn).2)
      ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM3_0 fullShare ((outsAt V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt`'s first component; the invariant `PhiS`; nothing
    owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = (outsAt V c t.val t.isLt).1 := by dsimp only [dat]

/-- Each input's current staging buffer holds its block at every point, fetched there or not: an unfetched
    window's block index has not moved since the point before. -/
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms3_0 t) fullShare ((dat V c).before 0 t d))
    ∗ (∃ d, owns (c : Thread nD τ) (ms3_1 t) fullShare ((dat V c).before 1 t d))
    ∗ (∃ d, owns (c : Thread nD τ) (ms3_2 t) fullShare ((dat V c).before 2 t d))
    ∗ (∃ d, owns (c : Thread nD τ) (ms3_3 t) fullShare ((dat V c).before 3 t d))
    ∗ (∃ d, owns (c : Thread nD τ) (ms3_4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the closed forms of the two conditions say which of
    the three cases the point is in (both at once would make the point 0 and 24); that case's run applies. The
    invariant hands the body the scratch — at anything at the first point, at what the point before left afterwards —
    and takes it back at this point's contents, which the case's pieces cover; the other scoped buffers and the
    generator register pass through; nothing is owed throughout. Where the second conditional is not taken the
    output's buffer is handed back untouched. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 25 := lt_of_lt_of_eq t.isLt (show cfg3.N = 25 from N_3)
  rw [show (dat V c).leavesExact 0 t = owns (c : Thread nD τ) (ms3_0 t) fullShare ((dat V c).after 0 t) from by
    unfold Dat.leavesExact; rw [liveAt3_0 t], after_0]
  rw [show (dat V c).leavesExact 1 t = owns (c : Thread nD τ) (ms3_1 t) fullShare ((dat V c).after 1 t) from by
    unfold Dat.leavesExact; rw [liveAt3_1 t], after_1]
  rw [show (dat V c).leavesExact 2 t = owns (c : Thread nD τ) (ms3_2 t) fullShare ((dat V c).after 2 t) from by
    unfold Dat.leavesExact; rw [liveAt3_2 t], after_2]
  rw [show (dat V c).leavesExact 3 t = owns (c : Thread nD τ) (ms3_3 t) fullShare ((dat V c).after 3 t) from by
    unfold Dat.leavesExact; rw [liveAt3_3 t], after_3]
  by_cases h0 : t.val % 25 = 0
  · by_cases h1 : t.val % 25 = 24
    · exfalso; omega
    · rw [Dat.leavesExact_idle (dat V c) 4 t (idleAt3_4 t (fun h => h1 ((hcond3_1 t).mp h))) (noFlush3_4 t (fun h => h1 ((hcond3_1 t).mp h)))]
      rw [outsAt_A V c t h0 h1]
      unfold sout3_A_0; (try dsimp only)
      have hz : t.val = 0 := by omega
      rw [PhiS_castSucc V c t, PhiS_zero V c _ _ hz, PhiA3_eq]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (fun h => h1 ((hcond3_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · by_cases h1 : t.val % 25 = 24
    · rw [show (dat V c).leavesExact 4 t = owns (c : Thread nD τ) (ms3_4 t) fullShare ((dat V c).after 4 t) from by
        unfold Dat.leavesExact; rw [liveAt3_4 t ((hcond3_1 t).mpr h1)], after_4]
      rw [outsAt_C V c t h0 h1]
      unfold out3_C_4 sout3_C_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C_4 c _ _ _ _ _ _ _ _ _ _ _ _ _ _ _ _ _ _ _ _)
    · rw [Dat.leavesExact_idle (dat V c) 4 t (idleAt3_4 t (fun h => h1 ((hcond3_1 t).mp h))) (noFlush3_4 t (fun h => h1 ((hcond3_1 t).mp h)))]
      rw [outsAt_B V c t h0 h1]
      unfold sout3_B_0; (try dsimp only)
      have hz : t.val ≠ 0 := by omega
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the scratch's named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA3_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg3.N) ⊢ Pipeline.ΦA spec3 c :=
  Phi_out V c _ (by rw [Fin.val_last]; have : cfg3.N = 25 := N_3; omega)

end Cert.KernelIdeal.R3
end
-- ==== Proof.RunKI.lean ====
/-
  The run of the program's @main through its four kernel regions, from any memory with zero counters: every weakly
  fair execution terminates, and every unscoped buffer ends holding what the fold `W8` names — the launch contents
  pushed through each stretch of host operations and, at each region, the region's arrays replaced by what the
  pipeline's write-backs leave (the inputs as entered, the output at the fold of its blocks). Each region is entered
  from the thread state "every unscoped buffer at the boundary's contents, the generator register at some state,
  nothing owed" and left at the same state over the next boundary's contents; a region's arrays are split out of the
  unscoped buffers at entry and put back at exit; the generator register goes into the region's invariant and comes
  back. Read at the argument arrays the final contents are the launch contents (no stretch and no region writes one);
  read at the result it is the last region's output array.
-/
import proofs.«405438_j90185723282019_1_alg».proof.Proof.LaunchKI
import proofs.«405438_j90185723282019_1_alg».proof.Proof.RegionsKI
import proofs.«405438_j90185723282019_1_alg».proof.Proof.Sage0KI
import proofs.«405438_j90185723282019_1_alg».proof.Proof.Sage1KI
import proofs.«405438_j90185723282019_1_alg».proof.Proof.Sage2KI
import proofs.«405438_j90185723282019_1_alg».proof.Proof.Pool3KI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`: region 0's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: region 1's entry. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: region 2's entry. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (R2.dat (V5 m ρ) c).arrAt w cfg2.N
theorem W6_arr (c : Dev nD) (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (R2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: region 3's entry. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (R3.dat (V7 m ρ) c).arrAt w cfg3.N
theorem W8_arr (c : Dev nD) (w : Fin cfg3.W) :
    W8 m ρ c (Proc.devRef .tc (Pipeline.arrRef spec3 w)) = (R3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (R3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
  | ⟨3, _⟩ => fun c => R3.dat (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R3.hin (V7 m ρ) c)
    unfold Pipeline.ΦA
    iintro ⟨Hp, -, Hr⟩
    isplitl [Hr]; · iexact Hr
    iexact Hp
  hout c := by
    rw [Pipeline.ownSems0_none]
    refine (R3.hout (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## What the run leaves unchanged, and where the result is -/

/-- No operation of the stretch `hostOps0` writes a buffer outside its list. -/
theorem W1_of (c : Dev nD) (b : Ref sig .tc) (h : b ∉ hostOps0_W) : W1 m ρ c b = W0 m ρ c b :=
  StableHlo.after_of_writes_sub hostOps0 _ hostOps0_writes h
/-- Every window of region 0 but its output window is an input window. -/
theorem out_only0 : ∀ w : Fin cfg0.W, (cfg0.win w).isOut = false ∨ Pipeline.arrRef spec0 w = main_v23 := by decide
/-- Region 0 changes its output array only: an input window's array ends as entered, a buffer no window stages bypasses the region. -/
theorem W2_keep (c : Dev nD) (b : Ref sig .tc) (hb : b ≠ main_v23) :
    W2 m ρ c (Proc.devRef .tc b) = W1 m ρ c (Proc.devRef .tc b) := by
  by_cases h : ∃ w, Pipeline.arrRef spec0 w = b
  · obtain ⟨w, rfl⟩ := h
    rcases out_only0 w with hin | he
    · exact (W2_arr m ρ c w).trans (((R0.dat (V1 m ρ) c).arrAt_in w hin _).trans (R0.A_eq (V1 m ρ) c w))
    · exact absurd he hb
  · exact W2_of_ne m ρ c b (fun w e => h ⟨w, e⟩)

/-- No operation of the stretch `hostOps1` writes a buffer outside its list. -/
theorem W3_of (c : Dev nD) (b : Ref sig .tc) (h : b ∉ hostOps1_W) : W3 m ρ c b = W2 m ρ c b :=
  StableHlo.after_of_writes_sub hostOps1 _ hostOps1_writes h
/-- Every window of region 1 but its output window is an input window. -/
theorem out_only1 : ∀ w : Fin cfg1.W, (cfg1.win w).isOut = false ∨ Pipeline.arrRef spec1 w = main_v37 := by decide
/-- Region 1 changes its output array only: an input window's array ends as entered, a buffer no window stages bypasses the region. -/
theorem W4_keep (c : Dev nD) (b : Ref sig .tc) (hb : b ≠ main_v37) :
    W4 m ρ c (Proc.devRef .tc b) = W3 m ρ c (Proc.devRef .tc b) := by
  by_cases h : ∃ w, Pipeline.arrRef spec1 w = b
  · obtain ⟨w, rfl⟩ := h
    rcases out_only1 w with hin | he
    · exact (W4_arr m ρ c w).trans (((R1.dat (V3 m ρ) c).arrAt_in w hin _).trans (R1.A_eq (V3 m ρ) c w))
    · exact absurd he hb
  · exact W4_of_ne m ρ c b (fun w e => h ⟨w, e⟩)

/-- No operation of the stretch `hostOps2` writes a buffer outside its list. -/
theorem W5_of (c : Dev nD) (b : Ref sig .tc) (h : b ∉ hostOps2_W) : W5 m ρ c b = W4 m ρ c b :=
  StableHlo.after_of_writes_sub hostOps2 _ hostOps2_writes h
/-- Every window of region 2 but its output window is an input window. -/
theorem out_only2 : ∀ w : Fin cfg2.W, (cfg2.win w).isOut = false ∨ Pipeline.arrRef spec2 w = main_v51 := by decide
/-- Region 2 changes its output array only: an input window's array ends as entered, a buffer no window stages bypasses the region. -/
theorem W6_keep (c : Dev nD) (b : Ref sig .tc) (hb : b ≠ main_v51) :
    W6 m ρ c (Proc.devRef .tc b) = W5 m ρ c (Proc.devRef .tc b) := by
  by_cases h : ∃ w, Pipeline.arrRef spec2 w = b
  · obtain ⟨w, rfl⟩ := h
    rcases out_only2 w with hin | he
    · exact (W6_arr m ρ c w).trans (((R2.dat (V5 m ρ) c).arrAt_in w hin _).trans (R2.A_eq (V5 m ρ) c w))
    · exact absurd he hb
  · exact W6_of_ne m ρ c b (fun w e => h ⟨w, e⟩)

/-- No operation of the stretch `hostOps3` writes a buffer outside its list. -/
theorem W7_of (c : Dev nD) (b : Ref sig .tc) (h : b ∉ hostOps3_W) : W7 m ρ c b = W6 m ρ c b :=
  StableHlo.after_of_writes_sub hostOps3 _ hostOps3_writes h
/-- Every window of region 3 but its output window is an input window. -/
theorem out_only3 : ∀ w : Fin cfg3.W, (cfg3.win w).isOut = false ∨ Pipeline.arrRef spec3 w = main_v54 := by decide
/-- Region 3 changes its output array only: an input window's array ends as entered, a buffer no window stages bypasses the region. -/
theorem W8_keep (c : Dev nD) (b : Ref sig .tc) (hb : b ≠ main_v54) :
    W8 m ρ c (Proc.devRef .tc b) = W7 m ρ c (Proc.devRef .tc b) := by
  by_cases h : ∃ w, Pipeline.arrRef spec3 w = b
  · obtain ⟨w, rfl⟩ := h
    rcases out_only3 w with hin | he
    · exact (W8_arr m ρ c w).trans (((R3.dat (V7 m ρ) c).arrAt_in w hin _).trans (R3.A_eq (V7 m ρ) c w))
    · exact absurd he hb
  · exact W8_of_ne m ρ c b (fun w e => h ⟨w, e⟩)

/-- A buffer that no host stretch writes and that is no region's output array ends holding its launch contents. -/
theorem W8_launch (c : Dev nD) (b : Ref sig .tc) (h0 : b ∉ hostOps0_W) (h1 : b ∉ hostOps1_W) (h2 : b ∉ hostOps2_W) (h3 : b ∉ hostOps3_W)
    (n0 : b ≠ main_v23) (n1 : b ≠ main_v37) (n2 : b ≠ main_v51) (n3 : b ≠ main_v54) :
    W8 m ρ c (Proc.devRef .tc b) = m ((c : Thread nD τ).loc b) :=
  (W8_keep m ρ c b n3).trans <| (W7_of m ρ c b h3).trans <| (W6_keep m ρ c b n2).trans <| (W5_of m ρ c b h2).trans <|
    (W4_keep m ρ c b n1).trans <| (W3_of m ρ c b h1).trans <| (W2_keep m ρ c b n0).trans <| (W1_of m ρ c b h0).trans rfl

/-! ## The frame, and the run with its result named -/

/-- THE FRAME: from any memory with zero counters every weakly fair execution of @main terminates, nothing faulting,
    and every argument array ends holding its launch contents: no host stretch writes an argument and no region has
    one as its output. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W8_launch m ρ c main_arg0 (by decide) (by decide) (by decide) (by decide) (by decide) (by decide) (by decide) (by decide)),
      (h c _ (mem_uc main_arg1 (by decide))).trans (W8_launch m ρ c main_arg1 (by decide) (by decide) (by decide) (by decide) (by decide) (by decide) (by decide) (by decide)),
      (h c _ (mem_uc main_arg2 (by decide))).trans (W8_launch m ρ c main_arg2 (by decide) (by decide) (by decide) (by decide) (by decide) (by decide) (by decide) (by decide)),
      (h c _ (mem_uc main_arg3 (by decide))).trans (W8_launch m ρ c main_arg3 (by decide) (by decide) (by decide) (by decide) (by decide) (by decide) (by decide) (by decide)),
      (h c _ (mem_uc main_arg4 (by decide))).trans (W8_launch m ρ c main_arg4 (by decide) (by decide) (by decide) (by decide) (by decide) (by decide) (by decide) (by decide)),
      (h c _ (mem_uc main_arg5 (by decide))).trans (W8_launch m ρ c main_arg5 (by decide) (by decide) (by decide) (by decide) (by decide) (by decide) (by decide) (by decide)),
      (h c _ (mem_uc main_arg6 (by decide))).trans (W8_launch m ρ c main_arg6 (by decide) (by decide) (by decide) (by decide) (by decide) (by decide) (by decide) (by decide)),
      (h c _ (mem_uc main_arg7 (by decide))).trans (W8_launch m ρ c main_arg7 (by decide) (by decide) (by decide) (by decide) (by decide) (by decide) (by decide) (by decide)),
      (h c _ (mem_uc main_arg8 (by decide))).trans (W8_launch m ρ c main_arg8 (by decide) (by decide) (by decide) (by decide) (by decide) (by decide) (by decide) (by decide)),
      (h c _ (mem_uc main_arg9 (by decide))).trans (W8_launch m ρ c main_arg9 (by decide) (by decide) (by decide) (by decide) (by decide) (by decide) (by decide) (by decide)),
      (h c _ (mem_uc main_arg10 (by decide))).trans (W8_launch m ρ c main_arg10 (by decide) (by decide) (by decide) (by decide) (by decide) (by decide) (by decide) (by decide)),
      (h c _ (mem_uc main_arg11 (by decide))).trans (W8_launch m ρ c main_arg11 (by decide) (by decide) (by decide) (by decide) (by decide) (by decide) (by decide) (by decide)),
      (h c _ (mem_uc main_arg12 (by decide))).trans (W8_launch m ρ c main_arg12 (by decide) (by decide) (by decide) (by decide) (by decide) (by decide) (by decide) (by decide)),
      (h c _ (mem_uc main_arg13 (by decide))).trans (W8_launch m ρ c main_arg13 (by decide) (by decide) (by decide) (by decide) (by decide) (by decide) (by decide) (by decide))⟩) (run_all m ρ)

/-- THE RUN WITH ITS RESULT: the same, and the result buffer ends holding `v c` when that is what the last boundary's
    contents have there. -/
theorem run_result (v : (c : Dev nD) → Buf (Elt F) ((c.tc : Thread nD τ).loc main_v54))
    (hv : ∀ c : Dev nD, W8 m ρ c main_v54 = v c) :
    θ_run defs (onTc (τ := τ) (main (F := F))) ⟨m, fun _ => 0, ρ⟩ (fun r => ∀ c : Dev nD,
      r.2.mem ((c.tc : Thread nD τ).loc main_v54) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v54 (by decide))).trans (hv c),
      (h c _ (mem_uc main_arg0 (by decide))).trans (W8_launch m ρ c main_arg0 (by decide) (by decide) (by decide) (by decide) (by decide) (by decide) (by decide) (by decide)),
      (h c _ (mem_uc main_arg1 (by decide))).trans (W8_launch m ρ c main_arg1 (by decide) (by decide) (by decide) (by decide) (by decide) (by decide) (by decide) (by decide)),
      (h c _ (mem_uc main_arg2 (by decide))).trans (W8_launch m ρ c main_arg2 (by decide) (by decide) (by decide) (by decide) (by decide) (by decide) (by decide) (by decide)),
      (h c _ (mem_uc main_arg3 (by decide))).trans (W8_launch m ρ c main_arg3 (by decide) (by decide) (by decide) (by decide) (by decide) (by decide) (by decide) (by decide)),
      (h c _ (mem_uc main_arg4 (by decide))).trans (W8_launch m ρ c main_arg4 (by decide) (by decide) (by decide) (by decide) (by decide) (by decide) (by decide) (by decide)),
      (h c _ (mem_uc main_arg5 (by decide))).trans (W8_launch m ρ c main_arg5 (by decide) (by decide) (by decide) (by decide) (by decide) (by decide) (by decide) (by decide)),
      (h c _ (mem_uc main_arg6 (by decide))).trans (W8_launch m ρ c main_arg6 (by decide) (by decide) (by decide) (by decide) (by decide) (by decide) (by decide) (by decide)),
      (h c _ (mem_uc main_arg7 (by decide))).trans (W8_launch m ρ c main_arg7 (by decide) (by decide) (by decide) (by decide) (by decide) (by decide) (by decide) (by decide)),
      (h c _ (mem_uc main_arg8 (by decide))).trans (W8_launch m ρ c main_arg8 (by decide) (by decide) (by decide) (by decide) (by decide) (by decide) (by decide) (by decide)),
      (h c _ (mem_uc main_arg9 (by decide))).trans (W8_launch m ρ c main_arg9 (by decide) (by decide) (by decide) (by decide) (by decide) (by decide) (by decide) (by decide)),
      (h c _ (mem_uc main_arg10 (by decide))).trans (W8_launch m ρ c main_arg10 (by decide) (by decide) (by decide) (by decide) (by decide) (by decide) (by decide) (by decide)),
      (h c _ (mem_uc main_arg11 (by decide))).trans (W8_launch m ρ c main_arg11 (by decide) (by decide) (by decide) (by decide) (by decide) (by decide) (by decide) (by decide)),
      (h c _ (mem_uc main_arg12 (by decide))).trans (W8_launch m ρ c main_arg12 (by decide) (by decide) (by decide) (by decide) (by decide) (by decide) (by decide) (by decide)),
      (h c _ (mem_uc main_arg13 (by decide))).trans (W8_launch m ρ c main_arg13 (by decide) (by decide) (by decide) (by decide) (by decide) (by decide) (by decide) (by decide))⟩) (run_all m ρ)

end Cert.KernelIdeal.Run

end
-- ==== Proof.Spec.lean ====
import Idealize.ShloMosaic.PureOps.Ideal
import Idealize.ShloMosaic.PureOps.Ideal.Laws
import Idealize.ShloMosaic.Lib.ValueIdx

/-!
  The mathematics both programs compute, over the extended reals, entry by entry.

  A node table has 100000 rows of 128 features. One layer sends a table `h` and the table `mean` of its
  neighbourhood means to `max (mean · Wl + h · Wr + b) 0`: entry `(n, d)` is the sum over `k` of
  `mean (n, k) · Wl (k, d)`, plus the sum over `k` of `h (n, k) · Wr (k, d)`, plus `b d`, cut off below at zero.
  The read-out sums the rows of a table graph by graph — row `n` belongs to graph `g` when its 32-bit id is the
  word `g` — and sends graph `g` to `logistic (pooled (g, ·) · Wro + bro)`.
-/

noncomputable section

open scoped BigOperators

namespace Cert.Spec

open Idealize.ShloMosaic Idealize.ShloMosaic.ValueIdx

/-- A node table: 100000 rows of 128 features. -/
abbrev Nodes : Shape := ⟨2, ![100000, 128]⟩
/-- A weight matrix. -/
abbrev Sq : Shape := ⟨2, ![128, 128]⟩
/-- A bias as one row. -/
abbrev Row : Shape := ⟨2, ![1, 128]⟩
/-- The graph ids as one column. -/
abbrev Ids : Shape := ⟨2, ![100000, 1]⟩
/-- The read-out weights as one column. -/
abbrev Col : Shape := ⟨2, ![128, 1]⟩
/-- The read-out bias as one entry. -/
abbrev One : Shape := ⟨2, ![1, 1]⟩
/-- One row of sums per graph. -/
abbrev Pooled : Shape := ⟨2, ![512, 128]⟩
/-- One value per graph. -/
abbrev Out : Shape := ⟨2, ![512, 1]⟩
/-- A block of 4000 rows of a node table. -/
abbrev Blk : Shape := ⟨2, ![4000, 128]⟩
/-- The graph ids of a block of 4000 rows. -/
abbrev BlkIds : Shape := ⟨2, ![4000, 1]⟩

/-- Entry `(n, d)` of one layer: `max (∑ₖ mean (n, k) · Wl (k, d) + ∑ₖ h (n, k) · Wr (k, d) + b d) 0`. -/
def layerAt (mean h : Nodes.Idx → EReal) (Wl Wr : Sq.Idx → EReal) (b : Row.Idx → EReal) (n : Fin 100000) (d : Fin 128) : EReal :=
  max (((∑ k : Fin 128, mean (ix2 n k) * Wl (ix2 k d)) + ∑ k : Fin 128, h (ix2 n k) * Wr (ix2 k d)) + b (ix2 0 d)) 0

/-- One layer as a table. -/
def layer (mean h : Nodes.Idx → EReal) (Wl Wr : Sq.Idx → EReal) (b : Row.Idx → EReal) : Nodes.Idx → EReal :=
  fun i => layerAt mean h Wl Wr b (i 0) (i 1)

/-- Entry `(g, d)` of the per-graph sums: the sum of `h (n, d)` over the rows `n` whose id is the word `g`. -/
def pooledAt (h : Nodes.Idx → EReal) (batch : Ids.Idx → BitVec 32) (g : Fin 512) (d : Fin 128) : EReal :=
  ∑ n : Fin 100000, if batch (ix2 n 0) = BitVec.ofNat 32 g.val then h (ix2 n d) else 0

/-- The read-out of graph `g`: `logistic (∑_d pooled (g, d) · Wro d + bro)`. -/
def outAt (h : Nodes.Idx → EReal) (batch : Ids.Idx → BitVec 32) (Wro : Col.Idx → EReal) (bro : One.Idx → EReal) (g : Fin 512) : EReal :=
  Ideal.logistic ((∑ d : Fin 128, pooledAt h batch g d * Wro (ix2 d 0)) + bro (ix2 0 0))

/-- The read-out as a column. -/
def out (h : Nodes.Idx → EReal) (batch : Ids.Idx → BitVec 32) (Wro : Col.Idx → EReal) (bro : One.Idx → EReal) : Out.Idx → EReal :=
  fun i => outAt h batch Wro bro (i 0)

/-- Rows `4000 t … 4000 t + 3999` of a table of 100000 rows and `C` columns: block `t` of 25. -/
def rowsOf {α : Type} {C : Nat} (x : (⟨2, ![100000, C]⟩ : Shape).Idx → α) (t : Fin 25) : (⟨2, ![4000, C]⟩ : Shape).Idx → α :=
  fun y => x (ix2 (⟨4000 * t.val + (y 0).val, by have := (y 0).isLt; have := t.isLt; simp only [Matrix.cons_val_zero] at *; omega⟩ : Fin 100000) (y 1))

/-- A bias of 128 entries read as one row: entry `(r, d)` is `b d`. -/
def rowOf (b : (⟨1, ![128]⟩ : Shape).Idx → EReal) : Row.Idx → EReal := fun i => b (ix1 (i 1))

/-- The 100000 graph ids read as one column: entry `(n, c)` is `batch n`. -/
def colIds (batch : (⟨1, ![100000]⟩ : Shape).Idx → BitVec 32) : Ids.Idx → BitVec 32 := fun i => batch (ix1 (i 0))

/-- The read-out bias, one number, read as a one-by-one table. -/
def oneOf (bro : (⟨1, ![1]⟩ : Shape).Idx → EReal) : One.Idx → EReal := fun _ => bro (ix1 0)

end Cert.Spec

end
-- ==== Proof.HostKI.lean ====
import proofs.«405438_j90185723282019_1_alg».proof.Proof.LaunchKI
import proofs.«405438_j90185723282019_1_alg».proof.Proof.Spec
import Idealize.ShloMosaic.Lib.StableHlo.Run
import Idealize.ShloMosaic.Lib.Pipeline.Value
import Idealize.ShloMosaic.Lib.ValueLayout

/-!
  What the host operations between the kernel regions compute, as named functions of the buffers they read,
  for any float family `F` (no arithmetic is opened here: sums, quotients, maxima stay the family's own).

  The edge list is a `2 × 600000` table of 32-bit words: row 0 the sources, row 1 the destinations.
  * `srcOf`, `dstOf`: one row of it, as a vector of 600000 words.
  * `cntOf dst`: per node, the number of edges arriving at it (ones added up at the destinations, starting
    from zero), but at least one.
  * `meanCore h src dst cnt`: per node and feature, the rows of `h` at the sources (a negative source read
    as itself plus 100000) added up at the destinations, starting from zero, divided by `cnt` of the node.
  * `meanOf h ei`: `meanCore` at the two rows of `ei` and the count of its destinations.
  * `rowCast`, `colCast`, `oneCast`: a vector of 128 read as one row, a vector of 100000 as one column, one
    number as a one-by-one table: the same entries in the same row-major order.

  Each stretch of host operations is a straight line of assignments, so what a buffer holds after it is the
  composition of the functions on the path to it; the theorems `host…` say which of the above that is, one per
  buffer a later region or stretch reads. The last three theorems read the three casts entry by entry over the
  extended reals.
-/

noncomputable section

namespace Cert.KernelIdeal.Host

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-! ## The named functions -/

/-- The sources: row 0 of the edge list, as a vector. -/
def srcOf (ei : IVec S2x600000 32) : IVec S600000 32 :=
  shapeCast S600000 (extractStridedSlice S1x600000 ![0, 0] ei slices_S2x600000_S1x600000_0_0) shapeCasts_S1x600000_S600000

/-- The destinations: row 1 of the edge list, as a vector. -/
def dstOf (ei : IVec S2x600000 32) : IVec S600000 32 :=
  shapeCast S600000 (extractStridedSlice S1x600000 ![1, 0] ei slices_S2x600000_S1x600000_1_0) shapeCasts_S1x600000_S600000

/-- Per node, `max (the sum of one 1 per edge arriving at it, from 0) 1`. -/
def cntOf (dst : IVec S600000 32) : FVec F S100000x1 .f32 :=
  maximumf
    (Host.scatterAdd scatter_S100000x1_S600000x1_S600000x1_1_0_0_1
      (broadcastInDim S100000x1 ![] bcast_S_S100000x1 (constant (F := F) S_ .f32 0#32))
      (broadcastInDim S600000x1 ![0] bcast_S600000_S600000x1_0 dst)
      (broadcastInDim S600000x1 ![] bcast_S_S600000x1 (constant (F := F) S_ .f32 1065353216#32)))
    (broadcastInDim S100000x1 ![] bcast_S_S100000x1 (constant (F := F) S_ .f32 1065353216#32))

/-- Per node and feature: the rows of `h` at the sources (a source below zero moved up by 100000), summed at
    the destinations from 0, over `cnt` of the node. -/
def meanCore (h : FVec F S100000x128 .f32) (src dst : IVec S600000 32) (cnt : FVec F S100000x1 .f32) :
    FVec F S100000x128 .f32 :=
  Host.divf
    (Host.scatterAdd scatter_S100000x128_S600000x1_S600000x128_1_0_0_1
      (broadcastInDim S100000x128 ![] bcast_S_S100000x128 (constant (F := F) S_ .f32 0#32))
      (broadcastInDim S600000x1 ![0] bcast_S600000_S600000x1_0 dst)
      (Host.gather gather_S100000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32)))
            src))))
    (broadcastInDim S100000x128 ![0, 1] bcast_S100000x1_S100000x128_0_1 cnt)

/-- The neighbourhood means of `h` along the edge list `ei`. -/
def meanOf (h : FVec F S100000x128 .f32) (ei : IVec S2x600000 32) : FVec F S100000x128 .f32 :=
  meanCore h (srcOf ei) (dstOf ei) (cntOf (F := F) (dstOf ei))

/-- 128 entries as one row of 128. -/
def rowCast (b : FVec F S128 .f32) : FVec F S1x128 .f32 := shapeCast S1x128 b shapeCasts_S128_S1x128

/-- 100000 words as one column of 100000. -/
def colCast (ids : IVec S100000 32) : IVec S100000x1 32 := shapeCast S100000x1 ids shapeCasts_S100000_S100000x1

/-- One entry as a one-by-one table. -/
def oneCast (b : FVec F S1 .f32) : FVec F S1x1 .f32 := shapeCast S1x1 b shapeCasts_S1_S1x1

/-! ## The first stretch, from any contents `W`

Every operation assigns one buffer the value of its function at the buffers it reads, and no buffer is assigned
twice: the contents of a buffer after the stretch is its operation's function at the contents of its operands
after the stretch, down to the buffers the stretch only reads, which hold what `W` gave them. The composed
term is the named function, definition for definition. -/

set_option maxHeartbeats 4000000 in
/-- `%1` is row 0 of the edge list. -/
theorem host0_v1 (W : Valuation τ sig (Elt F)) :
    StableHlo.after (hostOps0 (F := F)) W main_v1 = srcOf (W main_arg1) := by
  after_results_simp
  rfl

set_option maxHeartbeats 4000000 in
/-- `%3` is row 1 of the edge list. -/
theorem host0_v3 (W : Valuation τ sig (Elt F)) :
    StableHlo.after (hostOps0 (F := F)) W main_v3 = dstOf (W main_arg1) := by
  after_results_simp
  rfl

set_option maxHeartbeats 4000000 in
/-- `%9` is the count, at least one, of the edges arriving at each node. -/
theorem host0_v9 (W : Valuation τ sig (Elt F)) :
    StableHlo.after (hostOps0 (F := F)) W main_v9 = cntOf (dstOf (W main_arg1)) := by
  after_results_simp
  rfl

set_option maxHeartbeats 4000000 in
/-- `%21` is the neighbourhood means of the input table. -/
theorem host0_v21 (W : Valuation τ sig (Elt F)) :
    StableHlo.after (hostOps0 (F := F)) W main_v21 = meanOf (W main_arg0) (W main_arg1) := by
  after_results_simp
  rfl

set_option maxHeartbeats 4000000 in
/-- `%22` is the first layer's bias as one row. -/
theorem host0_v22 (W : Valuation τ sig (Elt F)) :
    StableHlo.after (hostOps0 (F := F)) W main_v22 = rowCast (W main_arg5) := by
  after_results_simp
  rfl

/-! ## The second and third stretches

They read the sources, the destinations and the count where the first stretch left them (`%1`, `%3`, `%9`), and
the table the region before them wrote. -/

set_option maxHeartbeats 4000000 in
/-- `%35` is the neighbourhood means of the first layer's table `%23`. -/
theorem host1_v35 (W : Valuation τ sig (Elt F)) :
    StableHlo.after (hostOps1 (F := F)) W main_v35 = meanCore (W main_v23) (W main_v1) (W main_v3) (W main_v9) := by
  after_results_simp
  rfl

set_option maxHeartbeats 4000000 in
/-- `%36` is the second layer's bias as one row. -/
theorem host1_v36 (W : Valuation τ sig (Elt F)) :
    StableHlo.after (hostOps1 (F := F)) W main_v36 = rowCast (W main_arg8) := by
  after_results_simp
  rfl

set_option maxHeartbeats 4000000 in
/-- `%49` is the neighbourhood means of the second layer's table `%37`. -/
theorem host2_v49 (W : Valuation τ sig (Elt F)) :
    StableHlo.after (hostOps2 (F := F)) W main_v49 = meanCore (W main_v37) (W main_v1) (W main_v3) (W main_v9) := by
  after_results_simp
  rfl

set_option maxHeartbeats 4000000 in
/-- `%50` is the third layer's bias as one row. -/
theorem host2_v50 (W : Valuation τ sig (Elt F)) :
    StableHlo.after (hostOps2 (F := F)) W main_v50 = rowCast (W main_arg11) := by
  after_results_simp
  rfl

/-! ## The last stretch -/

set_option maxHeartbeats 4000000 in
/-- `%52` is the graph ids as one column. -/
theorem host3_v52 (W : Valuation τ sig (Elt F)) :
    StableHlo.after (hostOps3 (F := F)) W main_v52 = colCast (W main_arg2) := by
  after_results_simp
  rfl

set_option maxHeartbeats 4000000 in
/-- `%53` is the read-out bias as a one-by-one table. -/
theorem host3_v53 (W : Valuation τ sig (Elt F)) :
    StableHlo.after (hostOps3 (F := F)) W main_v53 = oneCast (W main_arg13) := by
  after_results_simp
  rfl

/-! ## The three casts, entry by entry

A cast keeps the row-major position. In `[1, a]` entry `(u, i)` sits at `u · a + i = i`, the position of
entry `i` of `[a]`; in `[n, 1]` entry `(i, c)` sits at `i · 1 + c = i`, since `c < 1`. -/

open Idealize.ShloMosaic.ValueIdx in
/-- Entry `(u, d)` of the row is entry `d` of the vector. -/
theorem rowCast_eq (b : FVec Ideal S128 .f32) : rowCast (F := Ideal) b = Cert.Spec.rowOf b := by
  funext i
  obtain ⟨u, d, rfl⟩ : ∃ u d, i = ix2 u d := ⟨_, _, eq_ix2 i⟩
  exact shapeCast_a_1a_apply b shapeCasts_S128_S1x128 u d

open Idealize.ShloMosaic.ValueIdx in
/-- Entry `(n, c)` of the column is entry `n` of the vector. -/
theorem colCast_eq (ids : IVec S100000 32) : colCast ids = Cert.Spec.colIds ids := by
  funext i
  obtain ⟨n, c, rfl⟩ : ∃ n c, i = ix2 n c := ⟨_, _, eq_ix2 i⟩
  refine shapeCast_apply ids shapeCasts_S100000_S100000x1 _ _ ?_
  have hc : c.val = 0 := by omega
  rw [Shape.rowMajor_val_two, Shape.rowMajor_val_one]
  show n.val = n.val * 1 + c.val
  rw [hc, Nat.mul_one, Nat.add_zero]

open Idealize.ShloMosaic.ValueIdx in
/-- The one entry of the table is the one entry of the vector. -/
theorem oneCast_eq (b : FVec Ideal S1 .f32) : oneCast (F := Ideal) b = Cert.Spec.oneOf b := by
  funext i
  obtain ⟨u, d, rfl⟩ : ∃ u d, i = ix2 u d := ⟨_, _, eq_ix2 i⟩
  have hd : d = 0 := Fin.ext (by omega)
  rw [hd]
  exact shapeCast_a_1a_apply b shapeCasts_S1_S1x1 u 0

end Cert.KernelIdeal.Host

end
-- ==== Proof.ValKI.lean ====
/-
  The value the kernel program leaves in its result buffer, at the ideal instance, as the specification's nesting:
  three layers, each of the neighbourhood means of the table before it, then the read-out. The launch contents are
  pushed through the run's boundaries: a stretch of host operations writes the means, the edge list's two rows and
  the count once and later stretches read them where they were left (no region changes them); a region's output
  array is the layer of its input arrays; the three biases, the graph ids and the read-out bias reach their region
  recast as a row, a column and a one-by-one table.
-/
import proofs.«405438_j90185723282019_1_alg».proof.Proof.RunKI
import proofs.«405438_j90185723282019_1_alg».proof.Proof.HostKI
import proofs.«405438_j90185723282019_1_alg».proof.Proof.Spec

set_option maxRecDepth 16384

noncomputable section

namespace Cert.KernelIdeal.Run

open Idealize.ShloMosaic Idealize.ShloMosaic.TcCoe
open Idealize.SL Idealize.SL.Sem
open Idealize.ShloMosaic.Pipeline (Dat)
open Cert.KernelIdeal Cert.KernelIdeal.Gen Cert.KernelIdeal.GenP Cert.KernelIdeal.Host Cert.Spec

variable (m : (ℓ : Loc nD τ sig) → Buf (Elt Ideal) ℓ) (ρ : Dev nD → PrngReg) (c : Dev nD)

/-! ## Buffers that hold their launch contents at a boundary -/

theorem W1_launch (b : Ref sig .tc) (h0 : b ∉ hostOps0_W) : W1 m ρ c b = m ((c : Thread nD τ).loc b) :=
  (W1_of m ρ c b h0).trans rfl
theorem W3_launch (b : Ref sig .tc) (h0 : b ∉ hostOps0_W) (n0 : b ≠ main_v23) (h1 : b ∉ hostOps1_W) :
    W3 m ρ c b = m ((c : Thread nD τ).loc b) :=
  (W3_of m ρ c b h1).trans ((W2_keep m ρ c b n0).trans (W1_launch m ρ c b h0))
theorem W5_launch (b : Ref sig .tc) (h0 : b ∉ hostOps0_W) (n0 : b ≠ main_v23) (h1 : b ∉ hostOps1_W) (n1 : b ≠ main_v37)
    (h2 : b ∉ hostOps2_W) : W5 m ρ c b = m ((c : Thread nD τ).loc b) :=
  (W5_of m ρ c b h2).trans ((W4_keep m ρ c b n1).trans (W3_launch m ρ c b h0 n0 h1))
theorem W7_launch (b : Ref sig .tc) (h0 : b ∉ hostOps0_W) (n0 : b ≠ main_v23) (h1 : b ∉ hostOps1_W) (n1 : b ≠ main_v37)
    (h2 : b ∉ hostOps2_W) (n2 : b ≠ main_v51) (h3 : b ∉ hostOps3_W) : W7 m ρ c b = m ((c : Thread nD τ).loc b) :=
  (W7_of m ρ c b h3).trans ((W6_keep m ρ c b n2).trans (W5_launch m ρ c b h0 n0 h1 n1 h2))

/-! ## The edge list's rows and the count, where the first stretch left them -/

/-- A buffer the first stretch wrote, which no later stretch writes and which is no region's output, still holds at
    the second region's entry boundary what the first stretch left. -/
theorem W2_first (b : Ref sig .tc) (n0 : b ≠ main_v23) : W2 m ρ c b = W1 m ρ c b := W2_keep m ρ c b n0
theorem W4_first (b : Ref sig .tc) (n0 : b ≠ main_v23) (h1 : b ∉ hostOps1_W) (n1 : b ≠ main_v37) : W4 m ρ c b = W1 m ρ c b :=
  (W4_keep m ρ c b n1).trans ((W3_of m ρ c b h1).trans (W2_keep m ρ c b n0))

theorem src1 : W1 m ρ c main_v1 = srcOf (m ((c : Thread nD τ).loc main_arg1)) := host0_v1 (W0 m ρ c)
theorem dst1 : W1 m ρ c main_v3 = dstOf (m ((c : Thread nD τ).loc main_arg1)) := host0_v3 (W0 m ρ c)
theorem cnt1 : W1 m ρ c main_v9 = cntOf (F := Ideal) (dstOf (m ((c : Thread nD τ).loc main_arg1))) := host0_v9 (W0 m ρ c)

/-! ## The three tables and the result -/

/-- The first layer's table. -/
def K1 : Nodes.Idx → EReal :=
  layer (meanOf (F := Ideal) (m ((c : Thread nD τ).loc main_arg0)) (m ((c : Thread nD τ).loc main_arg1))) (m ((c : Thread nD τ).loc main_arg0))
    (m ((c : Thread nD τ).loc main_arg3)) (m ((c : Thread nD τ).loc main_arg4)) (rowOf (m ((c : Thread nD τ).loc main_arg5)))
/-- The second layer's table. -/
def K2 : Nodes.Idx → EReal :=
  layer (meanOf (F := Ideal) (K1 m c) (m ((c : Thread nD τ).loc main_arg1))) (K1 m c)
    (m ((c : Thread nD τ).loc main_arg6)) (m ((c : Thread nD τ).loc main_arg7)) (rowOf (m ((c : Thread nD τ).loc main_arg8)))
/-- The third layer's table. -/
def K3 : Nodes.Idx → EReal :=
  layer (meanOf (F := Ideal) (K2 m c) (m ((c : Thread nD τ).loc main_arg1))) (K2 m c)
    (m ((c : Thread nD τ).loc main_arg9)) (m ((c : Thread nD τ).loc main_arg10)) (rowOf (m ((c : Thread nD τ).loc main_arg11)))

section
variable
  (harr0 : ∀ (V : (c : Dev nD) → (b : Ref sig .tc) → Buf (Elt Ideal) ((c : Thread nD τ).loc b)) (c : Dev nD),
    (R0.dat (F := Ideal) V c).arrAt 5 cfg0.N = layer (V c (Pipeline.arrRef spec0 0)) (V c (Pipeline.arrRef spec0 1)) (V c (Pipeline.arrRef spec0 2)) (V c (Pipeline.arrRef spec0 3)) (V c (Pipeline.arrRef spec0 4)))
  (harr1 : ∀ (V : (c : Dev nD) → (b : Ref sig .tc) → Buf (Elt Ideal) ((c : Thread nD τ).loc b)) (c : Dev nD),
    (R1.dat (F := Ideal) V c).arrAt 5 cfg1.N = layer (V c (Pipeline.arrRef spec1 0)) (V c (Pipeline.arrRef spec1 1)) (V c (Pipeline.arrRef spec1 2)) (V c (Pipeline.arrRef spec1 3)) (V c (Pipeline.arrRef spec1 4)))
  (harr2 : ∀ (V : (c : Dev nD) → (b : Ref sig .tc) → Buf (Elt Ideal) ((c : Thread nD τ).loc b)) (c : Dev nD),
    (R2.dat (F := Ideal) V c).arrAt 5 cfg2.N = layer (V c (Pipeline.arrRef spec2 0)) (V c (Pipeline.arrRef spec2 1)) (V c (Pipeline.arrRef spec2 2)) (V c (Pipeline.arrRef spec2 3)) (V c (Pipeline.arrRef spec2 4)))
  (harr3 : ∀ (V : (c : Dev nD) → (b : Ref sig .tc) → Buf (Elt Ideal) ((c : Thread nD τ).loc b)) (c : Dev nD),
    (R3.dat (F := Ideal) V c).arrAt 4 cfg3.N = out (V c (Pipeline.arrRef spec3 0)) (V c (Pipeline.arrRef spec3 1)) (V c (Pipeline.arrRef spec3 2)) (V c (Pipeline.arrRef spec3 3)))

include harr0 in
/-- The first region's output array is the first layer's table. -/
theorem table1 : W2 m ρ c main_v23 = K1 m c := by
  refine (W2_arr m ρ c 5).trans ((harr0 (V1 m ρ) c).trans ?_)
  show layer (W1 m ρ c main_v21) (W1 m ρ c main_arg0) (W1 m ρ c main_arg3) (W1 m ρ c main_arg4) (W1 m ρ c main_v22) = _
  rw [show W1 m ρ c main_v21 = _ from host0_v21 (W0 m ρ c), show W1 m ρ c main_v22 = _ from host0_v22 (W0 m ρ c),
    W1_launch m ρ c main_arg0 (by decide), W1_launch m ρ c main_arg3 (by decide), W1_launch m ρ c main_arg4 (by decide), rowCast_eq]
  rfl

include harr0 harr1 in
/-- The second region's output array is the second layer's table. -/
theorem table2 : W4 m ρ c main_v37 = K2 m c := by
  refine (W4_arr m ρ c 5).trans ((harr1 (V3 m ρ) c).trans ?_)
  show layer (W3 m ρ c main_v35) (W3 m ρ c main_v23) (W3 m ρ c main_arg6) (W3 m ρ c main_arg7) (W3 m ρ c main_v36) = _
  rw [show W3 m ρ c main_v35 = _ from host1_v35 (W2 m ρ c), show W3 m ρ c main_v36 = _ from host1_v36 (W2 m ρ c),
    show W3 m ρ c main_v23 = W2 m ρ c main_v23 from W3_of m ρ c main_v23 (by decide),
    W3_launch m ρ c main_arg6 (by decide) (by decide) (by decide), W3_launch m ρ c main_arg7 (by decide) (by decide) (by decide),
    table1 m ρ c harr0,
    show W2 m ρ c main_v1 = _ from (W2_first m ρ c main_v1 (by decide)).trans (src1 m ρ c),
    show W2 m ρ c main_v3 = _ from (W2_first m ρ c main_v3 (by decide)).trans (dst1 m ρ c),
    show W2 m ρ c main_v9 = _ from (W2_first m ρ c main_v9 (by decide)).trans (cnt1 m ρ c),
    show W2 m ρ c main_arg8 = _ from (W2_keep m ρ c main_arg8 (by decide)).trans (W1_launch m ρ c main_arg8 (by decide)), rowCast_eq]
  rfl

include harr0 harr1 harr2 in
/-- The third region's output array is the third layer's table. -/
theorem table3 : W6 m ρ c main_v51 = K3 m c := by
  refine (W6_arr m ρ c 5).trans ((harr2 (V5 m ρ) c).trans ?_)
  show layer (W5 m ρ c main_v49) (W5 m ρ c main_v37) (W5 m ρ c main_arg9) (W5 m ρ c main_arg10) (W5 m ρ c main_v50) = _
  rw [show W5 m ρ c main_v49 = _ from host2_v49 (W4 m ρ c), show W5 m ρ c main_v50 = _ from host2_v50 (W4 m ρ c),
    show W5 m ρ c main_v37 = W4 m ρ c main_v37 from W5_of m ρ c main_v37 (by decide),
    W5_launch m ρ c main_arg9 (by decide) (by decide) (by decide) (by decide) (by decide),
    W5_launch m ρ c main_arg10 (by decide) (by decide) (by decide) (by decide) (by decide),
    table2 m ρ c harr0 harr1,
    show W4 m ρ c main_v1 = _ from (W4_first m ρ c main_v1 (by decide) (by decide) (by decide)).trans (src1 m ρ c),
    show W4 m ρ c main_v3 = _ from (W4_first m ρ c main_v3 (by decide) (by decide) (by decide)).trans (dst1 m ρ c),
    show W4 m ρ c main_v9 = _ from (W4_first m ρ c main_v9 (by decide) (by decide) (by decide)).trans (cnt1 m ρ c),
    show W4 m ρ c main_arg11 = _ from (W4_keep m ρ c main_arg11 (by decide)).trans (W3_launch m ρ c main_arg11 (by decide) (by decide) (by decide)), rowCast_eq]
  rfl

include harr0 harr1 harr2 harr3 in
/-- THE RESULT: the last region's output array is the read-out of the third table. -/
theorem result_value :
    W8 m ρ c main_v54 = out (K3 m c) (colIds (m ((c : Thread nD τ).loc main_arg2))) (m ((c : Thread nD τ).loc main_arg12))
      (oneOf (m ((c : Thread nD τ).loc main_arg13))) := by
  refine (W8_arr m ρ c 4).trans ((harr3 (V7 m ρ) c).trans ?_)
  show out (W7 m ρ c main_v51) (W7 m ρ c main_v52) (W7 m ρ c main_arg12) (W7 m ρ c main_v53) = _
  rw [show W7 m ρ c main_v52 = _ from host3_v52 (W6 m ρ c), show W7 m ρ c main_v53 = _ from host3_v53 (W6 m ρ c),
    show W7 m ρ c main_v51 = W6 m ρ c main_v51 from W7_of m ρ c main_v51 (by decide),
    W7_launch m ρ c main_arg12 (by decide) (by decide) (by decide) (by decide) (by decide) (by decide) (by decide),
    table3 m ρ c harr0 harr1 harr2,
    show W6 m ρ c main_arg2 = _ from (W6_keep m ρ c main_arg2 (by decide)).trans (W5_launch m ρ c main_arg2 (by decide) (by decide) (by decide) (by decide) (by decide)),
    show W6 m ρ c main_arg13 = _ from (W6_keep m ρ c main_arg13 (by decide)).trans (W5_launch m ρ c main_arg13 (by decide) (by decide) (by decide) (by decide) (by decide)),
    colCast_eq, oneCast_eq]

end

end Cert.KernelIdeal.Run

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.SageMath.lean ====
/-
  One layer, block by block, over the extended reals.

  Entry `(p, q)` of the body's term on a block `x` of the means, a block `y` of the table, the two weight matrices
  and the bias row is `max (∑ₖ x (p, k) · Wl (k, q) + ∑ₖ y (p, k) · Wr (k, q) + b (0, q)) 0`: a change of format is
  the identity, a reshape to the same shape is the identity, a product into the zero accumulator is the sum over the
  contracted coordinate, the bias row is repeated down the rows, and the zero word is the number `0`. Read on block
  `t` of the two tables this is entry `(4000 t + p, q)` of the layer, that is, entry `(p, q)` of its block `t`.
-/
import proofs.«405438_j90185723282019_1_alg».proof.Proof.Gen.KernelIdeal.Skeleton
import proofs.«405438_j90185723282019_1_alg».proof.Proof.Spec
import proofs.«405438_j90185723282019_1_alg».proof.Proof.LibRowDims
import Idealize.ShloMosaic.Lib.ValueLayout
import Idealize.ShloMosaic.Lib.Pipeline.Value

noncomputable section

open scoped BigOperators

namespace Cert.KernelIdeal.SageMath
open Idealize.ShloMosaic Idealize.ShloMosaic.ValueIdx Cert.KernelIdeal Cert.KernelIdeal.Gen Cert.Spec

/-- The body's product of a `[4000, 128]` block by a `[128, 128]` matrix into the zero accumulator, entry by entry:
    the sum over the contracted coordinate. -/
theorem blockMatmul_apply (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) :=
  RowDims.matmul_plain_zero_apply none l r p q

/-- Entry `(p, q)` of the first body's term:
    `max (∑ₖ x (p, k) · Wl (k, q) + ∑ₖ y (p, k) · Wr (k, q) + b (0, q)) 0`. -/
theorem pay0_apply (x y : Blk.Idx → EReal) (Wl Wr : Sq.Idx → EReal) (b : Row.Idx → EReal) (p : Fin 4000) (q : Fin 128) :
    k0_pay1 (F := Ideal) x y Wl Wr b (ix2 p q)
      = max (((∑ k : Fin 128, x (ix2 p k) * Wl (ix2 k q)) + ∑ k : Fin 128, y (ix2 p k) * Wr (ix2 k q)) + b (ix2 0 q)) 0 := by
  unfold k0_pay1
  -- the maximum and the two additions are entrywise; the reshapes to the same shape are the identity
  rw [maximumf_apply, addf_apply, addf_apply, broadcast_apply, shapeCast_self, shapeCast_self]
  -- each product is the sum over the contracted coordinate; the bias row is read at its one row
  rw [blockMatmul_apply, blockMatmul_apply, broadcastTo_1b_ab_apply]
  -- a change of format is the identity, and the zero word is the number 0
  simp only [truncf_apply]
  show max _ (Ideal.ofBits .f32 0x00000000#32) = _
  rw [Ideal.ofBits_zero_f32]

/-- The second body's term is the first's: its one more reshape, to the same shape, is the identity. -/
theorem pay1_eq_pay0 (x y : Blk.Idx → EReal) (Wl Wr : Sq.Idx → EReal) (b : Row.Idx → EReal) :
    k1_pay1 (F := Ideal) x y Wl Wr b = k0_pay1 (F := Ideal) x y Wl Wr b := by
  unfold k1_pay1 k0_pay1
  simp only [shapeCast_self]

/-- The third body's term is the first's: its one more reshape, to the same shape, is the identity. -/
theorem pay2_eq_pay0 (x y : Blk.Idx → EReal) (Wl Wr : Sq.Idx → EReal) (b : Row.Idx → EReal) :
    k2_pay1 (F := Ideal) x y Wl Wr b = k0_pay1 (F := Ideal) x y Wl Wr b := by
  unfold k2_pay1 k0_pay1
  simp only [shapeCast_self]

/-- Block t of a layer is the body's arithmetic on block t of the two tables and on the whole weights and bias. -/
theorem pay0_rows (mean h : Nodes.Idx → EReal) (Wl Wr : Sq.Idx → EReal) (b : Row.Idx → EReal) (t : Fin 25) :
    k0_pay1 (F := Ideal) (rowsOf mean t) (rowsOf h t) Wl Wr b = rowsOf (layer mean h Wl Wr b) t := by
  funext y
  obtain ⟨p, q, rfl⟩ : ∃ (p : Fin 4000) (q : Fin 128), y = ix2 p q := ⟨y 0, y 1, eq_ix2 y⟩
  rw [pay0_apply]
  -- entry (p, k) of block t of a table is its entry (4000 t + p, k): the two sides are the same expression
  rfl

/-- Block t of a layer is the second body's arithmetic on block t of the two tables and on the whole weights and bias. -/
theorem pay1_rows (mean h : Nodes.Idx → EReal) (Wl Wr : Sq.Idx → EReal) (b : Row.Idx → EReal) (t : Fin 25) :
    k1_pay1 (F := Ideal) (rowsOf mean t) (rowsOf h t) Wl Wr b = rowsOf (layer mean h Wl Wr b) t :=
  (pay1_eq_pay0 _ _ Wl Wr b).trans (pay0_rows mean h Wl Wr b t)

/-- Block t of a layer is the third body's arithmetic on block t of the two tables and on the whole weights and bias. -/
theorem pay2_rows (mean h : Nodes.Idx → EReal) (Wl Wr : Sq.Idx → EReal) (b : Row.Idx → EReal) (t : Fin 25) :
    k2_pay1 (F := Ideal) (rowsOf mean t) (rowsOf h t) Wl Wr b = rowsOf (layer mean h Wl Wr b) t :=
  (pay2_eq_pay0 _ _ Wl Wr b).trans (pay0_rows mean h Wl Wr b t)

end Cert.KernelIdeal.SageMath

end
-- ==== Proof.SageArr0KI.lean ====
/-
  From blocks to the array: after the first layer's 25 points, the output table is the layer of the tables as the
  region finds them.

  Point t reads block t (rows 4000 t … 4000 t + 3999) of the table of means and of the node table, and the two weight
  matrices and the bias row whole; it writes back the body's arithmetic on them, which is block t of the layer. Row r
  of the output table lies in the block of point r / 4000, so the 25 blocks fill the table, and the table ends
  holding the layer, entry by entry.
-/
import proofs.«405438_j90185723282019_1_alg».proof.Proof.Sage0KI
import proofs.«405438_j90185723282019_1_alg».proof.Proof.SageMath
import proofs.«405438_j90185723282019_1_alg».proof.Proof.Spec
import Idealize.ShloMosaic.Lib.Pipeline.Value

noncomputable section

namespace Cert.KernelIdeal.R0

open Cert.KernelIdeal Cert.KernelIdeal.Gen Idealize.ShloMosaic Idealize.ShloMosaic.TcCoe Idealize.SL.Sem
open Idealize.ShloMosaic.Pipeline (Dat)
open Idealize.ShloMosaic.ValueIdx Cert.Spec

/-- The zero offsets of a rectangle that is its whole shape. -/
theorem zero_off : (![0, 0] : Fin 2 → Nat) = fun _ => 0 := funext fun a => by fin_cases a <;> rfl

/-- The grid has 25 points. -/
theorem points : cfg0.N = 25 := by decide

/-- The block indices, decided over the grid: at point t the two tables and the output are at block (t, 0), the two
    weight matrices and the bias row at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The point as a block number. -/
def blockNo (t : Fin cfg0.N) : Fin 25 := ⟨t.val, points ▸ t.isLt⟩

variable (V : (c : Dev nD) → (b : Ref sig .tc) → Buf (Elt Ideal) ((c : Thread nD τ).loc b))

/-! ## The input blocks at a point

An element of a block sits in its array, on each axis, at the block index times the block's size plus its own
coordinate: row 4000 t + r for the two tables, the same entry for the arrays read whole. -/

/-- The block of the table of means at point t is rows 4000 t … 4000 t + 3999 of it. -/
theorem iblkA_rows (c : Dev nD) (t : Fin cfg0.N) :
    (iblk V c 0 t : Blk.Idx → EReal) = rowsOf (V c (Pipeline.arrRef spec0 0) : Nodes.Idx → EReal) (blockNo t) := by
  obtain ⟨er, ec, -⟩ := index_facts t
  funext y
  unfold iblk
  rw [View.read_apply]
  show (V c (Pipeline.arrRef spec0 0) : Nodes.Idx → EReal) (((cfg0.win 0).blk t).view.emb y) = (V c (Pipeline.arrRef spec0 0) : Nodes.Idx → EReal) _
  congr 1
  funext a
  apply Fin.ext
  match a with
  | ⟨0, _⟩ => show win0_0.index t (0 : Fin 2) * 4000 + 1 * (y 0).val = 4000 * t.val + (y 0).val; rw [er]; omega
  | ⟨1, _⟩ => show win0_0.index t (1 : Fin 2) * 128 + 1 * (y 1).val = (y 1).val; rw [ec]; omega

/-- The block of the node table at point t is rows 4000 t … 4000 t + 3999 of it. -/
theorem iblkB_rows (c : Dev nD) (t : Fin cfg0.N) :
    (iblk V c 1 t : Blk.Idx → EReal) = rowsOf (V c (Pipeline.arrRef spec0 1) : Nodes.Idx → EReal) (blockNo t) := by
  obtain ⟨-, -, er, ec, -⟩ := index_facts t
  funext y
  unfold iblk
  rw [View.read_apply]
  show (V c (Pipeline.arrRef spec0 1) : Nodes.Idx → EReal) (((cfg0.win 1).blk t).view.emb y) = (V c (Pipeline.arrRef spec0 1) : Nodes.Idx → EReal) _
  congr 1
  funext a
  apply Fin.ext
  match a with
  | ⟨0, _⟩ => show win0_1.index t (0 : Fin 2) * 4000 + 1 * (y 0).val = 4000 * t.val + (y 0).val; rw [er]; omega
  | ⟨1, _⟩ => show win0_1.index t (1 : Fin 2) * 128 + 1 * (y 1).val = (y 1).val; rw [ec]; omega

/-- The block of the first weight matrix at every point is the matrix. -/
theorem iblkC_whole (c : Dev nD) (t : Fin cfg0.N) :
    (iblk V c 2 t : Sq.Idx → EReal) = (V c (Pipeline.arrRef spec0 2) : Sq.Idx → EReal) := by
  obtain ⟨-, -, -, -, er, ec, -⟩ := index_facts t
  funext y
  unfold iblk
  rw [View.read_apply]
  show (V c (Pipeline.arrRef spec0 2) : Sq.Idx → EReal) (((cfg0.win 2).blk t).view.emb y) = (V c (Pipeline.arrRef spec0 2) : Sq.Idx → EReal) y
  congr 1
  funext a
  apply Fin.ext
  match a with
  | ⟨0, _⟩ => show win0_2.index t (0 : Fin 2) * 128 + 1 * (y 0).val = (y 0).val; rw [er]; omega
  | ⟨1, _⟩ => show win0_2.index t (1 : Fin 2) * 128 + 1 * (y 1).val = (y 1).val; rw [ec]; omega

/-- The block of the second weight matrix at every point is the matrix. -/
theorem iblkD_whole (c : Dev nD) (t : Fin cfg0.N) :
    (iblk V c 3 t : Sq.Idx → EReal) = (V c (Pipeline.arrRef spec0 3) : Sq.Idx → EReal) := by
  obtain ⟨-, -, -, -, -, -, er, ec, -⟩ := index_facts t
  funext y
  unfold iblk
  rw [View.read_apply]
  show (V c (Pipeline.arrRef spec0 3) : Sq.Idx → EReal) (((cfg0.win 3).blk t).view.emb y) = (V c (Pipeline.arrRef spec0 3) : Sq.Idx → EReal) y
  congr 1
  funext a
  apply Fin.ext
  match a with
  | ⟨0, _⟩ => show win0_3.index t (0 : Fin 2) * 128 + 1 * (y 0).val = (y 0).val; rw [er]; omega
  | ⟨1, _⟩ => show win0_3.index t (1 : Fin 2) * 128 + 1 * (y 1).val = (y 1).val; rw [ec]; omega

/-- The block of the bias row at every point is the row. -/
theorem iblkE_whole (c : Dev nD) (t : Fin cfg0.N) :
    (iblk V c 4 t : Row.Idx → EReal) = (V c (Pipeline.arrRef spec0 4) : Row.Idx → EReal) := by
  obtain ⟨-, -, -, -, -, -, -, -, er, ec, -⟩ := index_facts t
  funext y
  unfold iblk
  rw [View.read_apply]
  show (V c (Pipeline.arrRef spec0 4) : Row.Idx → EReal) (((cfg0.win 4).blk t).view.emb y) = (V c (Pipeline.arrRef spec0 4) : Row.Idx → EReal) y
  congr 1
  funext a
  apply Fin.ext
  match a with
  | ⟨0, _⟩ => show win0_4.index t (0 : Fin 2) * 1 + 1 * (y 0).val = (y 0).val; rw [er]; omega
  | ⟨1, _⟩ => show win0_4.index t (1 : Fin 2) * 128 + 1 * (y 1).val = (y 1).val; rw [ec]; omega

/-! ## What a point writes back -/

/-- A table of 100000 rows read through the output's block at point t: its rows 4000 t … 4000 t + 3999. -/
theorem read_out_blk (G : Nodes.Idx → EReal) (t : Fin cfg0.N) :
    (((cfg0.win 5).blk t).view.read (Elt Ideal) G : Blk.Idx → EReal) = rowsOf G (blockNo t) := by
  obtain ⟨-, -, -, -, -, -, -, -, -, -, er, ec⟩ := index_facts t
  funext y
  rw [View.read_apply]
  show G (((cfg0.win 5).blk t).view.emb y) = G _
  congr 1
  funext a
  apply Fin.ext
  match a with
  | ⟨0, _⟩ => show win0_5.index t (0 : Fin 2) * 4000 + 1 * (y 0).val = 4000 * t.val + (y 0).val; rw [er]; omega
  | ⟨1, _⟩ => show win0_5.index t (1 : Fin 2) * 128 + 1 * (y 1).val = (y 1).val; rw [ec]; omega

/-- The layer of the arrays as the region finds them. -/
abbrev layerArr (c : Dev nD) : Nodes.Idx → EReal :=
  layer (V c (Pipeline.arrRef spec0 0)) (V c (Pipeline.arrRef spec0 1)) (V c (Pipeline.arrRef spec0 2))
    (V c (Pipeline.arrRef spec0 3)) (V c (Pipeline.arrRef spec0 4))

/-- What point t writes back is block t of the layer: the body's arithmetic on block t of the two tables and on the
    whole weights and bias. -/
theorem flushed_out (c : Dev nD) (t : Fin cfg0.N) :
    (dat (F := Ideal) V c).flushed 5 t = ((cfg0.win 5).blk t).view.read (Elt Ideal) (layerArr V c) := by
  show (cfg0.win 5).cut (grid0.coords t) ((dat (F := Ideal) V c).after 5 t) = _
  rw [after_5]
  unfold out5
  rw [View.canon_unit_zero zero_off]
  simp only [View.ld_unit_zero (S := S4000x128) zero_off, View.ld_unit_zero (S := S128x128) zero_off,
    View.ld_unit_zero (S := S1x128) zero_off]
  refine Eq.trans ?_ (read_out_blk (layerArr V c) t).symm
  refine Eq.trans ?_ (SageMath.pay0_rows _ _ _ _ _ (blockNo t))
  show k0_pay1 (F := Ideal) (iblk V c 0 t) (iblk V c 1 t) (iblk V c 2 t) (iblk V c 3 t) (iblk V c 4 t) = _
  rw [iblkA_rows, iblkB_rows, iblkC_whole, iblkD_whole, iblkE_whole]

/-! ## The blocks fill the table -/

/-- An index of the output table is in point t's block iff each coordinate is in the block's range on its axis. -/
theorem mem_out_blk (t : Fin cfg0.N) (i : Nodes.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole (Pipeline.arrRef spec0 5)).slice (win0_5.rect t)).set ↔ _
  rw [View.set_slice_whole, Rect.mem_set_unit]
  exact Iff.rfl

/-- Row r of the output table is in the block of point r / 4000, which writes it back. -/
theorem rows_cover (i : Nodes.Idx) :
    ∃ t : Fin cfg0.N, (cfg0.win 5).flush t = true ∧ i ∈ ((cfg0.win 5).blk t).view.set := by
  have hr : (i 0).val < 100000 := (i 0).isLt
  have hc : (i 1).val < 128 := (i 1).isLt
  have ht : (i 0).val / 4000 < cfg0.N := by rw [points]; omega
  obtain ⟨-, -, -, -, -, -, -, -, -, -, er, ec⟩ := index_facts ⟨(i 0).val / 4000, ht⟩
  refine ⟨⟨(i 0).val / 4000, ht⟩, flush0_5 _, ?_⟩
  rw [mem_out_blk]
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    rw [er]
    show (i 0).val / 4000 * 4000 ≤ (i 0).val ∧ (i 0).val < (i 0).val / 4000 * 4000 + 4000
    omega
  | ⟨1, _⟩ =>
    show win0_5.index ⟨(i 0).val / 4000, ht⟩ (1 : Fin 2) * 128 ≤ (i 1).val
      ∧ (i 1).val < win0_5.index ⟨(i 0).val / 4000, ht⟩ (1 : Fin 2) * 128 + 128
    rw [ec]
    omega

/-! ## The table after the points -/

/-- After the 25 points the output table is the layer of the tables, the weights and the bias as the region finds
    them. -/
theorem arr5 (c : Dev nD) :
    (dat (F := Ideal) V c).arrAt 5 cfg0.N
      = Cert.Spec.layer (V c (Pipeline.arrRef spec0 0)) (V c (Pipeline.arrRef spec0 1)) (V c (Pipeline.arrRef spec0 2))
          (V c (Pipeline.arrRef spec0 3)) (V c (Pipeline.arrRef spec0 4)) :=
  (dat (F := Ideal) V c).arrAt_eq_of_cover 5 (layerArr V c) (fun t _ => flushed_out V c t) rows_cover

end Cert.KernelIdeal.R0

end
-- ==== Proof.SageArr1KI.lean ====
/-
  From blocks to the array: after the first layer's 25 points, the output table is the layer of the tables as the
  region finds them.

  Point t reads block t (rows 4000 t … 4000 t + 3999) of the table of means and of the node table, and the two weight
  matrices and the bias row whole; it writes back the body's arithmetic on them, which is block t of the layer. Row r
  of the output table lies in the block of point r / 4000, so the 25 blocks fill the table, and the table ends
  holding the layer, entry by entry.
-/
import proofs.«405438_j90185723282019_1_alg».proof.Proof.Sage1KI
import proofs.«405438_j90185723282019_1_alg».proof.Proof.SageMath
import proofs.«405438_j90185723282019_1_alg».proof.Proof.Spec
import Idealize.ShloMosaic.Lib.Pipeline.Value

noncomputable section

namespace Cert.KernelIdeal.R1

open Cert.KernelIdeal Cert.KernelIdeal.Gen Idealize.ShloMosaic Idealize.ShloMosaic.TcCoe Idealize.SL.Sem
open Idealize.ShloMosaic.Pipeline (Dat)
open Idealize.ShloMosaic.ValueIdx Cert.Spec

/-- The zero offsets of a rectangle that is its whole shape. -/
theorem zero_off : (![0, 0] : Fin 2 → Nat) = fun _ => 0 := funext fun a => by fin_cases a <;> rfl

/-- The grid has 25 points. -/
theorem points : cfg1.N = 25 := by decide

/-- The block indices, decided over the grid: at point t the two tables and the output are at block (t, 0), the two
    weight matrices and the bias row at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The point as a block number. -/
def blockNo (t : Fin cfg1.N) : Fin 25 := ⟨t.val, points ▸ t.isLt⟩

variable (V : (c : Dev nD) → (b : Ref sig .tc) → Buf (Elt Ideal) ((c : Thread nD τ).loc b))

/-! ## The input blocks at a point

An element of a block sits in its array, on each axis, at the block index times the block's size plus its own
coordinate: row 4000 t + r for the two tables, the same entry for the arrays read whole. -/

/-- The block of the table of means at point t is rows 4000 t … 4000 t + 3999 of it. -/
theorem iblkA_rows (c : Dev nD) (t : Fin cfg1.N) :
    (iblk V c 0 t : Blk.Idx → EReal) = rowsOf (V c (Pipeline.arrRef spec1 0) : Nodes.Idx → EReal) (blockNo t) := by
  obtain ⟨er, ec, -⟩ := index_facts t
  funext y
  unfold iblk
  rw [View.read_apply]
  show (V c (Pipeline.arrRef spec1 0) : Nodes.Idx → EReal) (((cfg1.win 0).blk t).view.emb y) = (V c (Pipeline.arrRef spec1 0) : Nodes.Idx → EReal) _
  congr 1
  funext a
  apply Fin.ext
  match a with
  | ⟨0, _⟩ => show win1_0.index t (0 : Fin 2) * 4000 + 1 * (y 0).val = 4000 * t.val + (y 0).val; rw [er]; omega
  | ⟨1, _⟩ => show win1_0.index t (1 : Fin 2) * 128 + 1 * (y 1).val = (y 1).val; rw [ec]; omega

/-- The block of the node table at point t is rows 4000 t … 4000 t + 3999 of it. -/
theorem iblkB_rows (c : Dev nD) (t : Fin cfg1.N) :
    (iblk V c 1 t : Blk.Idx → EReal) = rowsOf (V c (Pipeline.arrRef spec1 1) : Nodes.Idx → EReal) (blockNo t) := by
  obtain ⟨-, -, er, ec, -⟩ := index_facts t
  funext y
  unfold iblk
  rw [View.read_apply]
  show (V c (Pipeline.arrRef spec1 1) : Nodes.Idx → EReal) (((cfg1.win 1).blk t).view.emb y) = (V c (Pipeline.arrRef spec1 1) : Nodes.Idx → EReal) _
  congr 1
  funext a
  apply Fin.ext
  match a with
  | ⟨0, _⟩ => show win1_1.index t (0 : Fin 2) * 4000 + 1 * (y 0).val = 4000 * t.val + (y 0).val; rw [er]; omega
  | ⟨1, _⟩ => show win1_1.index t (1 : Fin 2) * 128 + 1 * (y 1).val = (y 1).val; rw [ec]; omega

/-- The block of the first weight matrix at every point is the matrix. -/
theorem iblkC_whole (c : Dev nD) (t : Fin cfg1.N) :
    (iblk V c 2 t : Sq.Idx → EReal) = (V c (Pipeline.arrRef spec1 2) : Sq.Idx → EReal) := by
  obtain ⟨-, -, -, -, er, ec, -⟩ := index_facts t
  funext y
  unfold iblk
  rw [View.read_apply]
  show (V c (Pipeline.arrRef spec1 2) : Sq.Idx → EReal) (((cfg1.win 2).blk t).view.emb y) = (V c (Pipeline.arrRef spec1 2) : Sq.Idx → EReal) y
  congr 1
  funext a
  apply Fin.ext
  match a with
  | ⟨0, _⟩ => show win1_2.index t (0 : Fin 2) * 128 + 1 * (y 0).val = (y 0).val; rw [er]; omega
  | ⟨1, _⟩ => show win1_2.index t (1 : Fin 2) * 128 + 1 * (y 1).val = (y 1).val; rw [ec]; omega

/-- The block of the second weight matrix at every point is the matrix. -/
theorem iblkD_whole (c : Dev nD) (t : Fin cfg1.N) :
    (iblk V c 3 t : Sq.Idx → EReal) = (V c (Pipeline.arrRef spec1 3) : Sq.Idx → EReal) := by
  obtain ⟨-, -, -, -, -, -, er, ec, -⟩ := index_facts t
  funext y
  unfold iblk
  rw [View.read_apply]
  show (V c (Pipeline.arrRef spec1 3) : Sq.Idx → EReal) (((cfg1.win 3).blk t).view.emb y) = (V c (Pipeline.arrRef spec1 3) : Sq.Idx → EReal) y
  congr 1
  funext a
  apply Fin.ext
  match a with
  | ⟨0, _⟩ => show win1_3.index t (0 : Fin 2) * 128 + 1 * (y 0).val = (y 0).val; rw [er]; omega
  | ⟨1, _⟩ => show win1_3.index t (1 : Fin 2) * 128 + 1 * (y 1).val = (y 1).val; rw [ec]; omega

/-- The block of the bias row at every point is the row. -/
theorem iblkE_whole (c : Dev nD) (t : Fin cfg1.N) :
    (iblk V c 4 t : Row.Idx → EReal) = (V c (Pipeline.arrRef spec1 4) : Row.Idx → EReal) := by
  obtain ⟨-, -, -, -, -, -, -, -, er, ec, -⟩ := index_facts t
  funext y
  unfold iblk
  rw [View.read_apply]
  show (V c (Pipeline.arrRef spec1 4) : Row.Idx → EReal) (((cfg1.win 4).blk t).view.emb y) = (V c (Pipeline.arrRef spec1 4) : Row.Idx → EReal) y
  congr 1
  funext a
  apply Fin.ext
  match a with
  | ⟨0, _⟩ => show win1_4.index t (0 : Fin 2) * 1 + 1 * (y 0).val = (y 0).val; rw [er]; omega
  | ⟨1, _⟩ => show win1_4.index t (1 : Fin 2) * 128 + 1 * (y 1).val = (y 1).val; rw [ec]; omega

/-! ## What a point writes back -/

/-- A table of 100000 rows read through the output's block at point t: its rows 4000 t … 4000 t + 3999. -/
theorem read_out_blk (G : Nodes.Idx → EReal) (t : Fin cfg1.N) :
    (((cfg1.win 5).blk t).view.read (Elt Ideal) G : Blk.Idx → EReal) = rowsOf G (blockNo t) := by
  obtain ⟨-, -, -, -, -, -, -, -, -, -, er, ec⟩ := index_facts t
  funext y
  rw [View.read_apply]
  show G (((cfg1.win 5).blk t).view.emb y) = G _
  congr 1
  funext a
  apply Fin.ext
  match a with
  | ⟨0, _⟩ => show win1_5.index t (0 : Fin 2) * 4000 + 1 * (y 0).val = 4000 * t.val + (y 0).val; rw [er]; omega
  | ⟨1, _⟩ => show win1_5.index t (1 : Fin 2) * 128 + 1 * (y 1).val = (y 1).val; rw [ec]; omega

/-- The layer of the arrays as the region finds them. -/
abbrev layerArr (c : Dev nD) : Nodes.Idx → EReal :=
  layer (V c (Pipeline.arrRef spec1 0)) (V c (Pipeline.arrRef spec1 1)) (V c (Pipeline.arrRef spec1 2))
    (V c (Pipeline.arrRef spec1 3)) (V c (Pipeline.arrRef spec1 4))

/-- What point t writes back is block t of the layer: the body's arithmetic on block t of the two tables and on the
    whole weights and bias. -/
theorem flushed_out (c : Dev nD) (t : Fin cfg1.N) :
    (dat (F := Ideal) V c).flushed 5 t = ((cfg1.win 5).blk t).view.read (Elt Ideal) (layerArr V c) := by
  show (cfg1.win 5).cut (grid1.coords t) ((dat (F := Ideal) V c).after 5 t) = _
  rw [after_5]
  unfold out5
  rw [View.canon_unit_zero zero_off]
  simp only [View.ld_unit_zero (S := S4000x128) zero_off, View.ld_unit_zero (S := S128x128) zero_off,
    View.ld_unit_zero (S := S1x128) zero_off]
  refine Eq.trans ?_ (read_out_blk (layerArr V c) t).symm
  refine Eq.trans ?_ (SageMath.pay1_rows _ _ _ _ _ (blockNo t))
  show k1_pay1 (F := Ideal) (iblk V c 0 t) (iblk V c 1 t) (iblk V c 2 t) (iblk V c 3 t) (iblk V c 4 t) = _
  rw [iblkA_rows, iblkB_rows, iblkC_whole, iblkD_whole, iblkE_whole]

/-! ## The blocks fill the table -/

/-- An index of the output table is in point t's block iff each coordinate is in the block's range on its axis. -/
theorem mem_out_blk (t : Fin cfg1.N) (i : Nodes.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole (Pipeline.arrRef spec1 5)).slice (win1_5.rect t)).set ↔ _
  rw [View.set_slice_whole, Rect.mem_set_unit]
  exact Iff.rfl

/-- Row r of the output table is in the block of point r / 4000, which writes it back. -/
theorem rows_cover (i : Nodes.Idx) :
    ∃ t : Fin cfg1.N, (cfg1.win 5).flush t = true ∧ i ∈ ((cfg1.win 5).blk t).view.set := by
  have hr : (i 0).val < 100000 := (i 0).isLt
  have hc : (i 1).val < 128 := (i 1).isLt
  have ht : (i 0).val / 4000 < cfg1.N := by rw [points]; omega
  obtain ⟨-, -, -, -, -, -, -, -, -, -, er, ec⟩ := index_facts ⟨(i 0).val / 4000, ht⟩
  refine ⟨⟨(i 0).val / 4000, ht⟩, flush1_5 _, ?_⟩
  rw [mem_out_blk]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [er]
    show (i 0).val / 4000 * 4000 ≤ (i 0).val ∧ (i 0).val < (i 0).val / 4000 * 4000 + 4000
    omega
  | ⟨1, _⟩ =>
    show win1_5.index ⟨(i 0).val / 4000, ht⟩ (1 : Fin 2) * 128 ≤ (i 1).val
      ∧ (i 1).val < win1_5.index ⟨(i 0).val / 4000, ht⟩ (1 : Fin 2) * 128 + 128
    rw [ec]
    omega

/-! ## The table after the points -/

/-- After the 25 points the output table is the layer of the tables, the weights and the bias as the region finds
    them. -/
theorem arr5 (c : Dev nD) :
    (dat (F := Ideal) V c).arrAt 5 cfg1.N
      = Cert.Spec.layer (V c (Pipeline.arrRef spec1 0)) (V c (Pipeline.arrRef spec1 1)) (V c (Pipeline.arrRef spec1 2))
          (V c (Pipeline.arrRef spec1 3)) (V c (Pipeline.arrRef spec1 4)) :=
  (dat (F := Ideal) V c).arrAt_eq_of_cover 5 (layerArr V c) (fun t _ => flushed_out V c t) rows_cover

end Cert.KernelIdeal.R1

end
-- ==== Proof.SageArr2KI.lean ====
/-
  From blocks to the array: after the first layer's 25 points, the output table is the layer of the tables as the
  region finds them.

  Point t reads block t (rows 4000 t … 4000 t + 3999) of the table of means and of the node table, and the two weight
  matrices and the bias row whole; it writes back the body's arithmetic on them, which is block t of the layer. Row r
  of the output table lies in the block of point r / 4000, so the 25 blocks fill the table, and the table ends
  holding the layer, entry by entry.
-/
import proofs.«405438_j90185723282019_1_alg».proof.Proof.Sage2KI
import proofs.«405438_j90185723282019_1_alg».proof.Proof.SageMath
import proofs.«405438_j90185723282019_1_alg».proof.Proof.Spec
import Idealize.ShloMosaic.Lib.Pipeline.Value

noncomputable section

namespace Cert.KernelIdeal.R2

open Cert.KernelIdeal Cert.KernelIdeal.Gen Idealize.ShloMosaic Idealize.ShloMosaic.TcCoe Idealize.SL.Sem
open Idealize.ShloMosaic.Pipeline (Dat)
open Idealize.ShloMosaic.ValueIdx Cert.Spec

/-- The zero offsets of a rectangle that is its whole shape. -/
theorem zero_off : (![0, 0] : Fin 2 → Nat) = fun _ => 0 := funext fun a => by fin_cases a <;> rfl

/-- The grid has 25 points. -/
theorem points : cfg2.N = 25 := by decide

/-- The block indices, decided over the grid: at point t the two tables and the output are at block (t, 0), the two
    weight matrices and the bias row at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The point as a block number. -/
def blockNo (t : Fin cfg2.N) : Fin 25 := ⟨t.val, points ▸ t.isLt⟩

variable (V : (c : Dev nD) → (b : Ref sig .tc) → Buf (Elt Ideal) ((c : Thread nD τ).loc b))

/-! ## The input blocks at a point

An element of a block sits in its array, on each axis, at the block index times the block's size plus its own
coordinate: row 4000 t + r for the two tables, the same entry for the arrays read whole. -/

/-- The block of the table of means at point t is rows 4000 t … 4000 t + 3999 of it. -/
theorem iblkA_rows (c : Dev nD) (t : Fin cfg2.N) :
    (iblk V c 0 t : Blk.Idx → EReal) = rowsOf (V c (Pipeline.arrRef spec2 0) : Nodes.Idx → EReal) (blockNo t) := by
  obtain ⟨er, ec, -⟩ := index_facts t
  funext y
  unfold iblk
  rw [View.read_apply]
  show (V c (Pipeline.arrRef spec2 0) : Nodes.Idx → EReal) (((cfg2.win 0).blk t).view.emb y) = (V c (Pipeline.arrRef spec2 0) : Nodes.Idx → EReal) _
  congr 1
  funext a
  apply Fin.ext
  match a with
  | ⟨0, _⟩ => show win2_0.index t (0 : Fin 2) * 4000 + 1 * (y 0).val = 4000 * t.val + (y 0).val; rw [er]; omega
  | ⟨1, _⟩ => show win2_0.index t (1 : Fin 2) * 128 + 1 * (y 1).val = (y 1).val; rw [ec]; omega

/-- The block of the node table at point t is rows 4000 t … 4000 t + 3999 of it. -/
theorem iblkB_rows (c : Dev nD) (t : Fin cfg2.N) :
    (iblk V c 1 t : Blk.Idx → EReal) = rowsOf (V c (Pipeline.arrRef spec2 1) : Nodes.Idx → EReal) (blockNo t) := by
  obtain ⟨-, -, er, ec, -⟩ := index_facts t
  funext y
  unfold iblk
  rw [View.read_apply]
  show (V c (Pipeline.arrRef spec2 1) : Nodes.Idx → EReal) (((cfg2.win 1).blk t).view.emb y) = (V c (Pipeline.arrRef spec2 1) : Nodes.Idx → EReal) _
  congr 1
  funext a
  apply Fin.ext
  match a with
  | ⟨0, _⟩ => show win2_1.index t (0 : Fin 2) * 4000 + 1 * (y 0).val = 4000 * t.val + (y 0).val; rw [er]; omega
  | ⟨1, _⟩ => show win2_1.index t (1 : Fin 2) * 128 + 1 * (y 1).val = (y 1).val; rw [ec]; omega

/-- The block of the first weight matrix at every point is the matrix. -/
theorem iblkC_whole (c : Dev nD) (t : Fin cfg2.N) :
    (iblk V c 2 t : Sq.Idx → EReal) = (V c (Pipeline.arrRef spec2 2) : Sq.Idx → EReal) := by
  obtain ⟨-, -, -, -, er, ec, -⟩ := index_facts t
  funext y
  unfold iblk
  rw [View.read_apply]
  show (V c (Pipeline.arrRef spec2 2) : Sq.Idx → EReal) (((cfg2.win 2).blk t).view.emb y) = (V c (Pipeline.arrRef spec2 2) : Sq.Idx → EReal) y
  congr 1
  funext a
  apply Fin.ext
  match a with
  | ⟨0, _⟩ => show win2_2.index t (0 : Fin 2) * 128 + 1 * (y 0).val = (y 0).val; rw [er]; omega
  | ⟨1, _⟩ => show win2_2.index t (1 : Fin 2) * 128 + 1 * (y 1).val = (y 1).val; rw [ec]; omega

/-- The block of the second weight matrix at every point is the matrix. -/
theorem iblkD_whole (c : Dev nD) (t : Fin cfg2.N) :
    (iblk V c 3 t : Sq.Idx → EReal) = (V c (Pipeline.arrRef spec2 3) : Sq.Idx → EReal) := by
  obtain ⟨-, -, -, -, -, -, er, ec, -⟩ := index_facts t
  funext y
  unfold iblk
  rw [View.read_apply]
  show (V c (Pipeline.arrRef spec2 3) : Sq.Idx → EReal) (((cfg2.win 3).blk t).view.emb y) = (V c (Pipeline.arrRef spec2 3) : Sq.Idx → EReal) y
  congr 1
  funext a
  apply Fin.ext
  match a with
  | ⟨0, _⟩ => show win2_3.index t (0 : Fin 2) * 128 + 1 * (y 0).val = (y 0).val; rw [er]; omega
  | ⟨1, _⟩ => show win2_3.index t (1 : Fin 2) * 128 + 1 * (y 1).val = (y 1).val; rw [ec]; omega

/-- The block of the bias row at every point is the row. -/
theorem iblkE_whole (c : Dev nD) (t : Fin cfg2.N) :
    (iblk V c 4 t : Row.Idx → EReal) = (V c (Pipeline.arrRef spec2 4) : Row.Idx → EReal) := by
  obtain ⟨-, -, -, -, -, -, -, -, er, ec, -⟩ := index_facts t
  funext y
  unfold iblk
  rw [View.read_apply]
  show (V c (Pipeline.arrRef spec2 4) : Row.Idx → EReal) (((cfg2.win 4).blk t).view.emb y) = (V c (Pipeline.arrRef spec2 4) : Row.Idx → EReal) y
  congr 1
  funext a
  apply Fin.ext
  match a with
  | ⟨0, _⟩ => show win2_4.index t (0 : Fin 2) * 1 + 1 * (y 0).val = (y 0).val; rw [er]; omega
  | ⟨1, _⟩ => show win2_4.index t (1 : Fin 2) * 128 + 1 * (y 1).val = (y 1).val; rw [ec]; omega

/-! ## What a point writes back -/

/-- A table of 100000 rows read through the output's block at point t: its rows 4000 t … 4000 t + 3999. -/
theorem read_out_blk (G : Nodes.Idx → EReal) (t : Fin cfg2.N) :
    (((cfg2.win 5).blk t).view.read (Elt Ideal) G : Blk.Idx → EReal) = rowsOf G (blockNo t) := by
  obtain ⟨-, -, -, -, -, -, -, -, -, -, er, ec⟩ := index_facts t
  funext y
  rw [View.read_apply]
  show G (((cfg2.win 5).blk t).view.emb y) = G _
  congr 1
  funext a
  apply Fin.ext
  match a with
  | ⟨0, _⟩ => show win2_5.index t (0 : Fin 2) * 4000 + 1 * (y 0).val = 4000 * t.val + (y 0).val; rw [er]; omega
  | ⟨1, _⟩ => show win2_5.index t (1 : Fin 2) * 128 + 1 * (y 1).val = (y 1).val; rw [ec]; omega

/-- The layer of the arrays as the region finds them. -/
abbrev layerArr (c : Dev nD) : Nodes.Idx → EReal :=
  layer (V c (Pipeline.arrRef spec2 0)) (V c (Pipeline.arrRef spec2 1)) (V c (Pipeline.arrRef spec2 2))
    (V c (Pipeline.arrRef spec2 3)) (V c (Pipeline.arrRef spec2 4))

/-- What point t writes back is block t of the layer: the body's arithmetic on block t of the two tables and on the
    whole weights and bias. -/
theorem flushed_out (c : Dev nD) (t : Fin cfg2.N) :
    (dat (F := Ideal) V c).flushed 5 t = ((cfg2.win 5).blk t).view.read (Elt Ideal) (layerArr V c) := by
  show (cfg2.win 5).cut (grid2.coords t) ((dat (F := Ideal) V c).after 5 t) = _
  rw [after_5]
  unfold out5
  rw [View.canon_unit_zero zero_off]
  simp only [View.ld_unit_zero (S := S4000x128) zero_off, View.ld_unit_zero (S := S128x128) zero_off,
    View.ld_unit_zero (S := S1x128) zero_off]
  refine Eq.trans ?_ (read_out_blk (layerArr V c) t).symm
  refine Eq.trans ?_ (SageMath.pay2_rows _ _ _ _ _ (blockNo t))
  show k2_pay1 (F := Ideal) (iblk V c 0 t) (iblk V c 1 t) (iblk V c 2 t) (iblk V c 3 t) (iblk V c 4 t) = _
  rw [iblkA_rows, iblkB_rows, iblkC_whole, iblkD_whole, iblkE_whole]

/-! ## The blocks fill the table -/

/-- An index of the output table is in point t's block iff each coordinate is in the block's range on its axis. -/
theorem mem_out_blk (t : Fin cfg2.N) (i : Nodes.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole (Pipeline.arrRef spec2 5)).slice (win2_5.rect t)).set ↔ _
  rw [View.set_slice_whole, Rect.mem_set_unit]
  exact Iff.rfl

/-- Row r of the output table is in the block of point r / 4000, which writes it back. -/
theorem rows_cover (i : Nodes.Idx) :
    ∃ t : Fin cfg2.N, (cfg2.win 5).flush t = true ∧ i ∈ ((cfg2.win 5).blk t).view.set := by
  have hr : (i 0).val < 100000 := (i 0).isLt
  have hc : (i 1).val < 128 := (i 1).isLt
  have ht : (i 0).val / 4000 < cfg2.N := by rw [points]; omega
  obtain ⟨-, -, -, -, -, -, -, -, -, -, er, ec⟩ := index_facts ⟨(i 0).val / 4000, ht⟩
  refine ⟨⟨(i 0).val / 4000, ht⟩, flush2_5 _, ?_⟩
  rw [mem_out_blk]
  intro a
  match a with
  | ⟨0, _⟩ =>
    show win2_5.index ⟨(i 0).val / 4000, ht⟩ (0 : Fin 2) * 4000 ≤ (i 0).val
      ∧ (i 0).val < win2_5.index ⟨(i 0).val / 4000, ht⟩ (0 : Fin 2) * 4000 + 4000
    rw [er]
    show (i 0).val / 4000 * 4000 ≤ (i 0).val ∧ (i 0).val < (i 0).val / 4000 * 4000 + 4000
    omega
  | ⟨1, _⟩ =>
    show win2_5.index ⟨(i 0).val / 4000, ht⟩ (1 : Fin 2) * 128 ≤ (i 1).val
      ∧ (i 1).val < win2_5.index ⟨(i 0).val / 4000, ht⟩ (1 : Fin 2) * 128 + 128
    rw [ec]
    omega

/-! ## The table after the points -/

/-- After the 25 points the output table is the layer of the tables, the weights and the bias as the region finds
    them. -/
theorem arr5 (c : Dev nD) :
    (dat (F := Ideal) V c).arrAt 5 cfg2.N
      = Cert.Spec.layer (V c (Pipeline.arrRef spec2 0)) (V c (Pipeline.arrRef spec2 1)) (V c (Pipeline.arrRef spec2 2))
          (V c (Pipeline.arrRef spec2 3)) (V c (Pipeline.arrRef spec2 4)) :=
  (dat (F := Ideal) V c).arrAt_eq_of_cover 5 (layerArr V c) (fun t _ => flushed_out V c t) rows_cover

end Cert.KernelIdeal.R2

end
-- ==== Proof.Pool3KIPieces.lean ====
/- Region 3, the pooling kernel: the pieces its three cases leave, read back as the kernel's payloads.
   The scratch after the first point is one accumulation step over the zero block; after any later point one step
   over what the point before left; the output after the last point is the projection of that point's scratch. -/
import proofs.«405438_j90185723282019_1_alg».proof.Proof.Pool3KI
import Idealize.ShloMosaic.Lib.Pipeline.Value
set_option maxRecDepth 16384
noncomputable section
namespace Cert.KernelIdeal.R3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 3 (the pooling kernel): what the found pieces are

Each case's run leaves whole-block pieces; read back, they are the kernel's payloads at the point's input blocks:
the scratch after the first point is the accumulation step applied to the zero block, after any later point the
step applied to what the point before left, and the output after the last point is the projection of the scratch
that point leaves. Generic in the float family. -/

/-- The zero offsets of a whole-block rectangle of rank two, as a constant function. -/
theorem hz3 : (![0, 0] : Fin 2 → Nat) = fun _ => 0 := funext fun a => by fin_cases a <;> rfl

/-- First point: the later of the two whole-block stores determines the scratch; its payload is the accumulation step
    at the two moving input blocks over what the earlier store (the zero block) left. -/
theorem sout3_A_0_eq (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : cond3_0 i) (hc1 : ¬cond3_1 i) (x0 : Vec F S4000x128 .f32) (x1 : Vec F S4000x1 .i32) (x2 : Vec F S128x1 .f32) (x3 : Vec F S1x1 .f32) :
    sout3_A_0 c i arg1 harg1 arg2 harg2 arg3 harg3 arg4 harg4 arg5 harg5 arg6 harg6 hc0 hc1 x0 x1 x2 x3 = k3_pay2 x1 x0 (k3_pay1 (F := F)) := by
  unfold sout3_A_0
  rw [View.read_writes_eq_canon _ _ _ (scover3_A_0 c i arg1 harg1 arg2 harg2 arg3 harg3 arg4 harg4 arg5 harg5 arg6 harg6 hc0 hc1 x0 x1 x2 x3)]
  unfold kernelRun3_A
  dsimp only
  sl_unfold_words
  rw [View.canon_cons_unit_zero (S := S512x128) hz3, View.readCov_unit_zero (S := S512x128) _ hz3]
  simp only [View.readAt_eq_ld, harg1.read_unread, harg2.read_unread, View.ld_unit_zero (S := S4000x1) hz3, View.ld_unit_zero (S := S4000x128) hz3]

/-- Middle point: one whole-block store; its payload is the accumulation step over the scratch as found. -/
theorem sout3_B_0_eq (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : ¬cond3_1 i) (x0 : Vec F S4000x128 .f32) (x1 : Vec F S4000x1 .i32) (x2 : Vec F S128x1 .f32) (x3 : Vec F S1x1 .f32) (xs0 : Vec F S512x128 .f32) :
    sout3_B_0 c i arg1 harg1 arg2 harg2 arg3 harg3 arg4 harg4 arg5 harg5 arg6 harg6 hc0 hc1 x0 x1 x2 x3 xs0 = k3_pay2 x1 x0 xs0 := by
  unfold sout3_B_0
  rw [View.read_writes_eq_canon _ _ _ (scover3_B_0 c i arg1 harg1 arg2 harg2 arg3 harg3 arg4 harg4 arg5 harg5 arg6 harg6 hc0 hc1 x0 x1 x2 x3 xs0)]
  unfold kernelRun3_B
  dsimp only
  sl_unfold_words
  rw [View.canon_unit_zero (S := S512x128) hz3]
  simp only [View.readAt_eq_ld, harg1.read_unread, harg2.read_unread, harg6.read_unread, View.ld_unit_zero (S := S4000x1) hz3, View.ld_unit_zero (S := S4000x128) hz3, View.ld_unit_zero (S := S512x128) hz3]

/-- Last point, the scratch: as at a middle point. -/
theorem sout3_C_0_eq (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i) (x0 : Vec F S4000x128 .f32) (x1 : Vec F S4000x1 .i32) (x2 : Vec F S128x1 .f32) (x3 : Vec F S1x1 .f32) (xs0 : Vec F S512x128 .f32) :
    sout3_C_0 c i arg1 harg1 arg2 harg2 arg3 harg3 arg4 harg4 arg5 harg5 arg6 harg6 hc0 hc1 x0 x1 x2 x3 xs0 = k3_pay2 x1 x0 xs0 := by
  unfold sout3_C_0
  rw [View.read_writes_eq_canon _ _ _ (scover3_C_0 c i arg1 harg1 arg2 harg2 arg3 harg3 arg4 harg4 arg5 harg5 arg6 harg6 hc0 hc1 x0 x1 x2 x3 xs0)]
  unfold kernelRun3_C
  dsimp only
  sl_unfold_words
  rw [View.canon_unit_zero (S := S512x128) hz3]
  simp only [View.readAt_eq_ld, harg1.read_unread, harg2.read_unread, harg6.read_unread, View.ld_unit_zero (S := S4000x1) hz3, View.ld_unit_zero (S := S4000x128) hz3, View.ld_unit_zero (S := S512x128) hz3]

/-- Last point, the output: one whole-block store of the projection of the scratch just written (read back from
    its one piece), at the two constant input blocks. -/
theorem out3_C_4_eq (c : Dev nD) (i : grid3.Coords) (arg1 : Memref sig .tc .vmem S4000x128 .f32) (harg1 : arg1.IsWhole) (arg2 : Memref sig .tc .vmem S4000x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S512x128 .f32) (harg6 : arg6.IsWhole) (hc0 : ¬cond3_0 i) (hc1 : cond3_1 i) (x0 : Vec F S4000x128 .f32) (x1 : Vec F S4000x1 .i32) (x2 : Vec F S128x1 .f32) (x3 : Vec F S1x1 .f32) (xs0 : Vec F S512x128 .f32) :
    out3_C_4 c i arg1 harg1 arg2 harg2 arg3 harg3 arg4 harg4 arg5 harg5 arg6 harg6 hc0 hc1 x0 x1 x2 x3 xs0 = k3_pay3 (k3_pay2 x1 x0 xs0) x2 x3 := by
  unfold out3_C_4
  rw [View.read_writes_eq_canon _ _ _ (cover3_C_4 c i arg1 harg1 arg2 harg2 arg3 harg3 arg4 harg4 arg5 harg5 arg6 harg6 hc0 hc1 x0 x1 x2 x3 xs0)]
  unfold kernelRun3_C
  dsimp only
  sl_unfold_words
  rw [View.canon_unit_zero (S := S512x1) hz3, View.readCov_unit_zero (S := S512x128) _ hz3]
  simp only [View.readAt_eq_ld, harg1.read_unread, harg2.read_unread, harg3.read_unread, harg4.read_unread, harg6.read_unread, View.ld_unit_zero (S := S4000x1) hz3, View.ld_unit_zero (S := S4000x128) hz3, View.ld_unit_zero (S := S512x128) hz3, View.ld_unit_zero (S := S128x1) hz3, View.ld_unit_zero (S := S1x1) hz3]

/-- The scratch after the first point: one accumulation step over the zero block. -/
theorem sc_zero (c : Dev nD) (h0 : 0 < cfg3.N) :
    (outsAt V c 0 h0).2 = k3_pay2 (iblk V c 1 ⟨0, h0⟩) (iblk V c 0 ⟨0, h0⟩) (k3_pay1 (F := F)) := by
  rw [outsAt]; dsimp only
  exact sout3_A_0_eq c (grid3.coords ⟨0, h0⟩) (ms3_0 ⟨0, h0⟩) (hs3_0 ⟨0, h0⟩) (ms3_1 ⟨0, h0⟩) (hs3_1 ⟨0, h0⟩) (ms3_2 ⟨0, h0⟩) (hs3_2 ⟨0, h0⟩) (ms3_3 ⟨0, h0⟩) (hs3_3 ⟨0, h0⟩) (ms3_4 ⟨0, h0⟩) (hs3_4 ⟨0, h0⟩) scM3_0 (Memref.isWhole_whole _) (cond3_0_zero h0) (ncond3_1_zero h0) (iblk V c 0 ⟨0, h0⟩) (iblk V c 1 ⟨0, h0⟩) (iblk V c 2 ⟨0, h0⟩) (iblk V c 3 ⟨0, h0⟩)

/-- The scratch after a later point: one accumulation step over what the point before left — whether the point is
    the last (where the output is stored as well) or a middle one. -/
theorem sc_succ (c : Dev nD) (n : ℕ) (hn : n + 1 < cfg3.N) :
    (outsAt V c (n + 1) hn).2 = k3_pay2 (iblk V c 1 ⟨n + 1, hn⟩) (iblk V c 0 ⟨n + 1, hn⟩) (outsAt V c n (Nat.lt_of_succ_lt hn)).2 := by
  by_cases h1 : (n + 1) % 25 = 24
  · rw [outsAt, dif_pos h1]; dsimp only
    exact sout3_C_0_eq c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2
  · rw [outsAt, dif_neg h1]; dsimp only
    exact sout3_B_0_eq c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) (fun h => h1 ((hcond3_1 ⟨n + 1, hn⟩).mp h)) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2

/-- The output after a point where the second conditional is taken: the projection of the scratch that point leaves. -/
theorem out_at_last (c : Dev nD) (n : ℕ) (hn : n + 1 < cfg3.N) (h1 : (n + 1) % 25 = 24) :
    (outsAt V c (n + 1) hn).1 = k3_pay3 (outsAt V c (n + 1) hn).2 (iblk V c 2 ⟨n + 1, hn⟩) (iblk V c 3 ⟨n + 1, hn⟩) := by
  rw [outsAt, dif_pos h1]; dsimp only
  exact (out3_C_4_eq c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2).trans
    (congrArg (fun z => k3_pay3 z (iblk V c 2 ⟨n + 1, hn⟩) (iblk V c 3 ⟨n + 1, hn⟩))
      (sout3_C_0_eq c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (ncond3_0_succ n hn) ((hcond3_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2).symm)

/-- At the last of the 25 points. -/
theorem out_last (c : Dev nD) (h : 24 < cfg3.N) :
    (outsAt V c 24 h).1 = k3_pay3 (outsAt V c 24 h).2 (iblk V c 2 ⟨24, h⟩) (iblk V c 3 ⟨24, h⟩) :=
  out_at_last V c 23 h (by decide)

end Cert.KernelIdeal.R3
end
-- ==== Proof.PoolMath.lean ====
/-
  The pooling and read-out arithmetic at the ideal values, entry by entry.

  A block of 4000 rows adds to the accumulator the product of the transposed one-hot matrix of the block's graph ids
  with the block's rows: at the entry `(g, d)` the sum, over the rows of the block whose id is the word `g`, of the
  row's entry in column `d`. Twenty-five blocks, added one after the other from zero, give the sum over all 100000
  rows: the per-graph sums of the specification. The read-out of the accumulator is then the logistic of its product
  with the weight column plus the bias: the specification's value of each graph.
-/
import proofs.«405438_j90185723282019_1_alg».proof.Proof.Gen.KernelIdeal.Skeleton
import proofs.«405438_j90185723282019_1_alg».proof.Proof.Spec
import proofs.«405438_j90185723282019_1_alg».proof.Proof.LibRowDims
import Idealize.ShloMosaic.Lib.Pipeline.Value

noncomputable section

open scoped BigOperators

namespace Cert.KernelIdeal.PoolMath
open Idealize.ShloMosaic Idealize.ShloMosaic.ValueIdx Cert.KernelIdeal Cert.KernelIdeal.Gen Cert.Spec

/-! ## The product that contracts the row axis of both operands -/

/-- The dimension numbers of `[4000, 512]ᵀ × [4000, 128]`: both operands contracted on their axis 0. -/
abbrev DT := dot_S4000x512_S4000x128_S512x128_0_0_1_1_n_n

/-- The left operand's column coordinate is the output's row, whatever the contraction position. -/
theorem tl_lhs_col (g : Fin 512) (d : Fin 128) (k : DT.contr.Idx) :
    (DT.lhsIdx (ix2 g d) k 1).val = g.val := rfl

/-- The right operand's column coordinate is the output's column, whatever the contraction position. -/
theorem tl_rhs_col (g : Fin 512) (d : Fin 128) (k : DT.contr.Idx) :
    (DT.rhsIdx (ix2 g d) k 1).val = d.val := rfl

/-- The contraction sum at the output entry `(g, d)` runs over the 4000 products `lhs (r, g) · rhs (r, d)`. -/
theorem tl_sum (lhs : S4000x512.Idx → EReal) (rhs : S4000x128.Idx → EReal) (g : Fin 512) (d : Fin 128) :
    ∑ k : DT.contr.Idx, lhs (DT.lhsIdx (ix2 g d) k) * rhs (DT.rhsIdx (ix2 g d) k)
      = ∑ r : Fin 4000, lhs (ix2 r g) * rhs (ix2 r d) := by
  -- re-index the sum by the one contracted coordinate
  rw [← Equiv.sum_comp (contrEquiv1 DT 4000 rfl rfl).symm]
  refine Finset.sum_congr rfl fun r _ => ?_
  -- the left operand is read at (r, g): its row the contracted coordinate, its column the output's row
  have hl : DT.lhsIdx (ix2 g d) ((contrEquiv1 DT 4000 rfl rfl).symm r) = ix2 r g := by
    funext a
    refine Fin.ext ?_
    match a with
    | ⟨0, _⟩ =>
      exact (DT.lhsIdx_val_of_single (cl := 0) rfl _ _).trans (contrEquiv1_symm_val DT 4000 rfl rfl r)
    | ⟨1, _⟩ => exact tl_lhs_col g d _
  -- the right operand is read at (r, d): its row the contracted coordinate, its column the output's column
  have hr : DT.rhsIdx (ix2 g d) ((contrEquiv1 DT 4000 rfl rfl).symm r) = ix2 r d := by
    funext a
    refine Fin.ext ?_
    match a with
    | ⟨0, _⟩ =>
      exact (DT.rhsIdx_val_of_single (cr := 0) rfl _ _).trans (contrEquiv1_symm_val DT 4000 rfl rfl r)
    | ⟨1, _⟩ => exact tl_rhs_col g d _
  rw [hl, hr]

/-! ## The one-hot matrix -/

/-- The bit of `a = b`, widened to a word and read as a signed integer, is the real `1` when the two words are equal
    and `0` when they are not. -/
theorem bit_toReal (a b : BitVec 32) :
    ((((IntOp.cmpi .eq a b).setWidth 32).toInt : ℝ) : EReal) = if a = b then 1 else 0 := by
  by_cases h : a = b
  · subst h
    rw [if_pos rfl]
    have e : IntOp.cmpi .eq a a = 1#1 := by
      show BitVec.ofBool (a == a) = 1#1
      rw [beq_self_eq_true]; rfl
    rw [e]
    have e2 : ((1#1 : BitVec 1).setWidth 32).toInt = 1 := by decide
    rw [e2]; norm_cast
  · rw [if_neg h]
    have e : IntOp.cmpi .eq a b = 0#1 := by
      show BitVec.ofBool (a == b) = 0#1
      rw [beq_eq_false_iff_ne.mpr h]; rfl
    rw [e]
    have e2 : ((0#1 : BitVec 1).setWidth 32).toInt = 0 := by decide
    rw [e2]; norm_cast

/-- The one-hot matrix at `(r, g)`: `1` when row `r`'s id is the word `g`, else `0`. The id column is copied along
    axis 1, the counter along axis 1 reads `g` there, and the format change is the identity on extended reals. -/
theorem onehot_apply (ids : S4000x1.Idx → BitVec 32) (r : Fin 4000) (g : Fin 512) :
    (truncf .bf16 (sitofp (F := Ideal) .f32 (extui 32 (cmpi .eq
        (broadcastTo S4000x512 (shapeCast S4000x1 ids shapeCasts_S4000x1_S4000x1) broadcasts_S4000x1_S4000x512)
        (iota .tc S4000x512 32 [1] iota_S4000x512_d1_w32)) natLt_1_32)) bitsLt_bf16_f32 : FVec Ideal S4000x512 .bf16) (ix2 r g)
      = if ids (ix2 r 0) = BitVec.ofNat 32 g.val then 1 else 0 := by
  -- the id column copied along axis 1 reads row r's id
  have hb : broadcastTo S4000x512 (shapeCast S4000x1 ids shapeCasts_S4000x1_S4000x1) broadcasts_S4000x1_S4000x512 (ix2 r g)
      = ids (ix2 r 0) := by
    rw [shapeCast_self]
    refine broadcastTo_apply ids broadcasts_S4000x1_S4000x512 (ix2 r g) (ix2 r 0) fun a => ?_
    match a with
    | ⟨0, _⟩ => rfl
    | ⟨1, _⟩ => rfl
  -- the counter along axis 1 reads the word g
  have hi : iota .tc S4000x512 32 [1] iota_S4000x512_d1_w32 (ix2 r g) = BitVec.ofNat 32 g.val :=
    iota_single_apply .tc S4000x512 32 1 iota_S4000x512_d1_w32 (ix2 r g)
  show ((((IntOp.cmpi .eq
      (broadcastTo S4000x512 (shapeCast S4000x1 ids shapeCasts_S4000x1_S4000x1) broadcasts_S4000x1_S4000x512 (ix2 r g))
      (iota .tc S4000x512 32 [1] iota_S4000x512_d1_w32 (ix2 r g))).setWidth 32).toInt : ℝ) : EReal) = _
  rw [hb, hi]
  exact bit_toReal _ _

/-! ## The three values at an entry -/

/-- The initial accumulator is zero everywhere. -/
theorem pay1_apply (j : S512x128.Idx) : k3_pay1 (F := Ideal) j = 0 := by
  unfold k3_pay1
  rw [shapeCast_self]
  exact Ideal.ofBits_zero_f32

/-- One block's step at the entry `(g, d)`: the accumulator's entry plus the sum of the block's entries `(r, d)` over
    the rows `r` whose id is the word `g`. A product with the factor `1` is the other factor and with the factor `0` is
    `0`, on every extended real. -/
theorem pay2_apply (ids : S4000x1.Idx → BitVec 32) (x : S4000x128.Idx → EReal) (acc : S512x128.Idx → EReal)
    (g : Fin 512) (d : Fin 128) :
    k3_pay2 (F := Ideal) ids x acc (ix2 g d)
      = acc (ix2 g d) + ∑ r : Fin 4000, if ids (ix2 r 0) = BitVec.ofNat 32 g.val then x (ix2 r d) else 0 := by
  unfold k3_pay2
  rw [shapeCast_self]
  rw [addf_apply]
  refine congrArg (acc (ix2 g d) + ·) ?_
  -- the product into the zero accumulator is the sum over the contracted row coordinate
  refine (Ideal.matmul_constant_zero_apply DT none _ _ (ix2 g d)).trans ?_
  refine (tl_sum _ _ g d).trans ?_
  refine Finset.sum_congr rfl fun r _ => ?_
  rw [onehot_apply ids r g, truncf_apply, shapeCast_self]
  by_cases h : ids (ix2 r 0) = BitVec.ofNat 32 g.val
  · rw [if_pos h, if_pos h, one_mul]
  · rw [if_neg h, if_neg h, zero_mul]

/-- The dimension numbers of the plain product `[512, 128] × [128, 1]`. -/
abbrev DP := dot_S512x128_S128x1_S512x1_1_0_0_1_n_n

/-- The read-out at graph `g`: the logistic of row `g` of the accumulator times the weight column, plus the bias. -/
theorem pay3_apply (P : S512x128.Idx → EReal) (W : S128x1.Idx → EReal) (b : S1x1.Idx → EReal) (g : Fin 512) :
    k3_pay3 (F := Ideal) P W b (ix2 g 0)
      = Ideal.logistic ((∑ d : Fin 128, P (ix2 g d) * W (ix2 d 0)) + b (ix2 0 0)) := by
  -- the plain product into the zero accumulator is the sum over the contracted coordinate
  have hm : FloatOps.matmul DP none (truncf (F := Ideal) .bf16 P bitsLt_bf16_f32) (truncf (F := Ideal) .bf16 W bitsLt_bf16_f32)
      (constant S512x1 .f32 0x00000000#32) (ix2 g 0) = ∑ d : Fin 128, P (ix2 g d) * W (ix2 d 0) :=
    RowDims.matmul_plain_zero_apply (M := 512) (K := 128) (N := 1) none
      (truncf (F := Ideal) .bf16 P bitsLt_bf16_f32) (truncf (F := Ideal) .bf16 W bitsLt_bf16_f32) g 0
  -- the one-entry bias copied down the column reads that entry
  have hb : broadcastTo S512x1 (shapeCast S1x1 b shapeCasts_S1x1_S1x1) broadcasts_S1x1_S512x1 (ix2 g 0) = b (ix2 0 0) := by
    rw [shapeCast_self]
    refine broadcastTo_apply b broadcasts_S1x1_S512x1 (ix2 g 0) (ix2 0 0) fun a => ?_
    match a with
    | ⟨0, _⟩ => rfl
    | ⟨1, _⟩ => rfl
  unfold k3_pay3
  show Ideal.logistic (FloatOps.matmul DP none (truncf (F := Ideal) .bf16 P bitsLt_bf16_f32) (truncf (F := Ideal) .bf16 W bitsLt_bf16_f32)
      (constant S512x1 .f32 0x00000000#32) (ix2 g 0)
    + broadcastTo S512x1 (shapeCast S1x1 b shapeCasts_S1x1_S1x1) broadcasts_S1x1_S512x1 (ix2 g 0)) = _
  rw [hm, hb]

/-! ## Twenty-five blocks added from zero -/

/-- Block `t`'s contribution to the entry `(g, d)` of the per-graph sums: the sum, over the 4000 rows of the block whose
    id is the word `g`, of the row's entry in column `d`. -/
def blockSum (h : Nodes.Idx → EReal) (batch : Ids.Idx → BitVec 32) (g : Fin 512) (d : Fin 128) (t : Fin 25) : EReal :=
  ∑ r : Fin 4000, if rowsOf batch t (ix2 r 0) = BitVec.ofNat 32 g.val then rowsOf h t (ix2 r d) else 0

/-- The contributions as a sequence over the naturals, zero past the last block. -/
def blockSeq (h : Nodes.Idx → EReal) (batch : Ids.Idx → BitVec 32) (g : Fin 512) (d : Fin 128) (t : ℕ) : EReal :=
  if ht : t < 25 then blockSum h batch g d ⟨t, ht⟩ else 0

/-- Below 25 the sequence is the block's contribution. -/
theorem blockSeq_of_lt (h : Nodes.Idx → EReal) (batch : Ids.Idx → BitVec 32) (g : Fin 512) (d : Fin 128) (t : ℕ) (ht : t < 25) :
    blockSeq h batch g d t = blockSum h batch g d ⟨t, ht⟩ := dif_pos ht

/-- After block `n` the accumulator's entry `(g, d)` is the sum of the contributions of blocks `0 … n`: zero plus
    block 0's at the start (`0 + a = a`), and one more term of the sum at each step. -/
theorem acc_apply (h : Nodes.Idx → EReal) (batch : Ids.Idx → BitVec 32) (S : ℕ → Pooled.Idx → EReal)
    (h0 : S 0 = k3_pay2 (F := Ideal) (rowsOf batch 0) (rowsOf h 0) (k3_pay1 (F := Ideal)))
    (hs : ∀ n (hn : n + 1 < 25), S (n + 1) = k3_pay2 (F := Ideal) (rowsOf batch ⟨n + 1, hn⟩) (rowsOf h ⟨n + 1, hn⟩) (S n))
    (g : Fin 512) (d : Fin 128) :
    ∀ n, n < 25 → S n (ix2 g d) = ∑ t ∈ Finset.range (n + 1), blockSeq h batch g d t := by
  intro n
  induction n with
  | zero =>
    intro _
    rw [h0, pay2_apply, pay1_apply, zero_add, Finset.sum_range_one, blockSeq_of_lt h batch g d 0 (by decide)]
    rfl
  | succ n ih =>
    intro hn
    rw [hs n hn, pay2_apply, ih (by omega), Finset.sum_range_succ _ (n + 1), blockSeq_of_lt h batch g d (n + 1) hn]
    rfl

/-- After the last block the accumulator's entry `(g, d)` is the sum of all twenty-five contributions. -/
theorem acc_last (h : Nodes.Idx → EReal) (batch : Ids.Idx → BitVec 32) (S : ℕ → Pooled.Idx → EReal)
    (h0 : S 0 = k3_pay2 (F := Ideal) (rowsOf batch 0) (rowsOf h 0) (k3_pay1 (F := Ideal)))
    (hs : ∀ n (hn : n + 1 < 25), S (n + 1) = k3_pay2 (F := Ideal) (rowsOf batch ⟨n + 1, hn⟩) (rowsOf h ⟨n + 1, hn⟩) (S n))
    (g : Fin 512) (d : Fin 128) :
    S 24 (ix2 g d) = ∑ t : Fin 25, blockSum h batch g d t := by
  rw [acc_apply h batch S h0 hs g d 24 (by decide)]
  rw [← Fin.sum_univ_eq_sum_range (fun t => blockSeq h batch g d t) 25]
  exact Finset.sum_congr rfl fun t _ => blockSeq_of_lt h batch g d t.val t.isLt

/-! ## The blocks' rows are the table's rows -/

/-- Row `r` of block `t` is row `4000 t + r` of the table: a bijection between the pairs (block, row in the block) and
    the 100000 rows. -/
def rowEquiv : Fin 25 × Fin 4000 ≃ Fin 100000 := finProdFinEquiv.trans (finCongr (by norm_num))

/-- The bijection's value. -/
theorem rowEquiv_val (t : Fin 25) (r : Fin 4000) : (rowEquiv (t, r)).val = 4000 * t.val + r.val := by
  show r.val + 4000 * t.val = 4000 * t.val + r.val
  omega

/-- The specification's sum over the 100000 rows is the double sum over the blocks and the rows of each block. -/
theorem pooled_blocks (h : Nodes.Idx → EReal) (batch : Ids.Idx → BitVec 32) (g : Fin 512) (d : Fin 128) :
    pooledAt h batch g d = ∑ t : Fin 25, blockSum h batch g d t := by
  unfold pooledAt
  rw [← Equiv.sum_comp rowEquiv, Fintype.sum_prod_type]
  refine Finset.sum_congr rfl fun t _ => ?_
  unfold blockSum
  refine Finset.sum_congr rfl fun r _ => ?_
  have e : rowEquiv (t, r) = ⟨4000 * t.val + r.val, by have := t.isLt; have := r.isLt; omega⟩ := Fin.ext (rowEquiv_val t r)
  rw [e]
  rfl

/-! ## The read-out of the last accumulator is the specification -/

/-- The accumulator after the last block, pushed through the read-out, is the specification: for any sequence `S` of
    accumulators that starts from zero plus block 0's contribution and adds block `n + 1`'s at each step. -/
theorem pool_out (h : Nodes.Idx → EReal) (batch : Ids.Idx → BitVec 32) (Wro : Col.Idx → EReal) (bro : One.Idx → EReal)
    (S : ℕ → Pooled.Idx → EReal)
    (h0 : S 0 = k3_pay2 (F := Ideal) (rowsOf batch 0) (rowsOf h 0) (k3_pay1 (F := Ideal)))
    (hs : ∀ n (hn : n + 1 < 25), S (n + 1) = k3_pay2 (F := Ideal) (rowsOf batch ⟨n + 1, hn⟩) (rowsOf h ⟨n + 1, hn⟩) (S n)) :
    k3_pay3 (F := Ideal) (S 24) Wro bro = out h batch Wro bro := by
  funext i
  -- an index of the output column is (g, 0)
  obtain ⟨g, u, rfl⟩ : ∃ (g : Fin 512) (u : Fin 1), i = ix2 g u := ⟨i 0, i 1, eq_ix2 i⟩
  obtain rfl : u = 0 := Subsingleton.elim _ _
  rw [pay3_apply]
  show _ = outAt h batch Wro bro g
  unfold outAt
  refine congrArg (fun z => Ideal.logistic (z + bro (ix2 0 0))) ?_
  -- entry by entry the last accumulator is the per-graph sum
  refine Finset.sum_congr rfl fun d _ => ?_
  rw [acc_last h batch S h0 hs g d, pooled_blocks]

end Cert.KernelIdeal.PoolMath

end
-- ==== Proof.PoolArr3KI.lean ====
/-
  The pooling region's output array at the ideal values.

  The region runs 25 points. Point `t` is handed rows `4000 t … 4000 t + 3999` of the node table and of the id
  column, and the whole read-out weights and bias. The accumulator carried from point to point starts from zero plus
  block 0's contribution and adds one block's contribution per point; the output column is written by the last
  point alone, as the read-out of the accumulator it then holds, and its one block is the whole array. So the array
  ends holding the specification's read-out of the per-graph sums.
-/
import proofs.«405438_j90185723282019_1_alg».proof.Proof.Pool3KI
import proofs.«405438_j90185723282019_1_alg».proof.Proof.Pool3KIPieces
import proofs.«405438_j90185723282019_1_alg».proof.Proof.PoolMath
import proofs.«405438_j90185723282019_1_alg».proof.Proof.Spec
import Idealize.ShloMosaic.Lib.Pipeline.Value

noncomputable section

namespace Cert.KernelIdeal.R3
open Idealize.ShloMosaic Idealize.ShloMosaic.TcCoe
open Idealize.SL Idealize.SL.Sem
open Idealize.ShloMosaic.Pipeline (Dat Cfg Window)
open Cert.KernelIdeal Cert.KernelIdeal.Gen Cert.KernelIdeal.GenP
open Idealize.ShloMosaic.ValueIdx Cert.Spec

/-! ## The blocks the points are handed -/

/-- A point of the grid as a block number below 25. -/
def arr4_pt (t : Fin cfg3.N) : Fin 25 := ⟨t.val, by have hN : cfg3.N = 25 := N_3; have := t.isLt; omega⟩

/-- The last point of the grid. -/
def arr4_last : Fin cfg3.N := ⟨24, by have hN : cfg3.N = 25 := N_3; omega⟩

/-- The block indices over the grid: the node table's and the id column's blocks move down the rows with the point and
    stay in column block 0; the weights', the bias's and the output's block index is (0, 0) at every point. -/
theorem arr4_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable (V : (c : Dev nD) → (b : Ref sig .tc) → Buf (Elt Ideal) ((c : Thread nD τ).loc b))

/-- The node table's block at point `t` is rows `4000 t … 4000 t + 3999` of the table: an element of the block sits in
    the array at the block index times the block's size plus its own coordinate. -/
theorem arr4_iblk0 (c : Dev nD) (t : Fin cfg3.N) :
    (iblk V c 0 t : Vec Ideal S4000x128 .f32) = rowsOf (V c (Pipeline.arrRef spec3 0)) (arr4_pt t) := by
  obtain ⟨e0, e1, -⟩ := arr4_idx t
  funext j
  unfold iblk rowsOf
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 4000 + 1 * (j 0).val = 4000 * t.val + (j 0).val; rw [e0]; omega
  | ⟨1, _⟩ => show win3_0.index t (1 : Fin 2) * 128 + 1 * (j 1).val = (j 1).val; rw [e1]; omega

/-- The id column's block at point `t` is rows `4000 t … 4000 t + 3999` of the column. -/
theorem arr4_iblk1 (c : Dev nD) (t : Fin cfg3.N) :
    (iblk V c 1 t : Vec Ideal S4000x1 .i32) = rowsOf (V c (Pipeline.arrRef spec3 1)) (arr4_pt t) := by
  obtain ⟨-, -, e0, e1, -⟩ := arr4_idx t
  funext j
  unfold iblk rowsOf
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 4000 + 1 * (j 0).val = 4000 * t.val + (j 0).val; rw [e0]; omega
  | ⟨1, _⟩ => show win3_1.index t (1 : Fin 2) * 1 + 1 * (j 1).val = (j 1).val; rw [e1]; omega

/-- The read-out weights' one block is the whole column, at every point. -/
theorem arr4_iblk2 (c : Dev nD) (t : Fin cfg3.N) :
    (iblk V c 2 t : Vec Ideal S128x1 .f32) = V c (Pipeline.arrRef spec3 2) := by
  obtain ⟨-, -, -, -, e0, e1, -⟩ := arr4_idx t
  funext j
  unfold iblk
  rw [View.read_apply]
  show V c (Pipeline.arrRef spec3 2) _ = V c (Pipeline.arrRef spec3 2) j
  refine congrArg (V c (Pipeline.arrRef spec3 2)) (funext fun a => Fin.ext ?_)
  match a with
  | ⟨0, _⟩ => show win3_2.index t (0 : Fin 2) * 128 + 1 * (j 0).val = (j 0).val; rw [e0]; omega
  | ⟨1, _⟩ => show win3_2.index t (1 : Fin 2) * 1 + 1 * (j 1).val = (j 1).val; rw [e1]; omega

/-- The read-out bias's one block is the whole one-entry array, at every point. -/
theorem arr4_iblk3 (c : Dev nD) (t : Fin cfg3.N) :
    (iblk V c 3 t : Vec Ideal S1x1 .f32) = V c (Pipeline.arrRef spec3 3) := by
  obtain ⟨-, -, -, -, -, -, e0, e1, -⟩ := arr4_idx t
  funext j
  unfold iblk
  rw [View.read_apply]
  show V c (Pipeline.arrRef spec3 3) _ = V c (Pipeline.arrRef spec3 3) j
  refine congrArg (V c (Pipeline.arrRef spec3 3)) (funext fun a => Fin.ext ?_)
  match a with
  | ⟨0, _⟩ => show win3_3.index t (0 : Fin 2) * 1 + 1 * (j 0).val = (j 0).val; rw [e0]; omega
  | ⟨1, _⟩ => show win3_3.index t (1 : Fin 2) * 1 + 1 * (j 1).val = (j 1).val; rw [e1]; omega

/-! ## The last point's output is the specification -/

/-- The carried accumulator after point `n`, as a sequence over the naturals (zero past the grid). -/
def arr4_acc (c : Dev nD) (n : ℕ) : Pooled.Idx → EReal :=
  if h : n < cfg3.N then (outsAt V c n h).2 else fun _ => 0

/-- On the grid the sequence is the carried accumulator. -/
theorem arr4_acc_of_lt (c : Dev nD) (n : ℕ) (h : n < cfg3.N) : arr4_acc V c n = (outsAt V c n h).2 := dif_pos h

/-- What the last point leaves in the output's buffer is the specification's read-out: the accumulators start from zero
    plus block 0's contribution and add block `n + 1`'s at step `n + 1`, the blocks being the table's and the id column's
    rows, and the last point reads the last accumulator out through the whole weights and bias. -/
theorem arr4_out (c : Dev nD) (h : 24 < cfg3.N) :
    (outsAt V c 24 h).1 = Cert.Spec.out (V c (Pipeline.arrRef spec3 0)) (V c (Pipeline.arrRef spec3 1))
      (V c (Pipeline.arrRef spec3 2)) (V c (Pipeline.arrRef spec3 3)) := by
  have hN : cfg3.N = 25 := N_3
  rw [out_last V c h, arr4_iblk2, arr4_iblk3, ← arr4_acc_of_lt V c 24 h]
  refine PoolMath.pool_out (V c (Pipeline.arrRef spec3 0)) (V c (Pipeline.arrRef spec3 1))
    (V c (Pipeline.arrRef spec3 2)) (V c (Pipeline.arrRef spec3 3)) (arr4_acc V c) ?_ ?_
  · have h0 : 0 < cfg3.N := by omega
    rw [arr4_acc_of_lt V c 0 h0, sc_zero V c h0, arr4_iblk1, arr4_iblk0]
    rfl
  · intro n hn
    have hn' : n + 1 < cfg3.N := by omega
    rw [arr4_acc_of_lt V c (n + 1) hn', arr4_acc_of_lt V c n (Nat.lt_of_succ_lt hn'), sc_succ V c n hn',
      arr4_iblk1, arr4_iblk0]
    rfl

/-! ## The array after the run -/

/-- The one write-back, at the last point, writes the specification: the output's block (0, 0) read through zero
    offsets is the whole array. -/
theorem arr4_flushed (c : Dev nD) (t : Fin cfg3.N) (hf : (cfg3.win 4).flush t = true) :
    (dat V c).flushed 4 t = ((cfg3.win 4).blk t).view.read (Elt Ideal)
      (Cert.Spec.out (V c (Pipeline.arrRef spec3 0)) (V c (Pipeline.arrRef spec3 1))
        (V c (Pipeline.arrRef spec3 2)) (V c (Pipeline.arrRef spec3 3))) := by
  have hN : cfg3.N = 25 := N_3
  have h24 : t.val = 24 := by have := (flush3_4 t).mp hf; have := t.isLt; omega
  obtain rfl : t = arr4_last := Fin.ext h24
  show (cfg3.win 4).cut (grid3.coords arr4_last) ((dat V c).after 4 arr4_last) = _
  rw [after_4]
  have e : (outsAt V c arr4_last.val arr4_last.isLt).1 = Cert.Spec.out (V c (Pipeline.arrRef spec3 0))
      (V c (Pipeline.arrRef spec3 1)) (V c (Pipeline.arrRef spec3 2)) (V c (Pipeline.arrRef spec3 3)) :=
    arr4_out V c arr4_last.isLt
  rw [e]
  have hz' : (fun a => win3_4.index arr4_last a * main_v54.ty.shape.size a) = fun _ => 0 :=
    funext fun a => by fin_cases a <;> decide
  exact (Memref.read_access_unit_zero (Elt Ideal) main_v54 hz' (fun a => by rw [congrFun hz' a]; simp) _).symm

/-- The output array after the run is the specification's read-out of the four argument arrays: the last point's block
    covers every index of the array. -/
theorem arr4 (c : Dev nD) :
    (dat V c).arrAt 4 cfg3.N = Cert.Spec.out (V c (Pipeline.arrRef spec3 0)) (V c (Pipeline.arrRef spec3 1))
      (V c (Pipeline.arrRef spec3 2)) (V c (Pipeline.arrRef spec3 3)) :=
  (dat V c).arrAt_eq_of_cover 4 _ (arr4_flushed V c) fun i =>
    ⟨arr4_last, (flush3_4 arr4_last).mpr rfl, by
      show i ∈ ((View.whole main_v54).slice (win3_4.rect arr4_last)).set
      rw [View.set_slice_whole, Rect.mem_set_unit]
      intro a
      have h0 : (i 0 : Nat) < 512 := (i 0).isLt
      have h1 : (i 1 : Nat) < 1 := (i 1).isLt
      match a with
      | ⟨0, _⟩ =>
        show win3_4.index arr4_last 0 * win3_4.size 0 ≤ (i 0 : Nat)
          ∧ (i 0 : Nat) < win3_4.index arr4_last 0 * win3_4.size 0 + win3_4.xsize (grid3.coords arr4_last) 0
        rw [show win3_4.index arr4_last 0 * win3_4.size 0 = 0 from by decide +kernel,
          show win3_4.xsize (grid3.coords arr4_last) 0 = 512 from by decide +kernel]
        omega
      | ⟨1, _⟩ =>
        show win3_4.index arr4_last 1 * win3_4.size 1 ≤ (i 1 : Nat)
          ∧ (i 1 : Nat) < win3_4.index arr4_last 1 * win3_4.size 1 + win3_4.xsize (grid3.coords arr4_last) 1
        rw [show win3_4.index arr4_last 1 * win3_4.size 1 = 0 from by decide +kernel,
          show win3_4.xsize (grid3.coords arr4_last) 1 = 1 from by decide +kernel]
        omega⟩

end Cert.KernelIdeal.R3

end
-- ==== Proof.RefValue.lean ====
import proofs.«405438_j90185723282019_1_alg».proof.Proof.Gen.ReferenceIdeal.Read
import proofs.«405438_j90185723282019_1_alg».proof.Proof.Spec
import proofs.«405438_j90185723282019_1_alg».proof.Proof.LibRowDims

/-!
  The reference program's result over the extended reals is the specification.

  The reference is three layers and a read-out. A layer takes a node table `h`, forms the table of neighbourhood means
  (`meanR h`: the rows of `h` at the edges' sources added up at the edges' destinations, each row divided by the number
  of edges arriving there, that number at least one), multiplies the means and `h` by two weight matrices, adds the
  products and a bias row, and cuts the result off below at zero: entry by entry this is `Spec.layer`. The read-out adds
  the rows of the last table graph by graph into a zero table, multiplies by a weight column, adds a bias and applies
  `1 / (1 + exp (−·))`: entry by entry this is `Spec.out`. The mean stays one function of the table throughout: the same
  operations are applied to the input, to layer 1's output and to layer 2's.
-/

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec
open Idealize.ShloMosaic.TcCoe Idealize.SL.Sem Idealize.ShloMosaic.StableHlo

/-! ## The neighbourhood mean -/

/-- The neighbourhood mean of a node table `h` over the edge list `x1` (row 0 the sources, row 1 the destinations),
    operation by operation as the reference spells it: the rows of `h` at the sources (a negative source first moved up
    by 100000), added into a zero table at the destinations, divided entry by entry by the number of edges arriving at
    the row, that number cut off below at one. -/
def meanR {F : FTy → Type} [FloatOps F] (h : (⟨S100000x128, .f32⟩ : BufTy).Contents (Elt F))
    (x1 : (⟨S2x600000, .i32⟩ : BufTy).Contents (Elt F)) : (⟨S100000x128, .f32⟩ : BufTy).Contents (Elt F) :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0
        (shapeCast _ (extractStridedSlice S1x600000 ![1, 0] x1 slices_S2x600000_S1x600000_1_0) shapeCasts_S1x600000_S600000))
      (Host.gather gather_S100000x128_S600000x1_S600000x128_1_0_n_n_0_1_1128 h
        (broadcastInDim S600000x1 ![0] bcast_S600000_S600000x1_0
          (select
            (cmpi .slt
              (shapeCast _ (extractStridedSlice S1x600000 ![0, 0] x1 slices_S2x600000_S1x600000_0_0) shapeCasts_S1x600000_S600000)
              (broadcastInDim S600000 ![] bcast_S_S600000 (constantI S_ 32 0#32)))
            (addi
              (shapeCast _ (extractStridedSlice S1x600000 ![0, 0] x1 slices_S2x600000_S1x600000_0_0) shapeCasts_S1x600000_S600000)
              (broadcastInDim S600000 ![] bcast_S_S600000 (constantI S_ 32 100000#32)))
            (shapeCast _ (extractStridedSlice S1x600000 ![0, 0] x1 slices_S2x600000_S1x600000_0_0) shapeCasts_S1x600000_S600000)))))
    (broadcastInDim S100000x128 ![0, 1] bcast_S100000x1_S100000x128_0_1
      (maximumf
        (Host.scatterAdd scatter_S100000x1_S600000x1_S600000x1_1_0_0_1
          (broadcastInDim S100000x1 ![] bcast_S_S100000x1 (constant S_ .f32 0x00000000#32))
          (broadcastInDim S600000x1 ![0] bcast_S600000_S600000x1_0
            (shapeCast _ (extractStridedSlice S1x600000 ![1, 0] x1 slices_S2x600000_S1x600000_1_0) shapeCasts_S1x600000_S600000))
          (broadcastInDim S600000x1 ![] bcast_S_S600000x1 (constant S_ .f32 0x3F800000#32)))
        (broadcastInDim S100000x1 ![] bcast_S_S100000x1 (constant S_ .f32 0x3F800000#32))))

section
variable {F : FTy → Type} [FloatOps F]

/-- Layer 1's mean stage is the neighbourhood mean of the input table. -/
theorem mean1 (x0 : (⟨S100000x128, .f32⟩ : BufTy).Contents (Elt F)) (x1 : (⟨S2x600000, .i32⟩ : BufTy).Contents (Elt F)) :
    val_main_v21 (F := F) x0 x1 = meanR x0 x1 := rfl

/-- Layer 2's mean stage is the neighbourhood mean of layer 1's output. -/
theorem mean2 (x0 : (⟨S100000x128, .f32⟩ : BufTy).Contents (Elt F)) (x1 : (⟨S2x600000, .i32⟩ : BufTy).Contents (Elt F))
    (x3 x4 : (⟨S128x128, .f32⟩ : BufTy).Contents (Elt F)) (x5 : (⟨S128, .f32⟩ : BufTy).Contents (Elt F)) :
    val_main_v46 (F := F) x0 x1 x3 x4 x5 = meanR (val_main_v28 (F := F) x0 x1 x3 x4 x5) x1 := rfl

/-- Layer 3's mean stage is the neighbourhood mean of layer 2's output. -/
theorem mean3 (x0 : (⟨S100000x128, .f32⟩ : BufTy).Contents (Elt F)) (x1 : (⟨S2x600000, .i32⟩ : BufTy).Contents (Elt F))
    (x3 x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F)) :
    val_main_v71 (F := F) x0 x1 x3 x4 x5 x6 x7 x8 = meanR (val_main_v53 (F := F) x0 x1 x3 x4 x5 x6 x7 x8) x1 := rfl

end

/-! ## One layer -/

/-- The specification's layer read at the entry `(n, d)`. -/
theorem layer_apply (mean h : Nodes.Idx → EReal) (Wl Wr : Sq.Idx → EReal) (b : Row.Idx → EReal) (n : Fin 100000) (d : Fin 128) :
    layer mean h Wl Wr b (ix2 n d)
      = max (((∑ k : Fin 128, mean (ix2 n k) * Wl (ix2 k d)) + ∑ k : Fin 128, h (ix2 n k) * Wr (ix2 k d)) + b (ix2 0 d)) 0 := rfl

/-- A bias read as one row, at `(0, d)`. -/
theorem rowOf_apply (b : (⟨1, ![128]⟩ : Shape).Idx → EReal) (d : Fin 128) : rowOf b (ix2 0 d) = b (ix1 d) := rfl

/-- Layer 1: the two products of the mean and of the input with the weights, added, the bias added along the rows,
    the result cut off below at zero. -/
theorem layer1 (x0 : (⟨S100000x128, .f32⟩ : BufTy).Contents (Elt Ideal)) (x1 : (⟨S2x600000, .i32⟩ : BufTy).Contents (Elt Ideal))
    (x3 x4 : (⟨S128x128, .f32⟩ : BufTy).Contents (Elt Ideal)) (x5 : (⟨S128, .f32⟩ : BufTy).Contents (Elt Ideal)) :
    val_main_v28 (F := Ideal) x0 x1 x3 x4 x5 = layer (meanR x0 x1) x0 x3 x4 (rowOf x5) := by
  funext i
  obtain ⟨n, d, rfl⟩ : ∃ (n : Fin 100000) (d : Fin 128), i = ix2 n d := ⟨i 0, i 1, eq_ix2 i⟩
  rw [val_main_v28_apply, val_main_v27_apply, val_main_v24_apply, val_main_v22_apply, val_main_v23_apply,
    val_main_v26_apply, val_main_v25_apply, val_main_call0_v0_apply, val_main_call0_cst_apply, mean1, layer_apply, rowOf_apply]
  -- the operands of the two products are read at (n, k) and (k, d), the bias at d
  have el : ∀ k : Fin 128, lidx_main_v22 (ix2 n d) k = ix2 n k := fun k => funext fun a => by
    match a with | ⟨0, _⟩ => rfl | ⟨1, _⟩ => rfl
  have er : ∀ k : Fin 128, ridx_main_v22 (ix2 n d) k = ix2 k d := fun k => funext fun a => by
    match a with | ⟨0, _⟩ => rfl | ⟨1, _⟩ => rfl
  have el' : ∀ k : Fin 128, lidx_main_v23 (ix2 n d) k = ix2 n k := fun k => funext fun a => by
    match a with | ⟨0, _⟩ => rfl | ⟨1, _⟩ => rfl
  have er' : ∀ k : Fin 128, ridx_main_v23 (ix2 n d) k = ix2 k d := fun k => funext fun a => by
    match a with | ⟨0, _⟩ => rfl | ⟨1, _⟩ => rfl
  have eb : idx_main_v25 (idx_main_v26 (ix2 n d)) = ix1 d := funext fun a => by
    match a with | ⟨0, _⟩ => rfl
  simp only [el, er, el', er', eb, Ideal.maximumf_def, Ideal.addf_def, Ideal.ofBits_def, Ideal.ofBits_zero_f32]

/-- Layer 2 is the same four operations on layer 1's output and its neighbourhood mean. -/
theorem layer2 (x0 : (⟨S100000x128, .f32⟩ : BufTy).Contents (Elt Ideal)) (x1 : (⟨S2x600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    val_main_v53 (F := Ideal) x0 x1 x3 x4 x5 x6 x7 x8
      = layer (meanR (val_main_v28 (F := Ideal) x0 x1 x3 x4 x5) x1) (val_main_v28 (F := Ideal) x0 x1 x3 x4 x5) x6 x7 (rowOf x8) := by
  funext i
  obtain ⟨n, d, rfl⟩ : ∃ (n : Fin 100000) (d : Fin 128), i = ix2 n d := ⟨i 0, i 1, eq_ix2 i⟩
  rw [val_main_v53_apply, val_main_v52_apply, val_main_v49_apply, val_main_v47_apply, val_main_v48_apply,
    val_main_v51_apply, val_main_v50_apply, val_main_call1_v0_apply, val_main_call1_cst_apply, mean2, layer_apply, rowOf_apply]
  -- the operands of the two products are read at (n, k) and (k, d), the bias at d
  have el : ∀ k : Fin 128, lidx_main_v47 (ix2 n d) k = ix2 n k := fun k => funext fun a => by
    match a with | ⟨0, _⟩ => rfl | ⟨1, _⟩ => rfl
  have er : ∀ k : Fin 128, ridx_main_v47 (ix2 n d) k = ix2 k d := fun k => funext fun a => by
    match a with | ⟨0, _⟩ => rfl | ⟨1, _⟩ => rfl
  have el' : ∀ k : Fin 128, lidx_main_v48 (ix2 n d) k = ix2 n k := fun k => funext fun a => by
    match a with | ⟨0, _⟩ => rfl | ⟨1, _⟩ => rfl
  have er' : ∀ k : Fin 128, ridx_main_v48 (ix2 n d) k = ix2 k d := fun k => funext fun a => by
    match a with | ⟨0, _⟩ => rfl | ⟨1, _⟩ => rfl
  have eb : idx_main_v50 (idx_main_v51 (ix2 n d)) = ix1 d := funext fun a => by
    match a with | ⟨0, _⟩ => rfl
  simp only [el, er, el', er', eb, Ideal.maximumf_def, Ideal.addf_def, Ideal.ofBits_def, Ideal.ofBits_zero_f32]

/-- Layer 3 is the same four operations on layer 2's output and its neighbourhood mean. -/
theorem layer3 (x0 : (⟨S100000x128, .f32⟩ : BufTy).Contents (Elt Ideal)) (x1 : (⟨S2x600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x128, .f32⟩ : BufTy).Contents (Elt Ideal)) (x11 : (⟨S128, .f32⟩ : BufTy).Contents (Elt Ideal)) :
    val_main_v78 (F := Ideal) x0 x1 x3 x4 x5 x6 x7 x8 x9 x10 x11
      = layer (meanR (val_main_v53 (F := Ideal) x0 x1 x3 x4 x5 x6 x7 x8) x1) (val_main_v53 (F := Ideal) x0 x1 x3 x4 x5 x6 x7 x8)
          x9 x10 (rowOf x11) := by
  funext i
  obtain ⟨n, d, rfl⟩ : ∃ (n : Fin 100000) (d : Fin 128), i = ix2 n d := ⟨i 0, i 1, eq_ix2 i⟩
  rw [val_main_v78_apply, val_main_v77_apply, val_main_v74_apply, val_main_v72_apply, val_main_v73_apply,
    val_main_v76_apply, val_main_v75_apply, val_main_call2_v0_apply, val_main_call2_cst_apply, mean3, layer_apply, rowOf_apply]
  -- the operands of the two products are read at (n, k) and (k, d), the bias at d
  have el : ∀ k : Fin 128, lidx_main_v72 (ix2 n d) k = ix2 n k := fun k => funext fun a => by
    match a with | ⟨0, _⟩ => rfl | ⟨1, _⟩ => rfl
  have er : ∀ k : Fin 128, ridx_main_v72 (ix2 n d) k = ix2 k d := fun k => funext fun a => by
    match a with | ⟨0, _⟩ => rfl | ⟨1, _⟩ => rfl
  have el' : ∀ k : Fin 128, lidx_main_v73 (ix2 n d) k = ix2 n k := fun k => funext fun a => by
    match a with | ⟨0, _⟩ => rfl | ⟨1, _⟩ => rfl
  have er' : ∀ k : Fin 128, ridx_main_v73 (ix2 n d) k = ix2 k d := fun k => funext fun a => by
    match a with | ⟨0, _⟩ => rfl | ⟨1, _⟩ => rfl
  have eb : idx_main_v75 (idx_main_v76 (ix2 n d)) = ix1 d := funext fun a => by
    match a with | ⟨0, _⟩ => rfl
  simp only [el, er, el', er', eb, Ideal.maximumf_def, Ideal.addf_def, Ideal.ofBits_def, Ideal.ofBits_zero_f32]

/-! ## The read-out -/

/-- The word of the number one denotes one. -/
theorem ofBits_one_f32 : Ideal.ofBits .f32 0x3F800000#32 = 1 := by
  simp [Ideal.ofBits, Ideal.ieee, -EReal.coe_mul]; norm_num

/-- A 32-bit word read signed is the number `g < 512` exactly when it is the word `g`. -/
theorem toInt_eq_iff (v : BitVec 32) (g : Nat) (hg : g < 512) : v.toInt = (g : Int) ↔ v = BitVec.ofNat 32 g := by
  constructor
  · -- a nonnegative signed reading is the unsigned one
    intro h
    apply BitVec.eq_of_toNat_eq
    rw [BitVec.toNat_ofNat, Nat.mod_eq_of_lt (by omega)]
    have hv := v.isLt
    rw [BitVec.toInt_eq_toNat_cond] at h
    split at h <;> omega
  · rintro rfl
    rw [BitVec.toInt_eq_toNat_cond, BitVec.toNat_ofNat, Nat.mod_eq_of_lt (by omega), if_pos (by omega)]

/-- The pooling stage at `(g, d)`: the zero table plus the rows of layer 3's output whose graph id is `g`. -/
theorem pooled_apply (x0 : (⟨S100000x128, .f32⟩ : BufTy).Contents (Elt Ideal)) (x1 : (⟨S2x600000, .i32⟩ : BufTy).Contents (Elt Ideal)) (x2 : (⟨S100000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x128, .f32⟩ : BufTy).Contents (Elt Ideal)) (x11 : (⟨S128, .f32⟩ : BufTy).Contents (Elt Ideal)) (g : Fin 512) (d : Fin 128) :
    val_main_v81 (F := Ideal) x0 x1 x2 x3 x4 x5 x6 x7 x8 x9 x10 x11 (ix2 g d)
      = pooledAt (val_main_v78 (F := Ideal) x0 x1 x3 x4 x5 x6 x7 x8 x9 x10 x11) (colIds x2) g d := by
  unfold val_main_v81
  generalize val_main_v78 (F := Ideal) x0 x1 x3 x4 x5 x6 x7 x8 x9 x10 x11 = T
  -- the accumulating scatter of rows, entry by entry
  refine (RowDims.rowScatterAdd_apply (N := 512) (C := 128) (R := 100000) _ (val_main_v79 (F := Ideal))
    (val_main_v80 (F := Ideal) x2) T g d).trans ?_
  rw [val_main_v79_apply, val_main_cst_16_apply, Ideal.ofBits_def, Ideal.ofBits_zero_f32, zero_add]
  unfold pooledAt
  refine Finset.sum_congr rfl fun r _ => ?_
  -- row r's id is read from the id column, and "read signed it is g" says "it is the word g"
  have e : idx_main_v80 (ix2 r 0) = ix1 r := funext fun a => by match a with | ⟨0, _⟩ => rfl
  have ec : colIds x2 (ix2 r 0) = x2 (ix1 r) := rfl
  rw [val_main_v80_apply, e, ec]
  by_cases hv : x2 (ix1 r) = BitVec.ofNat 32 g.val
  · rw [if_pos hv, if_pos ((toInt_eq_iff _ _ g.isLt).mpr hv)]
  · rw [if_neg hv, if_neg (fun h => hv ((toInt_eq_iff _ _ g.isLt).mp h))]

/-- The read-out stages: the pooled table times the read-out weights, the bias added, then `1 / (1 + exp (−·))`. -/
theorem readout (x0 : (⟨S100000x128, .f32⟩ : BufTy).Contents (Elt Ideal)) (x1 : (⟨S2x600000, .i32⟩ : BufTy).Contents (Elt Ideal)) (x2 : (⟨S100000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x128, .f32⟩ : BufTy).Contents (Elt Ideal)) (x11 : (⟨S128, .f32⟩ : BufTy).Contents (Elt Ideal))
    (x12 : (⟨S128x1, .f32⟩ : BufTy).Contents (Elt Ideal)) (x13 : (⟨S1, .f32⟩ : BufTy).Contents (Elt Ideal)) :
    val_main_v91 (F := Ideal) x0 x1 x2 x3 x4 x5 x6 x7 x8 x9 x10 x11 x12 x13
      = out (val_main_v78 (F := Ideal) x0 x1 x3 x4 x5 x6 x7 x8 x9 x10 x11) (colIds x2) x12 (oneOf x13) := by
  funext i
  obtain ⟨g, rfl⟩ : ∃ g : Fin 512, i = ix2 g 0 := ⟨i 0, funext fun a => by
    match a with
    | ⟨0, _⟩ => rfl
    | ⟨1, _⟩ => exact Fin.ext (Nat.lt_one_iff.mp (i 1).isLt)⟩
  rw [val_main_v91_apply, val_main_v90_apply, val_main_cst_18_apply, val_main_v89_apply, val_main_v88_apply,
    val_main_cst_17_apply, val_main_v87_apply, val_main_v86_apply, val_main_v85_apply, val_main_v82_apply,
    val_main_v84_apply, val_main_v83_apply]
  -- the product reads the pooled table at (g, k) and the weights at (k, 0); the bias is its one entry
  have el : ∀ k : Fin 128, lidx_main_v82 (ix2 g 0) k = ix2 g k := fun k => funext fun a => by
    match a with | ⟨0, _⟩ => rfl | ⟨1, _⟩ => rfl
  have er : ∀ k : Fin 128, ridx_main_v82 (ix2 g 0) k = ix2 k 0 := fun k => funext fun a => by
    match a with | ⟨0, _⟩ => rfl | ⟨1, _⟩ => rfl
  have eb : idx_main_v83 (idx_main_v84 (ix2 g 0)) = ix1 0 := funext fun a => by
    match a with | ⟨0, _⟩ => rfl
  simp only [el, er, eb, pooled_apply]
  show _ = outAt _ _ _ _ g
  unfold outAt Ideal.logistic oneOf
  simp only [Ideal.hostDivf_def, Ideal.addf_def, Ideal.hostUnary_exp_def, Ideal.hostNegf_def, Ideal.negf_def,
    Ideal.ofBits_def, ofBits_one_f32]

/-! ## The result -/

/-- THE RESULT: the reference's output is the specification's read-out of three nested layers. -/
theorem ref_result (x0 : (⟨S100000x128, .f32⟩ : BufTy).Contents (Elt Ideal)) (x1 : (⟨S2x600000, .i32⟩ : BufTy).Contents (Elt Ideal)) (x2 : (⟨S100000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x128, .f32⟩ : BufTy).Contents (Elt Ideal)) (x11 : (⟨S128, .f32⟩ : BufTy).Contents (Elt Ideal))
    (x12 : (⟨S128x1, .f32⟩ : BufTy).Contents (Elt Ideal)) (x13 : (⟨S1, .f32⟩ : BufTy).Contents (Elt Ideal)) :
    val_main_v91 (F := Ideal) x0 x1 x2 x3 x4 x5 x6 x7 x8 x9 x10 x11 x12 x13 =
      out (layer (meanR (layer (meanR (layer (meanR x0 x1) x0 x3 x4 (rowOf x5)) x1) (layer (meanR x0 x1) x0 x3 x4 (rowOf x5)) x6 x7 (rowOf x8)) x1)
                 (layer (meanR (layer (meanR x0 x1) x0 x3 x4 (rowOf x5)) x1) (layer (meanR x0 x1) x0 x3 x4 (rowOf x5)) x6 x7 (rowOf x8)) x9 x10 (rowOf x11))
          (colIds x2) x12 (oneOf x13) := by
  rw [readout, layer3, layer2, layer1]

end Cert.ReferenceIdeal.RefValue

end
-- ==== Proof.lean ====
/-
  The kernel program — three graph-convolution layers, each `max (mean · Wl + h · Wr + b) 0` over the table `mean`
  of neighbourhood means of its input table `h`, then a per-graph sum of the last table's rows and a logistic
  read-out — against its reference, over the extended reals.

  Frames. Each program runs to the end and leaves its fourteen argument arrays as launched: the kernel program's
  @main is four stretches of host operations around four kernel regions (the run through them is `Run.run_all`; no
  stretch writes an argument and no region has one as its output), at the word-level instance and at the ideal one;
  the reference is host operations only.

  Values, at the ideal instance. A change of float format is the identity there and a matrix product is the plain
  sum of products, whichever unit computes it and in whatever order. So each layer kernel writes, block of 4000 rows
  by block, the specification's layer of its two input tables; the pooling kernel's accumulator after the last block
  holds, for graph `g`, the sum of the rows whose id is the word `g` — the product with the one-hot matrix of the
  ids keeps exactly those rows, `0 · x = 0` and `1 · x = x` for every extended real `x` —, which is what the
  reference's scatter-add of the rows at their ids leaves; and both end with `logistic (pooled · Wro + bro)`, the
  reference spelling the logistic function as `1 / (1 + exp (−x))`. The neighbourhood means are computed by the
  same host operations in both programs (a gather of rows, a scatter-add, a division by the clamped count), so they
  stay one unopened function of the table and the edge list. No law used here needs a finite operand: the
  precondition is not opened.
-/
import proofs.«405438_j90185723282019_1_alg».proof.Defs
import proofs.«405438_j90185723282019_1_alg».proof.Proof.Gen.Kernel
import proofs.«405438_j90185723282019_1_alg».proof.Proof.Gen.KernelIdeal
import proofs.«405438_j90185723282019_1_alg».proof.Proof.Gen.ReferenceIdeal
import proofs.«405438_j90185723282019_1_alg».proof.Proof.Gen.Pre_finite_inputs
import proofs.«405438_j90185723282019_1_alg».proof.Proof.RunK
import proofs.«405438_j90185723282019_1_alg».proof.Proof.RunKI
import proofs.«405438_j90185723282019_1_alg».proof.Proof.ValKI
import proofs.«405438_j90185723282019_1_alg».proof.Proof.SageArr0KI
import proofs.«405438_j90185723282019_1_alg».proof.Proof.SageArr1KI
import proofs.«405438_j90185723282019_1_alg».proof.Proof.SageArr2KI
import proofs.«405438_j90185723282019_1_alg».proof.Proof.PoolArr3KI
import proofs.«405438_j90185723282019_1_alg».proof.Proof.RefValue
import Idealize.ShloMosaic.Adequacy
import Idealize.ShloMosaic.Init

set_option maxRecDepth 16384

noncomputable section

namespace Cert.Proof

open Idealize.ShloMosaic Idealize.SL.Sem

/-- The word-level program runs and leaves its arguments as launched. -/
theorem frame_kernel : Cert.frame_Kernel := fun m ρ _ => Cert.Kernel.Run.frame m ρ

/-- So does the idealized program. -/
theorem frame_kernelIdeal : Cert.frame_KernelIdeal := fun m ρ _ => Cert.KernelIdeal.Run.frame m ρ

/-- The reference is host operations only: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The neighbourhood means: the reference's host operations are the kernel program's, operation for operation. -/
theorem mean_same (h : FVec Ideal Cert.KernelIdeal.S100000x128 .f32) (ei : IVec Cert.KernelIdeal.S2x600000 32) :
    Cert.ReferenceIdeal.RefValue.meanR (F := Ideal) h ei = Cert.KernelIdeal.Host.meanOf (F := Ideal) h ei := rfl

/-- From memories agreeing on the arguments both programs end with the same result: the read-out of the third
    layer's table. -/
theorem algebraic : Cert.algebraic_KernelIdeal_ReferenceIdeal := by
  intro m ρ m' ρ' _ hagree
  refine ⟨fun c => Cert.Spec.out (Cert.KernelIdeal.Run.K3 m c) (Cert.Spec.colIds (m ((c.tc : Thread Cert.KernelIdeal.nD Cert.KernelIdeal.τ).loc Cert.KernelIdeal.main_arg2)))
      (m ((c.tc : Thread Cert.KernelIdeal.nD Cert.KernelIdeal.τ).loc Cert.KernelIdeal.main_arg12)) (Cert.Spec.oneOf (m ((c.tc : Thread Cert.KernelIdeal.nD Cert.KernelIdeal.τ).loc Cert.KernelIdeal.main_arg13))),
    Cert.KernelIdeal.Run.run_result m ρ _ (fun c => Cert.KernelIdeal.Run.result_value m ρ c
      Cert.KernelIdeal.R0.arr5 Cert.KernelIdeal.R1.arr5 Cert.KernelIdeal.R2.arr5 Cert.KernelIdeal.R3.arr4), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  refine (Cert.ReferenceIdeal.Read.val_main_v91_eq m' c).trans ((Cert.ReferenceIdeal.RefValue.ref_result _ _ _ _ _ _ _ _ _ _ _ _ _ _).trans ?_)
  rw [e0, e1, e2, e3, e4, e5, e6, e7, e8, e9, e10, e11, e12, e13]
  simp only [mean_same]
  rfl

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_reference, Cert.Proof.preserves, Cert.Proof.algebraic⟩

end
